-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "scale_times_margin" .f32 0x41100000#32 ((75497475 / 8388608 : ℝ) : EReal)
  ∧ IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2048 : Shape := ⟨1, ![2048]⟩
abbrev S100000x128 : Shape := ⟨2, ![100000, 128]⟩
abbrev S_ : Shape := ⟨0, ![]⟩
abbrev S100000 : Shape := ⟨1, ![100000]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  reducesTo_S2048x128_S2048_d1 : S2048x128.ReducesTo [1] S2048
  bcast_S_S2048 : S_.BroadcastsInDim S2048 (![] : Fin 0 → Fin S2048.rank)
  reducesTo_S2048_S_d0 : S2048.ReducesTo [0] S_
  reducesTo_S100000x128_S100000_d1 : S100000x128.ReducesTo [1] S100000
  bcast_S_S100000 : S_.BroadcastsInDim S100000 (![] : Fin 0 → Fin S100000.rank)
  reducesTo_S100000_S_d0 : S100000.ReducesTo [0] S_

variable [Facts]

def fn_part1 {F : FTy → Type} [FloatOps F] (main_arg1 : IVec S2048 32) (main_v14 : IVec S_ 1) (main_v15 : FVec F S100000x128 .f32) (main_cst_5 : FVec F S_ .f32) : IVec S_ 1 :=
  let main_v16 : FVec F S100000 .f32 := (fun x v => Host.reduceAdd x v reducesTo_S100000x128_S100000_d1 h_S_) main_v15 main_cst_5
  let main_cst_6 : FVec F S_ .f32 := constant S_ .f32 0x00000000#32
  let main_v17 : FVec F S100000 .f32 := broadcastInDim S100000 ![] bcast_S_S100000 main_cst_6
  let main_v18 : IVec S100000 1 := cmpf .ogt main_v16 main_v17
  let main_c_7 : IVec S_ 1 := constantI S_ 1 1#1
  let main_v19 : IVec S_ 1 := (fun x v => Host.reduce IntOp.andi x v reducesTo_S100000_S_d0 h_S_) main_v18 main_c_7
  let main_v20 : IVec S_ 1 := andi main_v14 main_v19
  let main_c_8 : IVec S_ 32 := constantI S_ 32 0#32
  let main_v21 : IVec S2048 32 := broadcastInDim S2048 ![] bcast_S_S2048 main_c_8
  let main_v22 : IVec S2048 1 := cmpi .sge main_arg1 main_v21
  let main_c_9 : IVec S_ 32 := constantI S_ 32 100000#32
  let main_v23 : IVec S2048 32 := broadcastInDim S2048 ![] bcast_S_S2048 main_c_9
  let main_v24 : IVec S2048 1 := cmpi .slt main_arg1 main_v23
  let main_v25 : IVec S2048 1 := andi main_v22 main_v24
  let main_c_10 : IVec S_ 1 := constantI S_ 1 1#1
  let main_v26 : IVec S_ 1 := (fun x v => Host.reduce IntOp.andi x v reducesTo_S2048_S_d0 h_S_) main_v25 main_c_10
  let main_v27 : IVec S_ 1 := andi main_v20 main_v26
  main_v27

def fn {F : FTy → Type} [FloatOps F] (main_arg0 : FVec F S2048x128 .f32) (main_arg1 : IVec S2048 32) (main_arg2 : FVec F S100000x128 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S2048x128 .f32 := mulf main_arg0 main_arg0
  let main_cst_2 : FVec F S_ .f32 := constant S_ .f32 0x00000000#32
  let main_v10 : FVec F S2048 .f32 := (fun x v => Host.reduceAdd x v reducesTo_S2048x128_S2048_d1 h_S_) main_v9 main_cst_2
  let main_cst_3 : FVec F S_ .f32 := constant S_ .f32 0x00000000#32
  let main_v11 : FVec F S2048 .f32 := broadcastInDim S2048 ![] bcast_S_S2048 main_cst_3
  let main_v12 : IVec S2048 1 := cmpf .ogt main_v10 main_v11
  let main_c_4 : IVec S_ 1 := constantI S_ 1 1#1
  let main_v13 : IVec S_ 1 := (fun x v => Host.reduce IntOp.andi x v reducesTo_S2048_S_d0 h_S_) main_v12 main_c_4
  let main_v14 : IVec S_ 1 := andi main_v8 main_v13
  let main_v15 : FVec F S100000x128 .f32 := mulf main_arg2 main_arg2
  let main_cst_5 : FVec F S_ .f32 := constant S_ .f32 0x00000000#32
  fn_part1 (F := F) main_arg1 main_v14 main_v15 main_cst_5
-- ==== Kernel.lean ====
abbrev S2048x128 : Shape := ⟨2, ![2048, 128]⟩
abbrev S2048 : Shape := ⟨1, ![2048]⟩
abbrev S100000x128 : Shape := ⟨2, ![100000, 128]⟩
abbrev S2048x1 : Shape := ⟨2, ![2048, 1]⟩
abbrev S1024x128 : Shape := ⟨2, ![1024, 128]⟩
abbrev S2000x128 : Shape := ⟨2, ![2000, 128]⟩
abbrev S1024x1 : Shape := ⟨2, ![1024, 1]⟩
abbrev S1024 : Shape := ⟨1, ![1024]⟩
abbrev S2000 : Shape := ⟨1, ![2000]⟩
abbrev S2000x1 : Shape := ⟨2, ![2000, 1]⟩
abbrev S1024x2000 : Shape := ⟨2, ![1024, 2000]⟩
abbrev S1x2000 : Shape := ⟨2, ![1, 2000]⟩
abbrev S_ : Shape := ⟨0, ![]⟩

abbrev nBuf : Space → Nat
  | .hbm => 9
  | .vmem => 12
  | .smem => 0
  | _ => 0

abbrev bufTy : (tb : Table) → Fin (tcTables nBuf tb) → BufTy
  | .hbm, ⟨0, _⟩ => ⟨S2048x128, .f32⟩
  | .hbm, ⟨1, _⟩ => ⟨S2048, .i32⟩
  | .hbm, ⟨2, _⟩ => ⟨S100000x128, .f32⟩
  | .hbm, ⟨3, _⟩ => ⟨S2048x1, .i32⟩
  | .hbm, ⟨4, _⟩ => ⟨S2048x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S2000x128, .f32⟩
  | .local _ .vmem, ⟨3, _⟩ => ⟨S2000x128, .f32⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x128, .bf16⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v57 : BitVec 1 := Scalar.cmpi .eq arg1 c49_i32
  let v58 : BitVec 32 := Scalar.extui v57
  let c0_i32_28 : BitVec 32 := 0#32
  let v59 : BitVec 1 := Scalar.cmpi .ne v58 c0_i32_28
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2048_S2048x1 : S2048.ShapeCasts S2048x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  broadcasts_S1024x1_S1024x128 : S1024x1.Broadcasts S1024x128
  bitsLt_bf16_f32 : FTy.bits .bf16 < FTy.bits .f32
  shapeCasts_S1024x128_S1024x128 : S1024x128.ShapeCasts S1024x128
  packedbf16_S1024x128_S1024x128_0_0 : (Rect.unit (s := S1024x128) ![0, 0] S1024x128.size inb_S1024x128_S1024x128_0_0).PackedRows (EltTy.packing .bf16)
  inb_S2000x128_S2000x128_0_0 : ∀ a, (![0, 0] : Fin 2 → Nat) a + S2000x128.size a ≤ S2000x128.size a
  h_S2000x128 : 0 < S2000x128.numel
  reduces_S2000x128_S2000 : S2000x128.Reduces [1] S2000
  shapeCasts_S2000_S2000x1 : S2000.ShapeCasts S2000x1
  broadcasts_S2000x1_S2000x128 : S2000x1.Broadcasts S2000x128
  iota_S1x2000_d1_w32 : S1x2000.Iotas .tc 32 [1]
  broadcasts_S1024x1_S1024x2000 : S1024x1.Broadcasts S1024x2000
  broadcasts_S1x2000_S1024x2000 : S1x2000.Broadcasts S1024x2000
  reduces_S1024x2000_S1024 : S1024x2000.Reduces [1] S1024
  reducesTo_S2048x1_S_d0_1 : S2048x1.ReducesTo [0, 1] S_
  h_S_ : 0 < S_.numel
  dot_S1024x128_S2000x128_S1024x2000_1_1_0_0_n_n_wf : DotDims.WF S1024x128 S2000x128 S1024x2000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S2048x128.size a
  hwx0_0 : ∀ i : grid0.Coords, EltTy.bits .f32 = 32 ∨ (Rect.block (s := S2048x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S2048x1.size a
  hwx0_2 : ∀ i : grid0.Coords, EltTy.bits .i32 = 32 ∨ (Rect.block (s := S2048x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S2048x1.size a
  hwx0_3 : ∀ i : grid0.Coords, EltTy.bits .f32 = 32 ∨ (Rect.block (s := S2048x1) S1024x1.size (cc0_transform_3 i) (hinb0_3 i)).WholeWords (EltTy.packing .f32)

variable [Facts₀]

def dot_S1024x128_S2000x128_S1024x2000_1_1_0_0_n_n : DotDims S1024x128 S2000x128 S1024x2000 where
  lhsContracting := [1]
  rhsContracting := [1]
  lhsNonContracting := [0]
  rhsNonContracting := [0]
  lhsBatch := []
  rhsBatch := []
  wf := dot_S1024x128_S2000x128_S1024x2000_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x128 : Shape := ⟨2, ![2048, 128]⟩
abbrev S2048 : Shape := ⟨1, ![2048]⟩
abbrev S100000x128 : Shape := ⟨2, ![100000, 128]⟩
abbrev S_ : Shape := ⟨0, ![]⟩
abbrev S2048x1 : Shape := ⟨2, ![2048, 1]⟩
abbrev S100000 : Shape := ⟨1, ![100000]⟩
abbrev S100000x1 : Shape := ⟨2, ![100000, 1]⟩
abbrev S2048x100000 : Shape := ⟨2, ![2048, 100000]⟩
abbrev S2048x2 : Shape := ⟨2, ![2048, 2]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 107
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048, .i32⟩
  | .hbm, ⟨2, _⟩ => ⟨S100000x128, .f32⟩
  | .hbm, ⟨3, _⟩ => ⟨S2048x128, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S2048x1, .f32⟩
  | .hbm, ⟨8, _⟩ => ⟨S2048x128, .f32⟩
  | .hbm, ⟨9, _⟩ => ⟨S2048x128, .f32⟩
  | .hbm, ⟨10, _⟩ => ⟨S100000x128, .f32⟩
  | .hbm, ⟨11, _⟩ => ⟨S_, .f32⟩
  | .hbm, ⟨12, _⟩ => ⟨S100000, .f32⟩
  | .hbm, ⟨13, _⟩ => ⟨S100000x1, .f32⟩
  | .hbm, ⟨14, _⟩ => ⟨S100000x1, .f32⟩
  | .hbm, ⟨15, _⟩ => ⟨S100000x128, .f32⟩
  | .hbm, ⟨16, _⟩ => ⟨S100000x128, .f32⟩
  | .hbm, ⟨17, _⟩ => ⟨S2048x100000, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2048x100000, .f32⟩
  | .hbm, ⟨22, _⟩ => ⟨S2048x100000, .f32⟩
  | .hbm, ⟨23, _⟩ => ⟨S_, .f32⟩
  | .hbm, ⟨24, _⟩ => ⟨S2048x100000, .f32⟩
  | .hbm, ⟨25, _⟩ => ⟨S2048x100000, .f32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S2048, .i32⟩
  | .hbm, ⟨41, _⟩ => ⟨S2048x1, .i32⟩
  | .hbm, ⟨42, _⟩ => ⟨S2048x1, .i32⟩
  | .hbm, ⟨43, _⟩ => ⟨S2048x2, .i32⟩
  | .hbm, ⟨44, _⟩ => ⟨S_, .f32⟩
  | .hbm, ⟨45, _⟩ => ⟨S2048, .f32⟩
  | .hbm, ⟨46, _⟩ => ⟨S2048x100000, .f32⟩
  | .hbm, ⟨47, _⟩ => ⟨S_, .f32⟩
  | .hbm, ⟨48, _⟩ => ⟨S2048x100000, .f32⟩
  | .hbm, ⟨49, _⟩ => ⟨S2048x100000, .f32⟩
  | .hbm, ⟨50, _⟩ => ⟨S_, .f32⟩
  | .hbm, ⟨51, _⟩ => ⟨S2048, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S2048x1, .f32⟩
  | .hbm, ⟨56, _⟩ => ⟨S2048x100000, .f32⟩
  | .hbm, ⟨57, _⟩ => ⟨S2048x100000, .f32⟩
  | .hbm, ⟨58, _⟩ => ⟨S2048x100000, .f32⟩
  | .hbm, ⟨59, _⟩ => ⟨S_, .f32⟩
  | .hbm, ⟨60, _⟩ => ⟨S2048, .f32⟩
  | .hbm, ⟨61, _⟩ => ⟨S2048x1, .f32⟩
  | .hbm, ⟨62, _⟩ => ⟨S2048x1, .f32⟩
  | .hbm, ⟨63, _⟩ => ⟨S2048x100000, .f32⟩
  | .hbm, ⟨64, _⟩ => ⟨S2048x100000, .f32⟩
  | .hbm, ⟨65, _⟩ => ⟨S2048x1, .i32⟩
  | .hbm, ⟨66, _⟩ => ⟨S_, .i32⟩
  | .hbm, ⟨67, _⟩ => ⟨S2048x1, .i32⟩
  | .hbm, ⟨68, _⟩ => ⟨S2048x1, .i1⟩
  | .hbm, ⟨69, _⟩ => ⟨S_, .i32⟩
  | .hbm, ⟨70, _⟩ => ⟨S2048x1, .i32⟩
  | .hbm, ⟨71, _⟩ => ⟨S2048x1, .i32⟩
  | .hbm, ⟨72, _⟩ => ⟨S2048x1, .i32⟩
  | .hbm, ⟨73, _⟩ => ⟨S2048x1x1, .i32⟩
  | .hbm, ⟨74, _⟩ => ⟨S1, .i32⟩
  | .hbm, ⟨75, _⟩ => ⟨S_, .i32⟩
  | .hbm, ⟨76, _⟩ => ⟨S2048x1x1, .i32⟩
  | .hbm, ⟨77, _⟩ => ⟨S2048x1x1, .i1⟩
  | .hbm, ⟨78, _⟩ => ⟨S1x1x1, .i32⟩
  | .hbm, ⟨79, _⟩ => ⟨S2048x1x1, .i32⟩
  | .hbm, ⟨80, _⟩ => ⟨S2048x1x1, .i1⟩
  | .hbm, ⟨81, _⟩ => ⟨S2048x1x1, .i1⟩
  | .hbm, ⟨82, _⟩ => ⟨S_, .i1⟩
  | .hbm, ⟨83, _⟩ => ⟨S2048x1, .i1⟩
  | .hbm, ⟨84, _⟩ => ⟨S2048x1, .f32⟩
  | .hbm, ⟨85, _⟩ => ⟨S_, .f32⟩
  | .hbm, ⟨86, _⟩ => ⟨S2048x1, .f32⟩
  | .hbm, ⟨87, _⟩ => ⟨S2048x1, .f32⟩
  | .hbm, ⟨88, _⟩ => ⟨S2048, .f32⟩
  | .hbm, ⟨89, _⟩ => ⟨S2048, .f32⟩
  | .hbm, ⟨90, _⟩ => ⟨S_, .f32⟩
  | .hbm, ⟨91, _⟩ => ⟨S2048, .f32⟩
  | .hbm, ⟨92, _⟩ => ⟨S_, .f32⟩
  | .hbm, ⟨93, _⟩ => ⟨S2048, .f32⟩
  | .hbm, ⟨94, _⟩ => ⟨S2048, .f32⟩
  | .hbm, ⟨95, _⟩ => ⟨S2048, .f32⟩
  | .hbm, ⟨96, _⟩ => ⟨S_, .f32⟩
  | .hbm, ⟨97, _⟩ => ⟨S2048, .f32⟩
  | .hbm, ⟨98, _⟩ => ⟨S2048, .f32⟩
  | .hbm, ⟨99, _⟩ => ⟨S_, .f32⟩
  | .hbm, ⟨100, _⟩ => ⟨S2048, .f32⟩
  | .hbm, ⟨101, _⟩ => ⟨S2048, .f32⟩
  | .hbm, ⟨102, _⟩ => ⟨S2048, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_cst_0 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_c_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_v23 : Ref sig .tc := ⟨.hbm, 46, rfl⟩
abbrev main_cst_5 : Ref sig .tc := ⟨.hbm, 47, rfl⟩
abbrev main_v24 : Ref sig .tc := ⟨.hbm, 48, rfl⟩
abbrev main_v25 : Ref sig .tc := ⟨.hbm, 49, rfl⟩
abbrev main_call3_cst : Ref sig .tc := ⟨.hbm, 50, rfl⟩
abbrev main_call3_v0 : Ref sig .tc := ⟨.hbm, 51, rfl⟩
abbrev main_call3_cst_0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_v6 : Ref sig .tc := ⟨.hbm, 58, rfl⟩
abbrev main_call3_cst_1 : Ref sig .tc := ⟨.hbm, 59, rfl⟩
abbrev main_call3_v7 : Ref sig .tc := ⟨.hbm, 60, rfl⟩
abbrev main_call3_v8 : Ref sig .tc := ⟨.hbm, 61, rfl⟩
abbrev main_call3_v9 : Ref sig .tc := ⟨.hbm, 62, rfl⟩
abbrev main_call3_v10 : Ref sig .tc := ⟨.hbm, 63, rfl⟩
abbrev main_v26 : Ref sig .tc := ⟨.hbm, 64, rfl⟩
abbrev main_v27 : Ref sig .tc := ⟨.hbm, 65, rfl⟩
abbrev main_call4_c : Ref sig .tc := ⟨.hbm, 66, rfl⟩
abbrev main_call4_v0 : Ref sig .tc := ⟨.hbm, 67, rfl⟩
abbrev main_call4_v1 : Ref sig .tc := ⟨.hbm, 68, rfl⟩
abbrev main_call4_c_0 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_call4_v5 : Ref sig .tc := ⟨.hbm, 73, rfl⟩
abbrev main_call4_c_1 : Ref sig .tc := ⟨.hbm, 74, rfl⟩
abbrev main_call4_c_2 : Ref sig .tc := ⟨.hbm, 75, rfl⟩
abbrev main_call4_v6 : Ref sig .tc := ⟨.hbm, 76, rfl⟩
abbrev main_call4_v7 : Ref sig .tc := ⟨.hbm, 77, rfl⟩
abbrev main_call4_v8 : Ref sig .tc := ⟨.hbm, 78, rfl⟩
abbrev main_call4_v9 : Ref sig .tc := ⟨.hbm, 79, rfl⟩
abbrev main_call4_v10 : Ref sig .tc := ⟨.hbm, 80, rfl⟩
abbrev main_call4_v11 : Ref sig .tc := ⟨.hbm, 81, rfl⟩
abbrev main_call4_c_3 : Ref sig .tc := ⟨.hbm, 82, rfl⟩
abbrev main_call4_v12 : Ref sig .tc := ⟨.hbm, 83, rfl⟩
abbrev main_call4_v13 : Ref sig .tc := ⟨.hbm, 84, rfl⟩
abbrev main_call4_cst : Ref sig .tc := ⟨.hbm, 85, rfl⟩
abbrev main_call4_v14 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_cst_6 : Ref sig .tc := ⟨.hbm, 90, rfl⟩
abbrev main_v31 : Ref sig .tc := ⟨.hbm, 91, rfl⟩
abbrev main_cst_7 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_cst_8 : Ref sig .tc := ⟨.hbm, 96, rfl⟩
abbrev main_v35 : Ref sig .tc := ⟨.hbm, 97, rfl⟩
abbrev main_v36 : Ref sig .tc := ⟨.hbm, 98, rfl⟩
abbrev main_cst_9 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_cst_10 : Ref sig .tc := ⟨.hbm, 103, rfl⟩
abbrev main_v40 : Ref sig .tc := ⟨.hbm, 104, rfl⟩
abbrev main_cst_11 : Ref sig .tc := ⟨.hbm, 105, rfl⟩
abbrev main_v41 : Ref sig .tc := ⟨.hbm, 106, rfl⟩

abbrev nD : Nat := 1
abbrev τ : Topo := Topo.v7x

variable {F : FTy → Type} [FloatOps F]

class Facts₀ : Prop where
  reducesTo_S2048x128_S2048_d1 : S2048x128.ReducesTo [1] S2048
  h_S_ : 0 < S_.numel
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  reducesTo_S100000x128_S100000_d1 : S100000x128.ReducesTo [1] S100000
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S2048x100000 : S_.BroadcastsInDim S2048x100000 (![] : Fin 0 → Fin S2048x100000.rank)
  bcast_S_S2048 : S_.BroadcastsInDim S2048 (![] : Fin 0 → Fin S2048.rank)
  concatenates_S2048x1_S2048x1_S2048x2_d1 : Shape.Concatenates [S2048x1, S2048x1] S2048x2 1
  reducesTo_S2048x100000_S2048_d1 : S2048x100000.ReducesTo [1] S2048
  bcast_S2048x1_S2048x100000_0_1 : S2048x1.BroadcastsInDim S2048x100000 (![0, 1] : Fin 2 → Fin S2048x100000.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  shapeCasts_S2048x1_S2048 : S2048x1.ShapeCasts S2048
  reducesTo_S2048_S_d0 : S2048.ReducesTo [0] S_
  dot_S2048x128_S100000x128_S2048x100000_1_1_0_0_n_n_wf : DotDims.WF S2048x128 S100000x128 S2048x100000 [1] [1] [0] [0] [] []
  scatter_S2048x100000_S2048x2_S2048_n_01_01_1_wf : ScatterDims.WF S2048x100000 S2048x2 S2048 [] [0, 1] [0, 1] 1
  gather_S2048x100000_S2048x1x1_S2048x1_n_1_0_0_1_2_11_wf : GatherDims.WF S2048x100000 S2048x1x1 S2048x1 [] [1] [0] [1] [0] 2 ![1, 1]

variable [Facts₀]

def dot_S2048x128_S100000x128_S2048x100000_1_1_0_0_n_n : DotDims S2048x128 S100000x128 S2048x100000 where
  lhsContracting := [1]
  rhsContracting := [1]
  lhsNonContracting := [0]
  rhsNonContracting := [0]
  lhsBatch := []
  rhsBatch := []
  wf := dot_S2048x128_S100000x128_S2048x100000_1_1_0_0_n_n_wf
def scatter_S2048x100000_S2048x2_S2048_n_01_01_1 : ScatterDims S2048x100000 S2048x2 S2048 where
  updateWindowDims := []
  insertedWindowDims := [0, 1]
  scatterDimsToOperandDims := [0, 1]
  indexVectorDim := 1
  wf := scatter_S2048x100000_S2048x2_S2048_n_01_01_1_wf
def gather_S2048x100000_S2048x1x1_S2048x1_n_1_0_0_1_2_11 : GatherDims S2048x100000 S2048x1x1 S2048x1 where
  offsetDims := []
  collapsedSliceDims := [1]
  operandBatchingDims := [0]
  startIndicesBatchingDims := [0]
  startIndexMap := [1]
  indexVectorDim := 2
  sliceSizes := ![1, 1]
  wf := gather_S2048x100000_S2048x1x1_S2048x1_n_1_0_0_1_2_11_wf

class Facts : Prop extends Facts₀ where

variable [Facts]
-- ==== Proof.KernelPieces.lean ====
import proofs.«430701_j88553635709481_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! What each control case of the body leaves in the four buffers it carries from one grid point to the next, and in
    the output block, as the body's pure payloads of the blocks it loads: at a tile's first point the three
    accumulators are reset and then take the first class tile's sums, and the unit feature rows are computed once; at
    every later point each accumulator is what the point before left plus this class tile's sum, and the unit rows
    stay; at a tile's last point the output block is the row loss of the three finished accumulators. -/

namespace Cert.KernelIdeal.Pieces

open Cert.KernelIdeal Cert.KernelIdeal.Gen

variable {F : FTy → Type} [FloatOps F] [Named F]

theorem hz : (![0, 0] : Fin 2 → Nat) = fun _ => 0 := funext fun a => by fin_cases a <;> rfl

theorem left_first_exp (c : Dev nD) (i : grid0.Coords) (a2 : Memref sig .tc .vmem S1024x128 .f32) (h2 : a2.IsWhole) (a3 : Memref sig .tc .vmem S2000x128 .f32) (h3 : a3.IsWhole) (a4 : Memref sig .tc .vmem S1024x1 .i32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x128 .bf16) (h9 : a9.IsWhole) (hc0 : cond0_0 i) (hc1 : ¬cond0_1 i)
    (x0 : Vec F S1024x128 .f32) (x1 : Vec F S2000x128 .f32) (x2 : Vec F S1024x1 .i32) :
    sout0_A_0 c i a2 h2 a3 h3 a4 h4 a5 h5 a6 h6 a7 h7 a8 h8 a9 h9 hc0 hc1 x0 x1 x2 = k0_pay1 (k0_pay11 i (k0_pay8 x0) x1 x2 (k0_pay5 (F := F))) := by
  unfold sout0_A_0
  rw [View.read_writes_eq_canon _ _ _ (scover0_A_0 c i a2 h2 a3 h3 a4 h4 a5 h5 a6 h6 a7 h7 a8 h8 a9 h9 hc0 hc1 x0 x1 x2)]
  unfold kernelRun0_A
  dsimp only
  sl_unfold_words
  rw [View.canon_cons_unit_zero (S := S1024x1) hz]
  simp only [View.readAt_eq_ld, h2.read_unread, h3.read_unread, h4.read_unread, h5.read_unread, h6.read_unread, h7.read_unread, h8.read_unread, h9.read_unread, View.ld_unit_zero (S := S1024x1) hz, View.ld_unit_zero (S := S1024x128) hz, View.ld_unit_zero (S := S2000x128) hz, View.readCov_unit_zero (S := S1024x1) _ hz, View.readCov_unit_zero (S := S1024x128) _ hz]

theorem left_first_sum (c : Dev nD) (i : grid0.Coords) (a2 : Memref sig .tc .vmem S1024x128 .f32) (h2 : a2.IsWhole) (a3 : Memref sig .tc .vmem S2000x128 .f32) (h3 : a3.IsWhole) (a4 : Memref sig .tc .vmem S1024x1 .i32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x128 .bf16) (h9 : a9.IsWhole) (hc0 : cond0_0 i) (hc1 : ¬cond0_1 i)
    (x0 : Vec F S1024x128 .f32) (x1 : Vec F S2000x128 .f32) (x2 : Vec F S1024x1 .i32) :
    sout0_A_1 c i a2 h2 a3 h3 a4 h4 a5 h5 a6 h6 a7 h7 a8 h8 a9 h9 hc0 hc1 x0 x1 x2 = k0_pay2 (k0_pay10 i (k0_pay8 x0) x1 x2) (k0_pay6 (F := F)) := by
  unfold sout0_A_1
  rw [View.read_writes_eq_canon _ _ _ (scover0_A_1 c i a2 h2 a3 h3 a4 h4 a5 h5 a6 h6 a7 h7 a8 h8 a9 h9 hc0 hc1 x0 x1 x2)]
  unfold kernelRun0_A
  dsimp only
  sl_unfold_words
  rw [View.canon_cons_unit_zero (S := S1024x1) hz]
  simp only [View.readAt_eq_ld, h2.read_unread, h3.read_unread, h4.read_unread, h5.read_unread, h6.read_unread, h7.read_unread, h8.read_unread, h9.read_unread, View.ld_unit_zero (S := S1024x1) hz, View.ld_unit_zero (S := S1024x128) hz, View.ld_unit_zero (S := S2000x128) hz, View.readCov_unit_zero (S := S1024x1) _ hz, View.readCov_unit_zero (S := S1024x128) _ hz]

theorem left_first_label (c : Dev nD) (i : grid0.Coords) (a2 : Memref sig .tc .vmem S1024x128 .f32) (h2 : a2.IsWhole) (a3 : Memref sig .tc .vmem S2000x128 .f32) (h3 : a3.IsWhole) (a4 : Memref sig .tc .vmem S1024x1 .i32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x128 .bf16) (h9 : a9.IsWhole) (hc0 : cond0_0 i) (hc1 : ¬cond0_1 i)
    (x0 : Vec F S1024x128 .f32) (x1 : Vec F S2000x128 .f32) (x2 : Vec F S1024x1 .i32) :
    sout0_A_2 c i a2 h2 a3 h3 a4 h4 a5 h5 a6 h6 a7 h7 a8 h8 a9 h9 hc0 hc1 x0 x1 x2 = k0_pay3 (k0_pay9 i x2) (k0_pay10 i (k0_pay8 x0) x1 x2) (k0_pay7 (F := F)) := by
  unfold sout0_A_2
  rw [View.read_writes_eq_canon _ _ _ (scover0_A_2 c i a2 h2 a3 h3 a4 h4 a5 h5 a6 h6 a7 h7 a8 h8 a9 h9 hc0 hc1 x0 x1 x2)]
  unfold kernelRun0_A
  dsimp only
  sl_unfold_words
  rw [View.canon_cons_unit_zero (S := S1024x1) hz]
  simp only [View.readAt_eq_ld, h2.read_unread, h3.read_unread, h4.read_unread, h5.read_unread, h6.read_unread, h7.read_unread, h8.read_unread, h9.read_unread, View.ld_unit_zero (S := S1024x1) hz, View.ld_unit_zero (S := S1024x128) hz, View.ld_unit_zero (S := S2000x128) hz, View.readCov_unit_zero (S := S1024x1) _ hz, View.readCov_unit_zero (S := S1024x128) _ hz]

theorem left_first_unit (c : Dev nD) (i : grid0.Coords) (a2 : Memref sig .tc .vmem S1024x128 .f32) (h2 : a2.IsWhole) (a3 : Memref sig .tc .vmem S2000x128 .f32) (h3 : a3.IsWhole) (a4 : Memref sig .tc .vmem S1024x1 .i32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x128 .bf16) (h9 : a9.IsWhole) (hc0 : cond0_0 i) (hc1 : ¬cond0_1 i)
    (x0 : Vec F S1024x128 .f32) (x1 : Vec F S2000x128 .f32) (x2 : Vec F S1024x1 .i32) :
    sout0_A_3 c i a2 h2 a3 h3 a4 h4 a5 h5 a6 h6 a7 h7 a8 h8 a9 h9 hc0 hc1 x0 x1 x2 = k0_pay8 x0 := by
  unfold sout0_A_3
  rw [View.read_writes_eq_canon _ _ _ (scover0_A_3 c i a2 h2 a3 h3 a4 h4 a5 h5 a6 h6 a7 h7 a8 h8 a9 h9 hc0 hc1 x0 x1 x2)]
  unfold kernelRun0_A
  dsimp only
  sl_unfold_words
  rw [View.canon_unit_zero hz]
  simp only [View.readAt_eq_ld, h2.read_unread, h3.read_unread, h4.read_unread, h5.read_unread, h6.read_unread, h7.read_unread, h8.read_unread, h9.read_unread, View.ld_unit_zero (S := S1024x1) hz, View.ld_unit_zero (S := S1024x128) hz, View.ld_unit_zero (S := S2000x128) hz, View.readCov_unit_zero (S := S1024x1) _ hz, View.readCov_unit_zero (S := S1024x128) _ hz]

theorem left_later_exp (c : Dev nD) (i : grid0.Coords) (a2 : Memref sig .tc .vmem S1024x128 .f32) (h2 : a2.IsWhole) (a3 : Memref sig .tc .vmem S2000x128 .f32) (h3 : a3.IsWhole) (a4 : Memref sig .tc .vmem S1024x1 .i32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x128 .bf16) (h9 : a9.IsWhole) (hc0 : ¬cond0_0 i) (hc1 : ¬cond0_1 i)
    (x0 : Vec F S1024x128 .f32) (x1 : Vec F S2000x128 .f32) (x2 : Vec F S1024x1 .i32) (xs0 : Vec F S1024x1 .f32) (xs1 : Vec F S1024x1 .f32) (xs2 : Vec F S1024x1 .f32) (xs3 : Vec F S1024x128 .bf16) :
    sout0_B_0 c i a2 h2 a3 h3 a4 h4 a5 h5 a6 h6 a7 h7 a8 h8 a9 h9 hc0 hc1 x0 x1 x2 xs0 xs1 xs2 xs3 = k0_pay1 (k0_pay11 i xs3 x1 x2 xs0) := by
  unfold sout0_B_0
  rw [View.read_writes_eq_canon _ _ _ (scover0_B_0 c i a2 h2 a3 h3 a4 h4 a5 h5 a6 h6 a7 h7 a8 h8 a9 h9 hc0 hc1 x0 x1 x2 xs0 xs1 xs2 xs3)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, View.ld_unit_zero (S := S1024x1) hz, View.ld_unit_zero (S := S1024x128) hz, View.ld_unit_zero (S := S2000x128) hz, View.readCov_unit_zero (S := S1024x1) _ hz, View.readCov_unit_zero (S := S1024x128) _ hz]

theorem left_later_sum (c : Dev nD) (i : grid0.Coords) (a2 : Memref sig .tc .vmem S1024x128 .f32) (h2 : a2.IsWhole) (a3 : Memref sig .tc .vmem S2000x128 .f32) (h3 : a3.IsWhole) (a4 : Memref sig .tc .vmem S1024x1 .i32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x128 .bf16) (h9 : a9.IsWhole) (hc0 : ¬cond0_0 i) (hc1 : ¬cond0_1 i)
    (x0 : Vec F S1024x128 .f32) (x1 : Vec F S2000x128 .f32) (x2 : Vec F S1024x1 .i32) (xs0 : Vec F S1024x1 .f32) (xs1 : Vec F S1024x1 .f32) (xs2 : Vec F S1024x1 .f32) (xs3 : Vec F S1024x128 .bf16) :
    sout0_B_1 c i a2 h2 a3 h3 a4 h4 a5 h5 a6 h6 a7 h7 a8 h8 a9 h9 hc0 hc1 x0 x1 x2 xs0 xs1 xs2 xs3 = k0_pay2 (k0_pay10 i xs3 x1 x2) xs1 := by
  unfold sout0_B_1
  rw [View.read_writes_eq_canon _ _ _ (scover0_B_1 c i a2 h2 a3 h3 a4 h4 a5 h5 a6 h6 a7 h7 a8 h8 a9 h9 hc0 hc1 x0 x1 x2 xs0 xs1 xs2 xs3)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, View.ld_unit_zero (S := S1024x1) hz, View.ld_unit_zero (S := S1024x128) hz, View.ld_unit_zero (S := S2000x128) hz, View.readCov_unit_zero (S := S1024x1) _ hz, View.readCov_unit_zero (S := S1024x128) _ hz]

theorem left_later_label (c : Dev nD) (i : grid0.Coords) (a2 : Memref sig .tc .vmem S1024x128 .f32) (h2 : a2.IsWhole) (a3 : Memref sig .tc .vmem S2000x128 .f32) (h3 : a3.IsWhole) (a4 : Memref sig .tc .vmem S1024x1 .i32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x128 .bf16) (h9 : a9.IsWhole) (hc0 : ¬cond0_0 i) (hc1 : ¬cond0_1 i)
    (x0 : Vec F S1024x128 .f32) (x1 : Vec F S2000x128 .f32) (x2 : Vec F S1024x1 .i32) (xs0 : Vec F S1024x1 .f32) (xs1 : Vec F S1024x1 .f32) (xs2 : Vec F S1024x1 .f32) (xs3 : Vec F S1024x128 .bf16) :
    sout0_B_2 c i a2 h2 a3 h3 a4 h4 a5 h5 a6 h6 a7 h7 a8 h8 a9 h9 hc0 hc1 x0 x1 x2 xs0 xs1 xs2 xs3 = k0_pay3 (k0_pay9 i x2) (k0_pay10 i xs3 x1 x2) xs2 := by
  unfold sout0_B_2
  rw [View.read_writes_eq_canon _ _ _ (scover0_B_2 c i a2 h2 a3 h3 a4 h4 a5 h5 a6 h6 a7 h7 a8 h8 a9 h9 hc0 hc1 x0 x1 x2 xs0 xs1 xs2 xs3)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, View.ld_unit_zero (S := S1024x1) hz, View.ld_unit_zero (S := S1024x128) hz, View.ld_unit_zero (S := S2000x128) hz, View.readCov_unit_zero (S := S1024x1) _ hz, View.readCov_unit_zero (S := S1024x128) _ hz]

theorem left_last_exp (c : Dev nD) (i : grid0.Coords) (a2 : Memref sig .tc .vmem S1024x128 .f32) (h2 : a2.IsWhole) (a3 : Memref sig .tc .vmem S2000x128 .f32) (h3 : a3.IsWhole) (a4 : Memref sig .tc .vmem S1024x1 .i32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x128 .bf16) (h9 : a9.IsWhole) (hc0 : ¬cond0_0 i) (hc1 : cond0_1 i)
    (x0 : Vec F S1024x128 .f32) (x1 : Vec F S2000x128 .f32) (x2 : Vec F S1024x1 .i32) (xs0 : Vec F S1024x1 .f32) (xs1 : Vec F S1024x1 .f32) (xs2 : Vec F S1024x1 .f32) (xs3 : Vec F S1024x128 .bf16) :
    sout0_C_0 c i a2 h2 a3 h3 a4 h4 a5 h5 a6 h6 a7 h7 a8 h8 a9 h9 hc0 hc1 x0 x1 x2 xs0 xs1 xs2 xs3 = k0_pay1 (k0_pay11 i xs3 x1 x2 xs0) := by
  unfold sout0_C_0
  rw [View.read_writes_eq_canon _ _ _ (scover0_C_0 c i a2 h2 a3 h3 a4 h4 a5 h5 a6 h6 a7 h7 a8 h8 a9 h9 hc0 hc1 x0 x1 x2 xs0 xs1 xs2 xs3)]
  unfold kernelRun0_C
  dsimp only
  sl_unfold_words
  rw [View.canon_unit_zero hz]
  simp only [View.readAt_eq_ld, h2.read_unread, h3.read_unread, h4.read_unread, h5.read_unread, h6.read_unread, h7.read_unread, h8.read_unread, h9.read_unread, View.ld_unit_zero (S := S1024x1) hz, View.ld_unit_zero (S := S1024x128) hz, View.ld_unit_zero (S := S2000x128) hz, View.readCov_unit_zero (S := S1024x1) _ hz, View.readCov_unit_zero (S := S1024x128) _ hz]

theorem left_last_sum (c : Dev nD) (i : grid0.Coords) (a2 : Memref sig .tc .vmem S1024x128 .f32) (h2 : a2.IsWhole) (a3 : Memref sig .tc .vmem S2000x128 .f32) (h3 : a3.IsWhole) (a4 : Memref sig .tc .vmem S1024x1 .i32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x128 .bf16) (h9 : a9.IsWhole) (hc0 : ¬cond0_0 i) (hc1 : cond0_1 i)
    (x0 : Vec F S1024x128 .f32) (x1 : Vec F S2000x128 .f32) (x2 : Vec F S1024x1 .i32) (xs0 : Vec F S1024x1 .f32) (xs1 : Vec F S1024x1 .f32) (xs2 : Vec F S1024x1 .f32) (xs3 : Vec F S1024x128 .bf16) :
    sout0_C_1 c i a2 h2 a3 h3 a4 h4 a5 h5 a6 h6 a7 h7 a8 h8 a9 h9 hc0 hc1 x0 x1 x2 xs0 xs1 xs2 xs3 = k0_pay2 (k0_pay10 i xs3 x1 x2) xs1 := by
  unfold sout0_C_1
  rw [View.read_writes_eq_canon _ _ _ (scover0_C_1 c i a2 h2 a3 h3 a4 h4 a5 h5 a6 h6 a7 h7 a8 h8 a9 h9 hc0 hc1 x0 x1 x2 xs0 xs1 xs2 xs3)]
  unfold kernelRun0_C
  dsimp only
  sl_unfold_words
  rw [View.canon_unit_zero hz]
  simp only [View.readAt_eq_ld, h2.read_unread, h3.read_unread, h4.read_unread, h5.read_unread, h6.read_unread, h7.read_unread, h8.read_unread, h9.read_unread, View.ld_unit_zero (S := S1024x1) hz, View.ld_unit_zero (S := S1024x128) hz, View.ld_unit_zero (S := S2000x128) hz, View.readCov_unit_zero (S := S1024x1) _ hz, View.readCov_unit_zero (S := S1024x128) _ hz]

theorem left_last_label (c : Dev nD) (i : grid0.Coords) (a2 : Memref sig .tc .vmem S1024x128 .f32) (h2 : a2.IsWhole) (a3 : Memref sig .tc .vmem S2000x128 .f32) (h3 : a3.IsWhole) (a4 : Memref sig .tc .vmem S1024x1 .i32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x128 .bf16) (h9 : a9.IsWhole) (hc0 : ¬cond0_0 i) (hc1 : cond0_1 i)
    (x0 : Vec F S1024x128 .f32) (x1 : Vec F S2000x128 .f32) (x2 : Vec F S1024x1 .i32) (xs0 : Vec F S1024x1 .f32) (xs1 : Vec F S1024x1 .f32) (xs2 : Vec F S1024x1 .f32) (xs3 : Vec F S1024x128 .bf16) :
    sout0_C_2 c i a2 h2 a3 h3 a4 h4 a5 h5 a6 h6 a7 h7 a8 h8 a9 h9 hc0 hc1 x0 x1 x2 xs0 xs1 xs2 xs3 = k0_pay3 (k0_pay9 i x2) (k0_pay10 i xs3 x1 x2) xs2 := by
  unfold sout0_C_2
  rw [View.read_writes_eq_canon _ _ _ (scover0_C_2 c i a2 h2 a3 h3 a4 h4 a5 h5 a6 h6 a7 h7 a8 h8 a9 h9 hc0 hc1 x0 x1 x2 xs0 xs1 xs2 xs3)]
  unfold kernelRun0_C
  dsimp only
  sl_unfold_words
  rw [View.canon_unit_zero hz]
  simp only [View.readAt_eq_ld, h2.read_unread, h3.read_unread, h4.read_unread, h5.read_unread, h6.read_unread, h7.read_unread, h8.read_unread, h9.read_unread, View.ld_unit_zero (S := S1024x1) hz, View.ld_unit_zero (S := S1024x128) hz, View.ld_unit_zero (S := S2000x128) hz, View.readCov_unit_zero (S := S1024x1) _ hz, View.readCov_unit_zero (S := S1024x128) _ hz]

theorem left_last_out (c : Dev nD) (i : grid0.Coords) (a2 : Memref sig .tc .vmem S1024x128 .f32) (h2 : a2.IsWhole) (a3 : Memref sig .tc .vmem S2000x128 .f32) (h3 : a3.IsWhole) (a4 : Memref sig .tc .vmem S1024x1 .i32) (h4 : a4.IsWhole) (a5 : Memref sig .tc .vmem S1024x1 .f32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x128 .bf16) (h9 : a9.IsWhole) (hc0 : ¬cond0_0 i) (hc1 : cond0_1 i)
    (x0 : Vec F S1024x128 .f32) (x1 : Vec F S2000x128 .f32) (x2 : Vec F S1024x1 .i32) (xs0 : Vec F S1024x1 .f32) (xs1 : Vec F S1024x1 .f32) (xs2 : Vec F S1024x1 .f32) (xs3 : Vec F S1024x128 .bf16) :
    out0_C_3 c i a2 h2 a3 h3 a4 h4 a5 h5 a6 h6 a7 h7 a8 h8 a9 h9 hc0 hc1 x0 x1 x2 xs0 xs1 xs2 xs3
      = k0_pay4 (k0_pay1 (k0_pay11 i xs3 x1 x2 xs0)) (k0_pay3 (k0_pay9 i x2) (k0_pay10 i xs3 x1 x2) xs2) (k0_pay2 (k0_pay10 i xs3 x1 x2) xs1) := by
  unfold out0_C_3
  rw [View.read_writes_eq_canon _ _ _ (cover0_C_3 c i a2 h2 a3 h3 a4 h4 a5 h5 a6 h6 a7 h7 a8 h8 a9 h9 hc0 hc1 x0 x1 x2 xs0 xs1 xs2 xs3)]
  unfold kernelRun0_C
  dsimp only
  sl_unfold_words
  rw [View.canon_unit_zero hz]
  simp only [View.readAt_eq_ld, h2.read_unread, h3.read_unread, h4.read_unread, h5.read_unread, h6.read_unread, h7.read_unread, h8.read_unread, h9.read_unread, View.ld_unit_zero (S := S1024x1) hz, View.ld_unit_zero (S := S1024x128) hz, View.ld_unit_zero (S := S2000x128) hz, View.readCov_unit_zero (S := S1024x1) _ hz, View.readCov_unit_zero (S := S1024x128) _ hz]

/-! ## Point by point

What the carried buffers and the output block hold after grid point `t`, from the point's own blocks and what
the point before left. -/

variable (m : (ℓ : Loc nD τ sig) → Buf (Elt F) ℓ)

/-- The point's feature block, class block and label block, at their literal shapes. -/
abbrev fblk (c : Dev nD) (t : Fin cfg0.N) : Vec F S1024x128 .f32 := iblk m c 0 t
abbrev wblk (c : Dev nD) (t : Fin cfg0.N) : Vec F S2000x128 .f32 := iblk m c 1 t
abbrev yblk (c : Dev nD) (t : Fin cfg0.N) : Vec F S1024x1 .i32 := iblk m c 2 t

theorem first_exp (c : Dev nD) (t : Fin cfg0.N) (h0 : t.val % 50 = 0) (h1 : ¬t.val % 50 = 49) :
    (outsAt0 m c t.val t.isLt).2.1 = k0_pay1 (k0_pay11 (grid0.coords t) (k0_pay8 (fblk m c t)) (wblk m c t) (yblk m c t) (k0_pay5 (F := F))) := by
  rw [outsAt0_A m c t h0 h1]
  dsimp only
  exact left_first_exp (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fblk m c t) (wblk m c t) (yblk m c t)

theorem first_sum (c : Dev nD) (t : Fin cfg0.N) (h0 : t.val % 50 = 0) (h1 : ¬t.val % 50 = 49) :
    (outsAt0 m c t.val t.isLt).2.2.1 = k0_pay2 (k0_pay10 (grid0.coords t) (k0_pay8 (fblk m c t)) (wblk m c t) (yblk m c t)) (k0_pay6 (F := F)) := by
  rw [outsAt0_A m c t h0 h1]
  dsimp only
  exact left_first_sum (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fblk m c t) (wblk m c t) (yblk m c t)

theorem first_label (c : Dev nD) (t : Fin cfg0.N) (h0 : t.val % 50 = 0) (h1 : ¬t.val % 50 = 49) :
    (outsAt0 m c t.val t.isLt).2.2.2.1 = k0_pay3 (k0_pay9 (grid0.coords t) (yblk m c t)) (k0_pay10 (grid0.coords t) (k0_pay8 (fblk m c t)) (wblk m c t) (yblk m c t)) (k0_pay7 (F := F)) := by
  rw [outsAt0_A m c t h0 h1]
  dsimp only
  exact left_first_label (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fblk m c t) (wblk m c t) (yblk m c t)

theorem first_unit (c : Dev nD) (t : Fin cfg0.N) (h0 : t.val % 50 = 0) (h1 : ¬t.val % 50 = 49) :
    (outsAt0 m c t.val t.isLt).2.2.2.2 = k0_pay8 (fblk m c t) := by
  rw [outsAt0_A m c t h0 h1]
  dsimp only
  exact left_first_unit (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fblk m c t) (wblk m c t) (yblk m c t)

theorem later_exp (c : Dev nD) (t : Fin cfg0.N) (h0 : ¬t.val % 50 = 0) (h1 : ¬t.val % 50 = 49) :
    (outsAt0 m c t.val t.isLt).2.1 = k0_pay1 (k0_pay11 (grid0.coords t) (outsAt0 m c (t.val - 1) (Nat.lt_of_le_of_lt (Nat.sub_le _ _) t.isLt)).2.2.2.2 (wblk m c t) (yblk m c t) (outsAt0 m c (t.val - 1) (Nat.lt_of_le_of_lt (Nat.sub_le _ _) t.isLt)).2.1) := by
  rw [outsAt0_B m c t h0 h1]
  dsimp only
  exact left_later_exp (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fblk m c t) (wblk m c t) (yblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem later_sum (c : Dev nD) (t : Fin cfg0.N) (h0 : ¬t.val % 50 = 0) (h1 : ¬t.val % 50 = 49) :
    (outsAt0 m c t.val t.isLt).2.2.1 = k0_pay2 (k0_pay10 (grid0.coords t) (outsAt0 m c (t.val - 1) (Nat.lt_of_le_of_lt (Nat.sub_le _ _) t.isLt)).2.2.2.2 (wblk m c t) (yblk m c t)) (outsAt0 m c (t.val - 1) (Nat.lt_of_le_of_lt (Nat.sub_le _ _) t.isLt)).2.2.1 := by
  rw [outsAt0_B m c t h0 h1]
  dsimp only
  exact left_later_sum (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fblk m c t) (wblk m c t) (yblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem later_label (c : Dev nD) (t : Fin cfg0.N) (h0 : ¬t.val % 50 = 0) (h1 : ¬t.val % 50 = 49) :
    (outsAt0 m c t.val t.isLt).2.2.2.1 = k0_pay3 (k0_pay9 (grid0.coords t) (yblk m c t)) (k0_pay10 (grid0.coords t) (outsAt0 m c (t.val - 1) (Nat.lt_of_le_of_lt (Nat.sub_le _ _) t.isLt)).2.2.2.2 (wblk m c t) (yblk m c t)) (outsAt0 m c (t.val - 1) (Nat.lt_of_le_of_lt (Nat.sub_le _ _) t.isLt)).2.2.2.1 := by
  rw [outsAt0_B m c t h0 h1]
  dsimp only
  exact left_later_label (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fblk m c t) (wblk m c t) (yblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem later_unit (c : Dev nD) (t : Fin cfg0.N) (h0 : ¬t.val % 50 = 0) (h1 : ¬t.val % 50 = 49) :
    (outsAt0 m c t.val t.isLt).2.2.2.2 = (outsAt0 m c (t.val - 1) (Nat.lt_of_le_of_lt (Nat.sub_le _ _) t.isLt)).2.2.2.2 := by
  rw [outsAt0_B m c t h0 h1]
  dsimp only
  rfl

theorem last_exp (c : Dev nD) (t : Fin cfg0.N) (h0 : ¬t.val % 50 = 0) (h1 : t.val % 50 = 49) :
    (outsAt0 m c t.val t.isLt).2.1 = k0_pay1 (k0_pay11 (grid0.coords t) (outsAt0 m c (t.val - 1) (Nat.lt_of_le_of_lt (Nat.sub_le _ _) t.isLt)).2.2.2.2 (wblk m c t) (yblk m c t) (outsAt0 m c (t.val - 1) (Nat.lt_of_le_of_lt (Nat.sub_le _ _) t.isLt)).2.1) := by
  rw [outsAt0_C m c t h0 h1]
  dsimp only
  exact left_last_exp (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fblk m c t) (wblk m c t) (yblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem last_sum (c : Dev nD) (t : Fin cfg0.N) (h0 : ¬t.val % 50 = 0) (h1 : t.val % 50 = 49) :
    (outsAt0 m c t.val t.isLt).2.2.1 = k0_pay2 (k0_pay10 (grid0.coords t) (outsAt0 m c (t.val - 1) (Nat.lt_of_le_of_lt (Nat.sub_le _ _) t.isLt)).2.2.2.2 (wblk m c t) (yblk m c t)) (outsAt0 m c (t.val - 1) (Nat.lt_of_le_of_lt (Nat.sub_le _ _) t.isLt)).2.2.1 := by
  rw [outsAt0_C m c t h0 h1]
  dsimp only
  exact left_last_sum (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fblk m c t) (wblk m c t) (yblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem last_label (c : Dev nD) (t : Fin cfg0.N) (h0 : ¬t.val % 50 = 0) (h1 : t.val % 50 = 49) :
    (outsAt0 m c t.val t.isLt).2.2.2.1 = k0_pay3 (k0_pay9 (grid0.coords t) (yblk m c t)) (k0_pay10 (grid0.coords t) (outsAt0 m c (t.val - 1) (Nat.lt_of_le_of_lt (Nat.sub_le _ _) t.isLt)).2.2.2.2 (wblk m c t) (yblk m c t)) (outsAt0 m c (t.val - 1) (Nat.lt_of_le_of_lt (Nat.sub_le _ _) t.isLt)).2.2.2.1 := by
  rw [outsAt0_C m c t h0 h1]
  dsimp only
  exact left_last_label (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fblk m c t) (wblk m c t) (yblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem last_unit (c : Dev nD) (t : Fin cfg0.N) (h0 : ¬t.val % 50 = 0) (h1 : t.val % 50 = 49) :
    (outsAt0 m c t.val t.isLt).2.2.2.2 = (outsAt0 m c (t.val - 1) (Nat.lt_of_le_of_lt (Nat.sub_le _ _) t.isLt)).2.2.2.2 := by
  rw [outsAt0_C m c t h0 h1]
  dsimp only
  rfl

theorem last_out (c : Dev nD) (t : Fin cfg0.N) (h0 : ¬t.val % 50 = 0) (h1 : t.val % 50 = 49) :
    (outsAt0 m c t.val t.isLt).1 = k0_pay4 (k0_pay1 (k0_pay11 (grid0.coords t) (outsAt0 m c (t.val - 1) (Nat.lt_of_le_of_lt (Nat.sub_le _ _) t.isLt)).2.2.2.2 (wblk m c t) (yblk m c t) (outsAt0 m c (t.val - 1) (Nat.lt_of_le_of_lt (Nat.sub_le _ _) t.isLt)).2.1)) (k0_pay3 (k0_pay9 (grid0.coords t) (yblk m c t)) (k0_pay10 (grid0.coords t) (outsAt0 m c (t.val - 1) (Nat.lt_of_le_of_lt (Nat.sub_le _ _) t.isLt)).2.2.2.2 (wblk m c t) (yblk m c t)) (outsAt0 m c (t.val - 1) (Nat.lt_of_le_of_lt (Nat.sub_le _ _) t.isLt)).2.2.2.1) (k0_pay2 (k0_pay10 (grid0.coords t) (outsAt0 m c (t.val - 1) (Nat.lt_of_le_of_lt (Nat.sub_le _ _) t.isLt)).2.2.2.2 (wblk m c t) (yblk m c t)) (outsAt0 m c (t.val - 1) (Nat.lt_of_le_of_lt (Nat.sub_le _ _) t.isLt)).2.2.1) := by
  rw [outsAt0_C m c t h0 h1]
  dsimp only
  exact left_last_out (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fblk m c t) (wblk m c t) (yblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

end Cert.KernelIdeal.Pieces

end
-- ==== Proof.Spec.lean ====
/-
  The additive-margin softmax loss with label smoothing, as a function on the extended reals of a feature matrix
  `X` (2048 rows of 128), one label word per row `Y`, and a class matrix `W` (100000 rows of 128), written twice.

  Both forms normalise every row of `X` and of `W` to unit length, take the cosine of row `b` against class `c`
  as the inner product of the two unit rows clipped to [-1, 1], scale it by 30 and lower it by the margin at the
  row's own label; the row's loss is 9/10 of its negative log-likelihood plus 1/10 of the mean negative
  log-probability over the classes (both factors as the f32 nearest them), and the result is the mean of the row
  losses.

  `tiled` is the accumulating form: a row is scaled by the reciprocal square root of its squared length; the margin
  is subtracted after the scaling, as one number; the log-partition is `30 + log (sum of exp (logit - 30))`, the
  shift being the constant 30 that bounds every logit; the label's logit is picked out by a masked sum; the mean of
  the logits is the sum times 1/100000.

  `textbook` is the direct form: a row is divided by the square root of its squared length; the margin is added to
  the clipped cosine before the scaling, as the f32 nearest -0.3; the log-probabilities are the logits less their
  row maximum, less the log of the sum of the exponentials of those differences; the label's log-probability is
  read at the label; the mean is the sum divided by 100000.

  The two agree wherever every entry is a real number, every row has positive squared length and every label is a
  class index (`Admissible`): then 30 times the f32 margin is the one number the accumulating form subtracts,
  and the log-partition does not depend on the shift.
-/
import Idealize.ShloMosaic.PureOps.Ideal
import Idealize.ShloMosaic.Lib.ValueIdx

noncomputable section

namespace Cert.Loss

open Idealize.ShloMosaic Idealize.ShloMosaic.ValueIdx

/-- The feature matrix's index set, the label vector's, the class matrix's. -/
abbrev SX : Shape := ⟨2, ![2048, 128]⟩
abbrev SY : Shape := ⟨1, ![2048]⟩
abbrev SW : Shape := ⟨2, ![100000, 128]⟩

/-! ## The numbers both forms spell, by their f32 words -/

/-- 1, -1: the clip's bounds. 30: the scale. The f32 nearest 9/10 and 1/10: the smoothing weights. 2048: the number of rows. -/
abbrev one : EReal := Ideal.ofBits .f32 0x3F800000#32
abbrev negOne : EReal := Ideal.ofBits .f32 0xBF800000#32
abbrev thirty : EReal := Ideal.ofBits .f32 0x41F00000#32
abbrev nineTenths : EReal := Ideal.ofBits .f32 0x3F666666#32
abbrev oneTenth : EReal := Ideal.ofBits .f32 0x3DCCCCCD#32
abbrev rows : EReal := Ideal.ofBits .f32 0x45000000#32
/-- The textbook form's own: the f32 nearest -3/10 (the margin, added to a cosine), 100000 (the number of classes),
    and -∞ (where a maximum starts). -/
abbrev negMargin : EReal := Ideal.ofBits .f32 0xBE99999A#32
abbrev classes : EReal := Ideal.ofBits .f32 0x47C35000#32
abbrev negInf : EReal := Ideal.ofBits .f32 0xFF800000#32
/-- The accumulating form's own: 30 times the f32 nearest 3/10 (the margin, subtracted from a scaled cosine) and
    the reciprocal of the number of classes. -/
abbrev scaledMargin : EReal := ((75497475 / 8388608 : ℝ) : EReal)
abbrev invClasses : EReal := ((1 / 100000 : ℝ) : EReal)

variable (X : SX.Idx → EReal) (Y : SY.Idx → BitVec 32) (W : SW.Idx → EReal)

/-- The squared length of feature row `b`, of class row `c`. -/
def sqX (b : Fin 2048) : EReal := ∑ d : Fin 128, X (ix2 b d) * X (ix2 b d)
def sqW (c : Fin 100000) : EReal := ∑ d : Fin 128, W (ix2 c d) * W (ix2 c d)

/-- Row `b`'s label is class `c`. -/
def hit (b : Fin 2048) (c : Fin 100000) : Prop := Y (ix1 b) = BitVec.ofNat 32 c.val

instance (b : Fin 2048) (c : Fin 100000) : Decidable (hit Y b c) := by unfold hit; infer_instance

/-! ## The accumulating form -/

/-- The clipped cosine of row `b` against class `c`, rows scaled by reciprocal square roots. -/
def cosT (b : Fin 2048) (c : Fin 100000) : EReal :=
  min one (max negOne (∑ d : Fin 128, (X (ix2 b d) * Ideal.rsqrt (sqX X b)) * (W (ix2 c d) * Ideal.rsqrt (sqW W c))))

/-- The logit: 30 cosines, less the scaled margin at the row's label. -/
def logitT (b : Fin 2048) (c : Fin 100000) : EReal :=
  if hit Y b c then thirty * cosT X W b c - scaledMargin else thirty * cosT X W b c

/-- Over the classes: the sum of `exp (logit - 30)`, the sum of the logits, the sum of the logits at the label. -/
def expSumT (b : Fin 2048) : EReal := ∑ c : Fin 100000, Ideal.exp (logitT X Y W b c - thirty)
def logitSumT (b : Fin 2048) : EReal := ∑ c : Fin 100000, logitT X Y W b c
def labelSumT (b : Fin 2048) : EReal := ∑ c : Fin 100000, if hit Y b c then logitT X Y W b c else 0

/-- Row `b`'s loss. -/
def rowLossT (b : Fin 2048) : EReal :=
  nineTenths * ((thirty + Ideal.log (expSumT X Y W b)) - labelSumT X Y W b)
    + oneTenth * ((thirty + Ideal.log (expSumT X Y W b)) - logitSumT X Y W b * invClasses)

/-- The loss: the mean of the row losses. -/
def tiled : EReal := Ideal.div (∑ b : Fin 2048, rowLossT X Y W b) rows

/-! ## The direct form -/

/-- The clipped cosine, rows divided by their lengths. -/
def cosD (b : Fin 2048) (c : Fin 100000) : EReal :=
  min one (max negOne (∑ d : Fin 128,
    Ideal.div (X (ix2 b d)) (Ideal.sqrt (sqX X b)) * Ideal.div (W (ix2 c d)) (Ideal.sqrt (sqW W c))))

/-- The logit: 30 times the cosine with the margin added at the row's label. -/
def logitD (b : Fin 2048) (c : Fin 100000) : EReal :=
  thirty * (cosD X W b c + if hit Y b c then negMargin else 0)

/-- The row's greatest logit, from -∞. -/
def rowMaxD (b : Fin 2048) : EReal :=
  max negInf ((Finset.univ : Finset (Fin 100000)).fold max negInf (fun c => logitD X Y W b c))

/-- The log-probability of class `c` in row `b`. -/
def logProbD (b : Fin 2048) (c : Fin 100000) : EReal :=
  (logitD X Y W b c - rowMaxD X Y W b)
    - Ideal.log (∑ c' : Fin 100000, Ideal.exp (logitD X Y W b c' - rowMaxD X Y W b))

/-- Row `b`'s label as a class index (reduced into range: under `Admissible` it is the label itself). -/
def labelOf (b : Fin 2048) : Fin 100000 := ⟨(Y (ix1 b)).toNat % 100000, Nat.mod_lt _ (by norm_num)⟩

/-- Row `b`'s loss. -/
def rowLossD (b : Fin 2048) : EReal :=
  nineTenths * (-(logProbD X Y W b (labelOf Y b)))
    + oneTenth * (-(Ideal.div (∑ c : Fin 100000, logProbD X Y W b c) classes))

/-- The loss. -/
def textbook : EReal := Ideal.div (∑ b : Fin 2048, rowLossD X Y W b) rows

/-! ## Where the two agree -/

/-- Every entry a real number, every row of positive squared length, every label a class index. -/
structure Admissible : Prop where
  realX : ∀ i : SX.Idx, ∃ r : ℝ, X i = (r : EReal)
  realW : ∀ i : SW.Idx, ∃ r : ℝ, W i = (r : EReal)
  posX : ∀ b : Fin 2048, 0 < sqX X b
  posW : ∀ c : Fin 100000, 0 < sqW W c
  label : ∀ b : Fin 2048, (Y (ix1 b)).toNat < 100000

end Cert.Loss

end
-- ==== Proof.KernelPayloads.lean ====
/-
  The kernel body's arithmetic, read at one index over the extended reals. The body's stored values are pure
  functions of the values it loads; here each is read at a row `r` of its 1024-row tile (and, for the values
  with 2000 columns, at a column `j` of its class tile):

  * the unit feature rows: entry `(r, d)` of the feature block times the reciprocal square root of row `r`'s
    squared length;
  * the label mask at `(r, j)`: set exactly where row `r`'s label word is the class number `2000 k + j` of the
    tile `k` the grid point is at;
  * the logit at `(r, j)`: 30 times the clipped inner product of unit feature row `r` with class row `j` scaled to
    unit length, less the scaled margin where the mask is set;
  * the three accumulators at row `r`: what was there plus the tile's sum over `j` of `exp (logit - 30)`, of the
    logit, of the logit where the mask is set;
  * the row loss from the three finished accumulators.
-/
import proofs.«430701_j88553635709481_2_alg».proof.Proof.Gen.KernelIdeal.Skeleton
import proofs.«430701_j88553635709481_2_alg».proof.Proof.Spec
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen Cert.Loss

/-! ## Small readings at an index -/

section Helpers
variable {α : Type}

/-- A vector `[a]` cast to a column `[a, 1]` reads, at `(i, u)`, the vector at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of a matrix, at row `r`, is the sum of the row's entries. -/
private theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

variable {s : Shape} {φ : FTy}

/-- The reciprocal square root, the exponential and the logarithm of a vector read elementwise. -/
private theorem rsqrt_apply (x : FVec Ideal s φ) (i : s.Idx) : rsqrt x i = Ideal.rsqrt (x i) := rfl
private theorem exp_apply (x : FVec Ideal s φ) (i : s.Idx) : exp x i = Ideal.exp (x i) := rfl
private theorem log_apply (x : FVec Ideal s φ) (i : s.Idx) : log x i = Ideal.log (x i) := rfl

end Helpers

/-- A row scaled by the reciprocal square root of its squared length, at `(r, d)`: the shape of both the feature
    rows and the class rows. -/
private theorem unitRow_apply {a b : ℕ} (x : FVec Ideal ⟨2, ![a, b]⟩ .f32)
    (hr : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (hlt : FTy.bits .bf16 < FTy.bits .f32) (r : Fin a) (d : Fin b) :
    (truncf .bf16 (mulf x (broadcastTo ⟨2, ![a, b]⟩
        (rsqrt (shapeCast ⟨2, ![a, 1]⟩ (multiReduction .add [1] ⟨1, ![a]⟩ (mulf x x) 0x00000000#32 hr hφ hacc) hc)) hb)) hlt
      : FVec Ideal ⟨2, ![a, b]⟩ .bf16) (ix2 r d)
      = x (ix2 r d) * Ideal.rsqrt (∑ d' : Fin b, x (ix2 r d') * x (ix2 r d')) := by
  rw [truncf_apply, mulf_apply, broadcastTo_a1_ab_apply, rsqrt_apply, shapeCast_a_a1_apply, laneSum_apply]
  rfl

/-- The reciprocal of the number of classes, by its name in the table of named constants. -/
private theorem inv_classes :
    Named.named (F := Ideal) κ "inv_100000" (φ := .f32) 0x3727C5AC#32 = invClasses :=
  IdealRules.named_const.ideal_named_scalar _ _ _ _ rfl

/-- The scaled margin, by its name in the table of named constants. -/
private theorem scaled_margin :
    Named.named (F := Ideal) κ "scale_times_margin" (φ := .f32) 0x41100000#32 = scaledMargin :=
  IdealRules.named_const.ideal_named_scalar _ _ _ _ rfl

/-! ## The payloads -/

/-- The three accumulators start at zero. -/
theorem pay5_apply (y : S1024x1.Idx) : k0_pay5 (F := Ideal) y = 0 := by
  unfold k0_pay5
  rw [shapeCast_self]
  exact Ideal.ofBits_zero_f32
theorem pay6_apply (y : S1024x1.Idx) : k0_pay6 (F := Ideal) y = 0 := by
  unfold k0_pay6
  rw [shapeCast_self]
  exact Ideal.ofBits_zero_f32
theorem pay7_apply (y : S1024x1.Idx) : k0_pay7 (F := Ideal) y = 0 := by
  unfold k0_pay7
  rw [shapeCast_self]
  exact Ideal.ofBits_zero_f32

/-- A cast between equal shapes stores what it is given. -/
theorem pay1_eq (v : FVec Ideal S1024x1 .f32) : k0_pay1 (F := Ideal) v = v := by
  unfold k0_pay1
  exact shapeCast_self v _

/-- The unit feature rows. -/
theorem pay8_apply (x : Vec Ideal S1024x128 .f32) (r : Fin 1024) (d : Fin 128) :
    k0_pay8 (F := Ideal) x (ix2 r d)
      = x (ix2 r d) * Ideal.rsqrt (∑ d' : Fin 128, x (ix2 r d') * x (ix2 r d')) := by
  unfold k0_pay8
  rw [shapeCast_self]
  exact unitRow_apply x _ _ _ _ _ _ r d

/-! ## The label mask -/

/-- The class number of column `j` of tile `k`, as the kernel's 32-bit arithmetic spells it. -/
private theorem classWord (k j : ℕ) :
    IntOp.addi (BitVec.ofNat 32 j) (Scalar.muli (BitVec.ofNat 32 k) 2000#32) = BitVec.ofNat 32 (2000 * k + j) := by
  show BitVec.ofNat 32 j + BitVec.ofNat 32 k * BitVec.ofNat 32 2000 = _
  rw [BitVec.ofNat_add, BitVec.ofNat_mul, BitVec.add_comm, BitVec.mul_comm]

/-- An equality test of two words is the bit `1` exactly when they are equal. -/
private theorem cmpi_eq_one_iff {w : ℕ} (x y : BitVec w) : IntOp.cmpi .eq x y = 1#1 ↔ x = y := by
  show BitVec.ofBool (x == y) = 1#1 ↔ x = y
  by_cases h : x = y
  · subst h
    rw [beq_self_eq_true]
    exact ⟨fun _ => rfl, fun _ => rfl⟩
  · rw [beq_eq_false_iff_ne.mpr h]
    exact ⟨fun h1 => absurd h1 (by decide), fun h2 => absurd h2 h⟩

/-- The mask is set exactly where the row's label word is the column's class number. -/
theorem pay9_eq_one_iff (i : grid0.Coords) (v21 : Vec Ideal S1024x1 .i32) (r : Fin 1024) (j : Fin 2000) :
    k0_pay9 (F := Ideal) i v21 (ix2 r j) = 1#1
      ↔ v21 (ix2 r (0 : Fin 1)) = BitVec.ofNat 32 (2000 * (i 1).val + j.val) := by
  unfold k0_pay9
  show IntOp.cmpi .eq
      (broadcastTo S1024x2000 (shapeCast S1024x1 v21 _) _ (ix2 r j))
      (broadcastTo S1024x2000 (addi (iota .tc S1x2000 32 [1] _)
        (broadcast S1x2000 (Scalar.muli (BitVec.ofNat 32 (i 1).val) 2000#32))) _ (ix2 r j)) = 1#1 ↔ _
  rw [cmpi_eq_one_iff, broadcastTo_a1_ab_apply, shapeCast_self, broadcastTo_1b_ab_apply]
  show v21 (ix2 r (0 : Fin 1)) = IntOp.addi (iota .tc S1x2000 32 [1] _ (ix2 (0 : Fin 1) j))
      (Scalar.muli (BitVec.ofNat 32 (i 1).val) 2000#32) ↔ _
  rw [iota_single_apply]
  show v21 (ix2 r (0 : Fin 1)) = IntOp.addi (BitVec.ofNat 32 j.val) (Scalar.muli (BitVec.ofNat 32 (i 1).val) 2000#32) ↔ _
  rw [classWord]

/-! ## The inner products -/

private theorem lhs_dot_0 (i : S1024x2000.Idx) (q : dot_S1024x128_S2000x128_S1024x2000_1_1_0_0_n_n.contr.Idx) :
    (dot_S1024x128_S2000x128_S1024x2000_1_1_0_0_n_n.lhsIdx i q 0).val = (i 0).val := by
  unfold DotDims.lhsIdx
  rw [dif_neg (show ¬(0 : Fin S1024x128.rank) ∈ dot_S1024x128_S2000x128_S1024x2000_1_1_0_0_n_n.lhsBatch by decide), dif_pos (show (0 : Fin S1024x128.rank) ∈ dot_S1024x128_S2000x128_S1024x2000_1_1_0_0_n_n.lhsNonContracting by decide)]
  rfl
private theorem lhs_dot_1 (i : S1024x2000.Idx) (q : dot_S1024x128_S2000x128_S1024x2000_1_1_0_0_n_n.contr.Idx) :
    (dot_S1024x128_S2000x128_S1024x2000_1_1_0_0_n_n.lhsIdx i q 1).val = (q ⟨0, by decide⟩).val :=
  dot_S1024x128_S2000x128_S1024x2000_1_1_0_0_n_n.lhsIdx_val_of_single rfl i q
private theorem rhs_dot_0 (i : S1024x2000.Idx) (q : dot_S1024x128_S2000x128_S1024x2000_1_1_0_0_n_n.contr.Idx) :
    (dot_S1024x128_S2000x128_S1024x2000_1_1_0_0_n_n.rhsIdx i q 0).val = (i 1).val := by
  unfold DotDims.rhsIdx
  rw [dif_neg (show ¬(0 : Fin S2000x128.rank) ∈ dot_S1024x128_S2000x128_S1024x2000_1_1_0_0_n_n.rhsBatch by decide), dif_pos (show (0 : Fin S2000x128.rank) ∈ dot_S1024x128_S2000x128_S1024x2000_1_1_0_0_n_n.rhsNonContracting by decide)]
  rfl
private theorem rhs_dot_1 (i : S1024x2000.Idx) (q : dot_S1024x128_S2000x128_S1024x2000_1_1_0_0_n_n.contr.Idx) :
    (dot_S1024x128_S2000x128_S1024x2000_1_1_0_0_n_n.rhsIdx i q 1).val = (q ⟨0, by decide⟩).val :=
  dot_S1024x128_S2000x128_S1024x2000_1_1_0_0_n_n.rhsIdx_val_of_single rfl i q

/-- The product of the feature tile with the transposed class tile, into zero, at `(r, j)`: the inner product of
    feature row `r` with class row `j`. -/
private theorem matmul_rows_apply (lhs : FVec Ideal S1024x128 .bf16) (rhs : FVec Ideal S2000x128 .bf16)
    (r : Fin 1024) (j : Fin 2000) :
    matmul dot_S1024x128_S2000x128_S1024x2000_1_1_0_0_n_n none lhs rhs (constant (F := Ideal) S1024x2000 .f32 0x00000000#32) (ix2 r j)
      = ∑ d : Fin 128, lhs (ix2 r d) * rhs (ix2 j d) := by
  simp only [matmul]
  rw [Ideal.matmul_constant_zero_apply, ← Equiv.sum_comp (contrEquiv1 dot_S1024x128_S2000x128_S1024x2000_1_1_0_0_n_n 128 rfl rfl).symm]
  refine Finset.sum_congr rfl fun k _ => ?_
  have hk := contrEquiv1_symm_val dot_S1024x128_S2000x128_S1024x2000_1_1_0_0_n_n 128 rfl rfl k
  have el : dot_S1024x128_S2000x128_S1024x2000_1_1_0_0_n_n.lhsIdx (ix2 r j) ((contrEquiv1 dot_S1024x128_S2000x128_S1024x2000_1_1_0_0_n_n 128 rfl rfl).symm k) = ix2 r k := funext fun a => Fin.ext (by
    match a with
    | ⟨0, _⟩ => exact lhs_dot_0 _ _
    | ⟨1, _⟩ => exact (lhs_dot_1 _ _).trans hk)
  have er : dot_S1024x128_S2000x128_S1024x2000_1_1_0_0_n_n.rhsIdx (ix2 r j) ((contrEquiv1 dot_S1024x128_S2000x128_S1024x2000_1_1_0_0_n_n 128 rfl rfl).symm k) = ix2 j k := funext fun a => Fin.ext (by
    match a with
    | ⟨0, _⟩ => exact rhs_dot_0 _ _
    | ⟨1, _⟩ => exact (rhs_dot_1 _ _).trans hk)
  rw [el, er]

/-! ## The logit and the sum of exponentials -/

/-- The logit. -/
theorem pay10_apply (i : grid0.Coords) (v3 : Vec Ideal S1024x128 .bf16) (v4 : Vec Ideal S2000x128 .f32)
    (v21 : Vec Ideal S1024x1 .i32) (r : Fin 1024) (j : Fin 2000) :
    k0_pay10 (F := Ideal) i v3 v4 v21 (ix2 r j)
      = if k0_pay9 (F := Ideal) i v21 (ix2 r j) = 1#1
        then thirty * min one (max negOne (∑ d : Fin 128,
            v3 (ix2 r d) * (v4 (ix2 j d) * Ideal.rsqrt (∑ d' : Fin 128, v4 (ix2 j d') * v4 (ix2 j d'))))) - scaledMargin
        else thirty * min one (max negOne (∑ d : Fin 128,
            v3 (ix2 r d) * (v4 (ix2 j d) * Ideal.rsqrt (∑ d' : Fin 128, v4 (ix2 j d') * v4 (ix2 j d'))))) := by
  unfold k0_pay10
  rw [select_apply, subf_apply, mulf_apply, minimumf_apply, maximumf_apply, broadcast_apply, broadcast_apply,
    broadcast_apply, broadcast_apply, matmul_rows_apply, scaled_margin]
  have hrow : ∀ d : Fin 128, (truncf .bf16 (mulf v4 (broadcastTo S2000x128
        (rsqrt (shapeCast S2000x1 (multiReduction .add [1] S2000 (mulf v4 v4) 0x00000000#32 reduces_S2000x128_S2000 (.inl rfl) rfl)
          shapeCasts_S2000_S2000x1)) broadcasts_S2000x1_S2000x128)) bitsLt_bf16_f32 : FVec Ideal S2000x128 .bf16) (ix2 j d)
      = v4 (ix2 j d) * Ideal.rsqrt (∑ d' : Fin 128, v4 (ix2 j d') * v4 (ix2 j d')) :=
    fun d => unitRow_apply v4 _ _ _ _ _ _ j d
  simp only [hrow]
  rfl

/-- The sum of exponentials: what was there plus the tile's. -/
theorem pay11_apply (i : grid0.Coords) (v3 : Vec Ideal S1024x128 .bf16) (v4 : Vec Ideal S2000x128 .f32)
    (v21 : Vec Ideal S1024x1 .i32) (v34 : Vec Ideal S1024x1 .f32) (r : Fin 1024) :
    k0_pay11 (F := Ideal) i v3 v4 v21 v34 (ix2 r (0 : Fin 1))
      = v34 (ix2 r (0 : Fin 1)) + ∑ j : Fin 2000, Ideal.exp (k0_pay10 (F := Ideal) i v3 v4 v21 (ix2 r j) - thirty) := by
  unfold k0_pay11
  rw [addf_apply, shapeCast_a_a1_apply]
  refine congrArg (v34 (ix2 r (0 : Fin 1)) + ·) ((laneSum_apply _ _ _ _ _ r).trans ?_)
  rfl

/-- The sum of logits: what was there plus the tile's. -/
theorem pay2_apply (v30 : FVec Ideal S1024x2000 .f32) (v41 : Vec Ideal S1024x1 .f32) (r : Fin 1024) :
    k0_pay2 (F := Ideal) v30 v41 (ix2 r (0 : Fin 1)) = v41 (ix2 r (0 : Fin 1)) + ∑ j : Fin 2000, v30 (ix2 r j) := by
  unfold k0_pay2
  rw [shapeCast_self, addf_apply, shapeCast_a_a1_apply]
  exact congrArg (v41 (ix2 r (0 : Fin 1)) + ·) (laneSum_apply v30 _ _ _ _ r)

/-- The sum of the logits where the mask is set: what was there plus the tile's. -/
theorem pay3_apply (v25 : IVec S1024x2000 1) (v30 : FVec Ideal S1024x2000 .f32) (v48 : Vec Ideal S1024x1 .f32) (r : Fin 1024) :
    k0_pay3 (F := Ideal) v25 v30 v48 (ix2 r (0 : Fin 1))
      = v48 (ix2 r (0 : Fin 1)) + ∑ j : Fin 2000, (if v25 (ix2 r j) = 1#1 then v30 (ix2 r j) else 0) := by
  unfold k0_pay3
  rw [shapeCast_self, addf_apply, shapeCast_a_a1_apply]
  refine congrArg (v48 (ix2 r (0 : Fin 1)) + ·)
    ((laneSum_apply _ _ _ _ _ r).trans (Finset.sum_congr rfl fun j _ => ?_))
  rw [select_apply, broadcast_apply]
  show (if v25 (ix2 r j) = 1#1 then v30 (ix2 r j) else Ideal.ofBits .f32 0x00000000#32) = _
  rw [Ideal.ofBits_zero_f32]

/-- The row loss from the finished sum of exponentials `v60`, label logit `v64` and sum of logits `v66`. -/
theorem pay4_apply (v60 v64 v66 : Vec Ideal S1024x1 .f32) (r : Fin 1024) :
    k0_pay4 (F := Ideal) v60 v64 v66 (ix2 r (0 : Fin 1))
      = nineTenths * ((thirty + Ideal.log (v60 (ix2 r (0 : Fin 1)))) - v64 (ix2 r (0 : Fin 1)))
        + oneTenth * ((thirty + Ideal.log (v60 (ix2 r (0 : Fin 1)))) - v66 (ix2 r (0 : Fin 1)) * invClasses) := by
  unfold k0_pay4
  simp only [addf_apply, mulf_apply, subf_apply, broadcast_apply, log_apply, inv_classes]
  rfl

end Cert.KernelIdeal.Pay

end
-- ==== Proof.Tiles.lean ====
/-
  The class index set cut into 50 tiles of 2000 and the row index set into 2 tiles of 1024: class `2000 k + j`
  and row `1024 p + r` as functions of a tile number and an offset, and the sum over all classes (all rows) as the
  sum over the tiles of the sums over the offsets. A sum in a commutative monoid does not depend on the order or
  the grouping of its terms, so an accumulation tile by tile is the one sum.
-/
import Mathlib.Logic.Equiv.Fin.Basic
import Mathlib.Data.Fintype.BigOperators
import Mathlib.Algebra.BigOperators.Fin

namespace Cert.Loss

/-- Class `2000 k + j` (reduced into range: for `k < 50` it is that number). -/
def cls (k : ℕ) (j : Fin 2000) : Fin 100000 := ⟨(2000 * k + j.val) % 100000, Nat.mod_lt _ (by omega)⟩

theorem cls_val {k : ℕ} (hk : k < 50) (j : Fin 2000) : (cls k j).val = 2000 * k + j.val :=
  Nat.mod_eq_of_lt (by have := j.isLt; omega)

/-- Row `1024 p + r` (reduced into range: for `p < 2` it is that number). -/
def row (p : ℕ) (r : Fin 1024) : Fin 2048 := ⟨(1024 * p + r.val) % 2048, Nat.mod_lt _ (by omega)⟩

theorem row_val {p : ℕ} (hp : p < 2) (r : Fin 1024) : (row p r).val = 1024 * p + r.val :=
  Nat.mod_eq_of_lt (by have := r.isLt; omega)

/-- The sum over the classes is the sum over the 50 tiles of the sums over a tile's 2000 offsets. -/
theorem sum_tiles {M : Type*} [AddCommMonoid M] (f : Fin 100000 → M) :
    ∑ k ∈ Finset.range 50, ∑ j : Fin 2000, f (cls k j) = ∑ c : Fin 100000, f c := by
  rw [← Fin.sum_univ_eq_sum_range (fun k => ∑ j : Fin 2000, f (cls k j)) 50, ← Fintype.sum_prod_type']
  refine Fintype.sum_equiv (finProdFinEquiv (m := 50) (n := 2000)) _ _ (fun x => ?_)
  refine congrArg f (Fin.ext ?_)
  rw [cls_val x.1.isLt]
  show 2000 * x.1.val + x.2.val = x.2.val + 2000 * x.1.val
  omega

/-- The sum over the rows is the sum over the 2 tiles of the sums over a tile's 1024 offsets. -/
theorem sum_rows {M : Type*} [AddCommMonoid M] (f : Fin 2048 → M) :
    ∑ p ∈ Finset.range 2, ∑ r : Fin 1024, f (row p r) = ∑ b : Fin 2048, f b := by
  rw [← Fin.sum_univ_eq_sum_range (fun p => ∑ r : Fin 1024, f (row p r)) 2, ← Fintype.sum_prod_type']
  refine Fintype.sum_equiv (finProdFinEquiv (m := 2) (n := 1024)) _ _ (fun x => ?_)
  refine congrArg f (Fin.ext ?_)
  rw [row_val x.1.isLt]
  show 1024 * x.1.val + x.2.val = x.2.val + 1024 * x.1.val
  omega

end Cert.Loss
-- ==== Proof.KernelBlocks.lean ====
/-
  The blocks a grid point sees. Point `t` of the 2 × 50 grid is batch tile `t / 50` and class tile `t % 50`:
  its feature block is rows `1024 (t / 50) + r` of the feature matrix, its class block rows `2000 (t % 50) + j` of
  the class matrix, its label block the same rows of the label column as its feature block; the label column is the
  label vector laid out as one column before the region is entered.
-/
import proofs.«430701_j88553635709481_2_alg».proof.Proof.Gen.KernelIdeal.Frame
import proofs.«430701_j88553635709481_2_alg».proof.Proof.Tiles
import proofs.«430701_j88553635709481_2_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.Loss

variable {F : FTy → Type} [FloatOps F] [Named F]
variable (m : (ℓ : Loc nD τ sig) → Buf (Elt F) ℓ)

/-- Where each window's block sits, at every grid point. -/
theorem index_features : ∀ t : Fin cfg0.N, win0_0.index t (0 : Fin 2) = t.val / 50 ∧ win0_0.index t (1 : Fin 2) = 0 :=
  (by decide +kernel : ∀ t : Fin grid0.N, win0_0.index t (0 : Fin 2) = t.val / 50 ∧ win0_0.index t (1 : Fin 2) = 0)
theorem index_classes : ∀ t : Fin cfg0.N, win0_1.index t (0 : Fin 2) = t.val % 50 ∧ win0_1.index t (1 : Fin 2) = 0 :=
  (by decide +kernel : ∀ t : Fin grid0.N, win0_1.index t (0 : Fin 2) = t.val % 50 ∧ win0_1.index t (1 : Fin 2) = 0)
theorem index_labels : ∀ t : Fin cfg0.N, win0_2.index t (0 : Fin 2) = t.val / 50 ∧ win0_2.index t (1 : Fin 2) = 0 :=
  (by decide +kernel : ∀ t : Fin grid0.N, win0_2.index t (0 : Fin 2) = t.val / 50 ∧ win0_2.index t (1 : Fin 2) = 0)
theorem index_out : ∀ t : Fin cfg0.N, win0_3.index t (0 : Fin 2) = t.val / 50 ∧ win0_3.index t (1 : Fin 2) = 0 :=
  (by decide +kernel : ∀ t : Fin grid0.N, win0_3.index t (0 : Fin 2) = t.val / 50 ∧ win0_3.index t (1 : Fin 2) = 0)
/-- The class-tile coordinate of a grid point. -/
theorem coord_classes : ∀ t : Fin cfg0.N, ((grid0.coords t) 1).val = t.val % 50 :=
  (by decide +kernel : ∀ t : Fin grid0.N, ((grid0.coords t) 1).val = t.val % 50)

/-- The feature block's entry `(r, d)` is the feature matrix's at row `1024 (t / 50) + r`. -/
theorem features_block (c : Dev nD) (t : Fin cfg0.N) (r : Fin 1024) (d : Fin 128) :
    (iblk m c 0 t : Vec F S1024x128 .f32) (ix2 r d) = (V m c main_arg0 : Vec F S2048x128 .f32) (ix2 (row (t.val / 50) r) d) := by
  have hN : t.val < 100 := lt_of_lt_of_eq t.isLt (show cfg0.N = 100 from N_0)
  unfold iblk
  rw [View.read_apply]
  show V m c main_arg0 _ = V m c main_arg0 _
  congr 1
  funext a
  apply Fin.ext
  match a with
  | ⟨0, _⟩ => show win0_0.index t 0 * 1024 + 1 * r.val = (row (t.val / 50) r).val
              rw [(index_features t).1, row_val (by omega)]; omega
  | ⟨1, _⟩ => show win0_0.index t 1 * 128 + 1 * d.val = d.val
              rw [(index_features t).2]; omega

/-- The class block's entry `(j, d)` is the class matrix's at row `2000 (t % 50) + j`. -/
theorem classes_block (c : Dev nD) (t : Fin cfg0.N) (j : Fin 2000) (d : Fin 128) :
    (iblk m c 1 t : Vec F S2000x128 .f32) (ix2 j d) = (V m c main_arg2 : Vec F S100000x128 .f32) (ix2 (cls (t.val % 50) j) d) := by
  unfold iblk
  rw [View.read_apply]
  show V m c main_arg2 _ = V m c main_arg2 _
  congr 1
  funext a
  apply Fin.ext
  match a with
  | ⟨0, _⟩ => show win0_1.index t 0 * 2000 + 1 * j.val = (cls (t.val % 50) j).val
              rw [(index_classes t).1, cls_val (Nat.mod_lt _ (by omega))]; omega
  | ⟨1, _⟩ => show win0_1.index t 1 * 128 + 1 * d.val = d.val
              rw [(index_classes t).2]; omega

/-- The label block's entry `(r, 0)` is the label column's at row `1024 (t / 50) + r`. -/
theorem labels_block (c : Dev nD) (t : Fin cfg0.N) (r : Fin 1024) :
    (iblk m c 2 t : Vec F S1024x1 .i32) (ix2 r (0 : Fin 1)) = (V m c main_v0 : Vec F S2048x1 .i32) (ix2 (row (t.val / 50) r) (0 : Fin 1)) := by
  have hN : t.val < 100 := lt_of_lt_of_eq t.isLt (show cfg0.N = 100 from N_0)
  unfold iblk
  rw [View.read_apply]
  show V m c main_v0 _ = V m c main_v0 _
  congr 1
  funext a
  apply Fin.ext
  match a with
  | ⟨0, _⟩ => show win0_2.index t 0 * 1024 + 1 * r.val = (row (t.val / 50) r).val
              rw [(index_labels t).1, row_val (by omega)]; omega
  | ⟨1, _⟩ => show win0_2.index t 1 * 1 + 1 * 0 = 0
              rw [(index_labels t).2]

/-- The label column is the label vector laid out as one column. -/
theorem label_column (c : Dev nD) :
    (V m c main_v0 : Vec F S2048x1 .i32) = shapeCast S2048x1 (m ((c : Thread nD τ).loc main_arg1)) shapeCasts_S2048_S2048x1 := by
  show StableHlo.after hostOps0 (fun b => m (c, b)) (Proc.devRef .tc main_v0) = _
  after_results
  rfl

/-- Its entry `(b, 0)` is label `b`. -/
theorem label_column_apply (c : Dev nD) (b : Fin 2048) :
    (V m c main_v0 : Vec F S2048x1 .i32) (ix2 b (0 : Fin 1)) = (m ((c : Thread nD τ).loc main_arg1) : Vec F S2048 .i32) (ix1 b) := by
  rw [label_column]
  refine shapeCast_apply _ _ _ _ ?_
  show (S2048.rowMajor (ix1 b)).val = (S2048x1.rowMajor (ix2 b (0 : Fin 1))).val
  rw [Shape.rowMajor_val_one, Shape.rowMajor_val_two]
  show b.val = b.val * 1 + 0
  omega

end Cert.KernelIdeal.Value

end
-- ==== Proof.KernelAccum.lean ====
/-
  The accumulation over the class tiles. After grid point `n` — batch tile `n / 50`, class tile `n % 50` — the
  three accumulators hold, for row `r` of the batch tile, the sums over the class tiles `0 … n % 50` of the tile's
  sum over its 2000 classes of `exp (logit - 30)`, of the logit, and of the logit at the row's label; and the carried
  unit rows are the batch tile's feature rows scaled to unit length. A tile's logit at `(r, j)` is the logit of row
  `1024 (n / 50) + r` against class `2000 (n % 50) + j`. So at a batch tile's last point the sums run over all 50
  class tiles, that is over all classes, and the output block is the rows' losses.
-/
import proofs.«430701_j88553635709481_2_alg».proof.Proof.KernelPieces
import proofs.«430701_j88553635709481_2_alg».proof.Proof.KernelPayloads
import proofs.«430701_j88553635709481_2_alg».proof.Proof.KernelBlocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.KernelIdeal.Pieces Cert.KernelIdeal.Pay Cert.Loss

/-- A class tile's logit: with the unit feature rows of batch tile `p`, the class rows of class tile `k` and the
    labels of batch tile `p`, the body's logit at `(r, j)` is the logit of row `1024 p + r` against class `2000 k + j`. -/
theorem tile_logit (X : SX.Idx → EReal) (Y : SY.Idx → BitVec 32) (W : SW.Idx → EReal) (p k : ℕ) (hk : k < 50)
    (i : grid0.Coords) (hi : (i 1).val = k)
    (u : Vec Ideal S1024x128 .bf16) (x1 : Vec Ideal S2000x128 .f32) (x2 : Vec Ideal S1024x1 .i32)
    (hu : ∀ (r : Fin 1024) (d : Fin 128), u (ix2 r d) = X (ix2 (row p r) d) * Ideal.rsqrt (sqX X (row p r)))
    (h1 : ∀ (j : Fin 2000) (d : Fin 128), x1 (ix2 j d) = W (ix2 (cls k j) d))
    (h2 : ∀ r : Fin 1024, x2 (ix2 r (0 : Fin 1)) = Y (ix1 (row p r)))
    (r : Fin 1024) (j : Fin 2000) :
    k0_pay10 (F := Ideal) i u x1 x2 (ix2 r j) = logitT X Y W (row p r) (cls k j) := by
  have hcond : k0_pay9 (F := Ideal) i x2 (ix2 r j) = 1#1 ↔ hit Y (row p r) (cls k j) := by
    rw [pay9_eq_one_iff, h2, hi]
    unfold hit
    rw [cls_val hk]
  have hsum : (∑ d : Fin 128, u (ix2 r d) * (x1 (ix2 j d) * Ideal.rsqrt (∑ d' : Fin 128, x1 (ix2 j d') * x1 (ix2 j d'))))
      = ∑ d : Fin 128, (X (ix2 (row p r) d) * Ideal.rsqrt (sqX X (row p r))) * (W (ix2 (cls k j) d) * Ideal.rsqrt (sqW W (cls k j))) := by
    unfold sqW
    simp only [hu, h1]
  rw [pay10_apply, hsum]
  unfold logitT cosT
  by_cases hh : hit Y (row p r) (cls k j)
  · rw [if_pos (hcond.mpr hh), if_pos hh]
  · rw [if_neg (fun h => hh (hcond.mp h)), if_neg hh]

variable (m : (ℓ : Loc nD τ sig) → Buf (Elt Ideal) ℓ)

/-- The feature matrix, the label vector and the class matrix as the region finds them. -/
abbrev XA (c : Dev nD) : SX.Idx → EReal := (V m c main_arg0 : Vec Ideal S2048x128 .f32)
abbrev YA (c : Dev nD) : SY.Idx → BitVec 32 := (m ((c : Thread nD τ).loc main_arg1) : Vec Ideal S2048 .i32)
abbrev WA (c : Dev nD) : SW.Idx → EReal := (V m c main_arg2 : Vec Ideal S100000x128 .f32)

/-- The unit rows computed at a batch tile's first point. -/
theorem unit_first (c : Dev nD) (t : Fin cfg0.N) (r : Fin 1024) (d : Fin 128) :
    k0_pay8 (F := Ideal) (fblk m c t) (ix2 r d)
      = XA m c (ix2 (row (t.val / 50) r) d) * Ideal.rsqrt (sqX (XA m c) (row (t.val / 50) r)) := by
  rw [pay8_apply]
  unfold sqX
  simp only [fblk, features_block]

/-- What the carried buffers hold after grid point `n`. -/
structure Acc (c : Dev nD) (n : ℕ) (h : n < cfg0.N) : Prop where
  exp : ∀ r : Fin 1024, (outsAt0 m c n h).2.1 (ix2 r (0 : Fin 1))
    = ∑ k ∈ Finset.range (n % 50 + 1), ∑ j : Fin 2000, Ideal.exp (logitT (XA m c) (YA m c) (WA m c) (row (n / 50) r) (cls k j) - thirty)
  sum : ∀ r : Fin 1024, (outsAt0 m c n h).2.2.1 (ix2 r (0 : Fin 1))
    = ∑ k ∈ Finset.range (n % 50 + 1), ∑ j : Fin 2000, logitT (XA m c) (YA m c) (WA m c) (row (n / 50) r) (cls k j)
  label : ∀ r : Fin 1024, (outsAt0 m c n h).2.2.2.1 (ix2 r (0 : Fin 1))
    = ∑ k ∈ Finset.range (n % 50 + 1), ∑ j : Fin 2000,
        (if hit (YA m c) (row (n / 50) r) (cls k j) then logitT (XA m c) (YA m c) (WA m c) (row (n / 50) r) (cls k j) else 0)
  unit : ∀ (r : Fin 1024) (d : Fin 128), (outsAt0 m c n h).2.2.2.2 (ix2 r d)
    = XA m c (ix2 (row (n / 50) r) d) * Ideal.rsqrt (sqX (XA m c) (row (n / 50) r))

/-- The label block's rows are the label vector's. -/
theorem labels_rows (c : Dev nD) (t : Fin cfg0.N) (r : Fin 1024) :
    yblk m c t (ix2 r (0 : Fin 1)) = YA m c (ix1 (row (t.val / 50) r)) :=
  (labels_block m c t r).trans (label_column_apply m c _)

/-- At a batch tile's first point. -/
theorem acc_first (c : Dev nD) (t : Fin cfg0.N) (h0 : t.val % 50 = 0) (h1 : ¬t.val % 50 = 49) : Acc m c t.val t.isLt := by
  have hN : t.val < 100 := lt_of_lt_of_eq t.isLt (show cfg0.N = 100 from N_0)
  have hlogit : ∀ (r : Fin 1024) (j : Fin 2000),
      k0_pay10 (F := Ideal) (grid0.coords t) (k0_pay8 (fblk m c t)) (wblk m c t) (yblk m c t) (ix2 r j)
        = logitT (XA m c) (YA m c) (WA m c) (row (t.val / 50) r) (cls (t.val % 50) j) := fun r j =>
    tile_logit (XA m c) (YA m c) (WA m c) (t.val / 50) (t.val % 50) (Nat.mod_lt _ (by omega)) (grid0.coords t) (coord_classes t)
      (k0_pay8 (fblk m c t)) (wblk m c t) (yblk m c t) (unit_first m c t) (classes_block m c t) (labels_rows m c t) r j
  have hr : Finset.range (t.val % 50 + 1) = {t.val % 50} := by rw [h0]; rfl
  refine ⟨fun r => ?_, fun r => ?_, fun r => ?_, fun r d => ?_⟩
  · rw [first_exp m c t h0 h1, pay1_eq, pay11_apply, pay5_apply, zero_add, hr, Finset.sum_singleton]
    simp only [hlogit]
  · rw [first_sum m c t h0 h1, pay2_apply, pay6_apply, zero_add, hr, Finset.sum_singleton]
    simp only [hlogit]
  · rw [first_label m c t h0 h1, pay3_apply, pay7_apply, zero_add, hr, Finset.sum_singleton]
    refine Finset.sum_congr rfl fun j _ => ?_
    rw [hlogit]
    have hcond : k0_pay9 (F := Ideal) (grid0.coords t) (yblk m c t) (ix2 r j) = 1#1 ↔ hit (YA m c) (row (t.val / 50) r) (cls (t.val % 50) j) := by
      rw [pay9_eq_one_iff, labels_rows, coord_classes]
      unfold hit
      rw [cls_val (Nat.mod_lt _ (by omega))]
    by_cases hh : hit (YA m c) (row (t.val / 50) r) (cls (t.val % 50) j)
    · rw [if_pos (hcond.mpr hh), if_pos hh]
    · rw [if_neg (fun h => hh (hcond.mp h)), if_neg hh]
  · rw [first_unit m c t h0 h1]
    exact unit_first m c t r d

/-- At every later point of a batch tile, from the point before. -/
theorem acc_next (c : Dev nD) (t : Fin cfg0.N) (h0 : ¬t.val % 50 = 0)
    (ih : Acc m c (t.val - 1) (Nat.lt_of_le_of_lt (Nat.sub_le _ _) t.isLt)) : Acc m c t.val t.isLt := by
  have hN : t.val < 100 := lt_of_lt_of_eq t.isLt (show cfg0.N = 100 from N_0)
  have hp : (t.val - 1) / 50 = t.val / 50 := by omega
  have hk : (t.val - 1) % 50 + 1 = t.val % 50 := by omega
  have e_exp : (outsAt0 m c t.val t.isLt).2.1 = k0_pay1 (k0_pay11 (grid0.coords t) (outsAt0 m c (t.val - 1) (Nat.lt_of_le_of_lt (Nat.sub_le _ _) t.isLt)).2.2.2.2 (wblk m c t) (yblk m c t) (outsAt0 m c (t.val - 1) (Nat.lt_of_le_of_lt (Nat.sub_le _ _) t.isLt)).2.1) := by
    by_cases h1 : t.val % 50 = 49
    · exact last_exp m c t h0 h1
    · exact later_exp m c t h0 h1
  have e_sum : (outsAt0 m c t.val t.isLt).2.2.1 = k0_pay2 (k0_pay10 (grid0.coords t) (outsAt0 m c (t.val - 1) (Nat.lt_of_le_of_lt (Nat.sub_le _ _) t.isLt)).2.2.2.2 (wblk m c t) (yblk m c t)) (outsAt0 m c (t.val - 1) (Nat.lt_of_le_of_lt (Nat.sub_le _ _) t.isLt)).2.2.1 := by
    by_cases h1 : t.val % 50 = 49
    · exact last_sum m c t h0 h1
    · exact later_sum m c t h0 h1
  have e_label : (outsAt0 m c t.val t.isLt).2.2.2.1 = k0_pay3 (k0_pay9 (grid0.coords t) (yblk m c t)) (k0_pay10 (grid0.coords t) (outsAt0 m c (t.val - 1) (Nat.lt_of_le_of_lt (Nat.sub_le _ _) t.isLt)).2.2.2.2 (wblk m c t) (yblk m c t)) (outsAt0 m c (t.val - 1) (Nat.lt_of_le_of_lt (Nat.sub_le _ _) t.isLt)).2.2.2.1 := by
    by_cases h1 : t.val % 50 = 49
    · exact last_label m c t h0 h1
    · exact later_label m c t h0 h1
  have e_unit : (outsAt0 m c t.val t.isLt).2.2.2.2 = (outsAt0 m c (t.val - 1) (Nat.lt_of_le_of_lt (Nat.sub_le _ _) t.isLt)).2.2.2.2 := by
    by_cases h1 : t.val % 50 = 49
    · exact last_unit m c t h0 h1
    · exact later_unit m c t h0 h1
  have hlogit : ∀ (r : Fin 1024) (j : Fin 2000),
      k0_pay10 (F := Ideal) (grid0.coords t) (outsAt0 m c (t.val - 1) (Nat.lt_of_le_of_lt (Nat.sub_le _ _) t.isLt)).2.2.2.2 (wblk m c t) (yblk m c t) (ix2 r j)
        = logitT (XA m c) (YA m c) (WA m c) (row (t.val / 50) r) (cls (t.val % 50) j) := fun r j =>
    tile_logit (XA m c) (YA m c) (WA m c) (t.val / 50) (t.val % 50) (Nat.mod_lt _ (by omega)) (grid0.coords t) (coord_classes t)
      (outsAt0 m c (t.val - 1) (Nat.lt_of_le_of_lt (Nat.sub_le _ _) t.isLt)).2.2.2.2 (wblk m c t) (yblk m c t) (fun r d => by rw [ih.unit r d, hp]) (classes_block m c t) (labels_rows m c t) r j
  refine ⟨fun r => ?_, fun r => ?_, fun r => ?_, fun r d => ?_⟩
  · rw [e_exp, pay1_eq, pay11_apply, ih.exp r, hp, hk, Finset.sum_range_succ]
    simp only [hlogit]
  · rw [e_sum, pay2_apply, ih.sum r, hp, hk, Finset.sum_range_succ]
    simp only [hlogit]
  · rw [e_label, pay3_apply, ih.label r, hp, hk, Finset.sum_range_succ]
    refine congrArg (_ + ·) (Finset.sum_congr rfl fun j _ => ?_)
    rw [hlogit]
    have hcond : k0_pay9 (F := Ideal) (grid0.coords t) (yblk m c t) (ix2 r j) = 1#1 ↔ hit (YA m c) (row (t.val / 50) r) (cls (t.val % 50) j) := by
      rw [pay9_eq_one_iff, labels_rows, coord_classes]
      unfold hit
      rw [cls_val (Nat.mod_lt _ (by omega))]
    by_cases hh : hit (YA m c) (row (t.val / 50) r) (cls (t.val % 50) j)
    · rw [if_pos (hcond.mpr hh), if_pos hh]
    · rw [if_neg (fun h => hh (hcond.mp h)), if_neg hh]
  · rw [e_unit, ih.unit r d, hp]

/-- After every grid point. -/
theorem acc_all (c : Dev nD) : ∀ (n : ℕ) (h : n < cfg0.N), Acc m c n h := by
  intro n
  induction n with
  | zero => intro h; exact acc_first m c ⟨0, h⟩ (Nat.zero_mod _) (by simp)
  | succ n ih =>
    intro h
    have hN : n + 1 < 100 := lt_of_lt_of_eq h (show cfg0.N = 100 from N_0)
    by_cases h0 : (n + 1) % 50 = 0
    · exact acc_first m c ⟨n + 1, h⟩ h0 (by show ¬(n + 1) % 50 = 49; omega)
    · exact acc_next m c ⟨n + 1, h⟩ h0 (ih (Nat.lt_of_succ_lt h))

/-- At a batch tile's last point the output block holds the rows' losses. -/
theorem out_last (c : Dev nD) (t : Fin cfg0.N) (h1 : t.val % 50 = 49) (r : Fin 1024) :
    (outsAt0 m c t.val t.isLt).1 (ix2 r (0 : Fin 1)) = rowLossT (XA m c) (YA m c) (WA m c) (row (t.val / 50) r) := by
  have h0 : ¬t.val % 50 = 0 := by omega
  have A := acc_all m c t.val t.isLt
  rw [last_out m c t h0 h1, ← last_exp m c t h0 h1, ← last_label m c t h0 h1, ← last_sum m c t h0 h1, pay4_apply,
    A.exp r, A.label r, A.sum r, h1]
  show _ = rowLossT _ _ _ _
  unfold rowLossT expSumT labelSumT logitSumT
  rw [sum_tiles (fun c' => Ideal.exp (logitT (XA m c) (YA m c) (WA m c) (row (t.val / 50) r) c' - thirty)),
    sum_tiles (fun c' => if hit (YA m c) (row (t.val / 50) r) c' then logitT (XA m c) (YA m c) (WA m c) (row (t.val / 50) r) c' else 0),
    sum_tiles (fun c' => logitT (XA m c) (YA m c) (WA m c) (row (t.val / 50) r) c')]

end Cert.KernelIdeal.Value

end
-- ==== Proof.KernelRun.lean ====
/-
  The kernel's result. The output column is written back once per batch tile, at the tile's last grid point, and the
  two blocks tile it: so after the region its entry `b` is row `b`'s loss. The program then sums the column and
  divides by the number of rows: the accumulating form of the loss.
-/
import proofs.«430701_j88553635709481_2_alg».proof.Proof.KernelAccum

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.Loss

variable (m : (ℓ : Loc nD τ sig) → Buf (Elt Ideal) ℓ) (ρ : Dev nD → PrngReg)

/-- The column of row losses. -/
def lossColumn (c : Dev nD) : Vec Ideal S2048x1 .f32 :=
  fun i => rowLossT (XA m c) (YA m c) (WA m c) ⟨(i 0).val, idx2_lt0 i⟩

/-- What a batch tile's last point writes back is its block of the column. -/
theorem flushed_out (c : Dev nD) (t : Fin cfg0.N) (hf : (cfg0.win 3).flush t = true) :
    (dats m 0 c).flushed 3 t = ((cfg0.win 3).blk t).view.read (Elt Ideal) (lossColumn m c) := by
  have hN : t.val < 100 := lt_of_lt_of_eq t.isLt (show cfg0.N = 100 from N_0)
  have h1 : t.val % 50 = 49 := (flush0_3 t).mp hf
  show (cfg0.win 3).cut (grid0.coords t) ((dats m 0 c).after 3 t) = _
  rw [after0_3]
  funext y
  obtain ⟨r, z, rfl⟩ : ∃ (r : Fin 1024) (z : Fin 1), y = ix2 r z := ⟨y 0, y 1, eq_ix2 y⟩
  obtain rfl : z = 0 := Subsingleton.elim _ _
  show (outsAt0 m c t.val t.isLt).1 (ix2 r (0 : Fin 1)) = lossColumn m c (((cfg0.win 3).blk t).view.emb (ix2 r (0 : Fin 1)))
  rw [out_last m c t h1 r]
  unfold lossColumn
  refine congrArg _ (Fin.ext ?_)
  show (row (t.val / 50) r).val = win0_3.index t 0 * 1024 + 1 * r.val
  rw [(index_out t).1, row_val (by omega)]
  omega

/-- An index of the column is in a point's block iff each coordinate is in the block's range. -/
theorem mem_blk_out (t : Fin cfg0.N) (i : S2048x1.Idx) :
    i ∈ ((cfg0.win 3).blk t).view.set
      ↔ ∀ a : Fin 2, win0_3.index t a * S1024x1.size a ≤ (i a).val ∧ (i a).val < win0_3.index t a * S1024x1.size a + S1024x1.size a := by
  show i ∈ ((View.whole main_v1).slice (win0_3.rect t)).set ↔ _
  rw [View.set_slice_whole, Rect.mem_set_unit]
  exact Iff.rfl

/-- Every index of the column is in the block some batch tile's last point writes back. -/
theorem covered_out (i : S2048x1.Idx) :
    ∃ t : Fin cfg0.N, (cfg0.win 3).flush t = true ∧ i ∈ ((cfg0.win 3).blk t).view.set := by
  have hi0 : (i 0).val < 2048 := idx2_lt0 i
  have hi1 : (i 1).val < 1 := idx2_lt1 i
  have hN : cfg0.N = 100 := N_0
  refine ⟨⟨50 * ((i 0).val / 1024) + 49, by rw [hN]; omega⟩, (flush0_3 _).mpr (by show (50 * ((i 0).val / 1024) + 49) % 50 = 49; omega), ?_⟩
  rw [mem_blk_out]
  have e := index_out ⟨50 * ((i 0).val / 1024) + 49, by rw [hN]; omega⟩
  intro a
  match a with
  | ⟨0, _⟩ =>
    show win0_3.index _ (0 : Fin 2) * 1024 ≤ (i 0).val ∧ (i 0).val < win0_3.index _ (0 : Fin 2) * 1024 + 1024
    rw [e.1]
    show (50 * ((i 0).val / 1024) + 49) / 50 * 1024 ≤ (i 0).val ∧ (i 0).val < (50 * ((i 0).val / 1024) + 49) / 50 * 1024 + 1024
    omega
  | ⟨1, _⟩ =>
    show win0_3.index _ (1 : Fin 2) * 1 ≤ (i 1).val ∧ (i 1).val < win0_3.index _ (1 : Fin 2) * 1 + 1
    rw [e.2]
    omega

/-- The column after the region. -/
theorem final_out (c : Dev nD) : (dats m 0 c).arrAt 3 cfg0.N = lossColumn m c :=
  (dats m 0 c).arrAt_eq_of_cover 3 (lossColumn m c) (flushed_out m c) covered_out

/-- The sum of the column over its index set is the sum of the row losses. -/
theorem sum_column (c : Dev nD) :
    ∑ i : S2048x1.Idx, lossColumn m c i = ∑ b : Fin 2048, rowLossT (XA m c) (YA m c) (WA m c) b := by
  rw [sum_idx2]
  refine Finset.sum_congr rfl fun b _ => ?_
  rw [Fin.sum_univ_one]
  rfl

/-- The scalar the program ends with: the column's sum from zero, divided by the number of rows. -/
theorem tail_result (c : Dev nD) :
    Pipeline.afterTail₀ cfgs (dats m) 0 (V0 m) [hostOps1] c main_v3 = fun _ => tiled (XA m c) (YA m c) (WA m c) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v1)
      = lossColumn m c :=
    (Pipeline.withArrays_arr spec0 launch0.win.arr_inj c _ _ 3).trans (final_out m c)
  rw [hw]
  funext i
  have hs : Host.reduceAdd (lossColumn m c) (constant (F := Ideal) S_ .f32 0x00000000#32) reducesTo_S2048x1_S_d0_1 h_S_ i
      = (constant (F := Ideal) S_ .f32 0x00000000#32) (Shape.Idx.first h_S_) + ∑ j : S2048x1.Idx, lossColumn m c j := by
    simp only [Host.reduceAdd, Ideal.hostReduceAdd_def]
    exact Ideal.hostReduceAdd_total reducesTo_S2048x1_S_d0_1 (fun b => b.elim0) (lossColumn m c) _ i
  show FloatOps.hostDivf (Host.reduceAdd (lossColumn m c) (constant (F := Ideal) S_ .f32 0x00000000#32) reducesTo_S2048x1_S_d0_1 h_S_ i)
    (Ideal.ofBits .f32 0x45000000#32) = _
  rw [hs, sum_column]
  show Ideal.div (Ideal.ofBits .f32 0x00000000#32 + _) rows = _
  rw [Ideal.ofBits_zero_f32, zero_add]
  rfl

/-- The matrices as the region finds them are the arguments. -/
theorem XA_eq (c : Dev nD) : XA m c = m ((c : Thread nD τ).loc main_arg0) := V_main_arg0 m c
theorem WA_eq (c : Dev nD) : WA m c = m ((c : Thread nD τ).loc main_arg2) := V_main_arg2 m c

/-- The run, read: the result is the accumulating form of the loss of the arguments, and the arguments end unchanged. -/
theorem run : θ_run defs (onTc (τ := τ) (main (F := Ideal))) ⟨m, fun _ => 0, ρ⟩ fun r => ∀ c : Dev nD,
      r.2.mem ((c.tc : Thread nD τ).loc main_v3)
        = (fun _ => tiled (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans
        ((tail_result m c).trans (by rw [XA_eq, WA_eq])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.Value

end
-- ==== Proof.PreFacts.lean ====
/-
  What the precondition says of the arguments: every feature and every class entry is a real number (its absolute
  value is below +∞), every feature row and every class row has positive squared length, and every label is at
  least 0 and below 100000 as a signed word, hence a class index.
-/
import proofs.«430701_j88553635709481_2_alg».proof.Pre_finite_inputs
import proofs.«430701_j88553635709481_2_alg».proof.Proof.Gen.Pre_finite_inputs
import proofs.«430701_j88553635709481_2_alg».proof.Proof.Spec
import Idealize.ShloMosaic.Lib.ReduceAll
import Idealize.ShloMosaic.Lib.StableHlo.Predicate
import Idealize.ShloMosaic.PureOps.Ideal.Laws

noncomputable section

namespace Cert.Loss

open Idealize.ShloMosaic Idealize.ShloMosaic.ValueIdx

/-! ## One element at a time -/

/-- The f32 word of +∞ is the top of the extended reals. -/
private theorem ofBits_inf_f32 : Ideal.ofBits .f32 0x7F800000#32 = ⊤ := by
  simp [Ideal.ofBits, Ideal.ieee]

/-- A one-bit word made from a decision is 1 exactly when the decision holds. -/
private theorem ofBool_decide_eq_one (p : Prop) [Decidable p] : BitVec.ofBool (decide p) = 1#1 ↔ p := by
  rw [StableHlo.Predicate.ofBool_eq_one_iff, decide_eq_true_eq]

/-- An extended real whose absolute value is below +∞ is a real number: at either infinity the absolute value
    is +∞ itself. -/
private theorem real_of_abs_lt_inf (x : EReal)
    (h : Ideal.cmp .olt (max x (-x)) (Ideal.ofBits .f32 0x7F800000#32) = 1#1) : ∃ r : ℝ, x = (r : EReal) := by
  rw [ofBits_inf_f32] at h
  have hlt : max x (-x) < ⊤ := (ofBool_decide_eq_one _).1 h
  induction x using EReal.rec with
  | bot => simp at hlt
  | coe r => exact ⟨r, rfl⟩
  | top => simp at hlt

/-- "Greater than the zero word" says the value is positive. -/
private theorem pos_of_ogt_zero (s : EReal)
    (h : Ideal.cmp .ogt s (Ideal.ofBits .f32 0x00000000#32) = 1#1) : 0 < s := by
  rw [Ideal.ofBits_zero_f32] at h
  exact (ofBool_decide_eq_one _).1 h

/-- A word that is at least 0 and below 100000 as a signed number is below 100000 as a natural number: a signed
    value that is not negative is the unsigned one. -/
private theorem toNat_lt_of_signed (y : BitVec 32)
    (h : IntOp.andi (IntOp.cmpi .sge y 0#32) (IntOp.cmpi .slt y 100000#32) = 1#1) : y.toNat < 100000 := by
  obtain ⟨h1, h2⟩ := IntOp.andi_eq_one.1 h
  have h1' : (0#32 : BitVec 32).toInt ≤ y.toInt := IntOp.cmpi_sge.1 h1
  have h2' : y.toInt < (100000#32 : BitVec 32).toInt := IntOp.cmpi_slt.1 h2
  have e0 : (0#32 : BitVec 32).toInt = 0 := by decide
  have e1 : (100000#32 : BitVec 32).toInt = 100000 := by decide
  rw [e0] at h1'
  rw [e1] at h2'
  rw [BitVec.toInt_eq_toNat_cond] at h1' h2'
  have := y.isLt
  split_ifs at h1' h2' <;> omega

/-! ## The same at an index of a printed array

Each test of the precondition compares an array with a scalar constant broadcast to its shape. The three lemmas
below read such a comparison at one index, for any array of any shape. -/

/-- Where "absolute value below the +∞ word" holds at an index, the entry there is a real number. -/
private theorem real_at {S : Shape} (x : FVec Ideal S .f32) (hb : Cert.Pre_finite_inputs.S_.BroadcastsInDim S ![])
    (i : S.Idx)
    (h : cmpf .olt (Host.absf x) (broadcastInDim S ![] hb (constant Cert.Pre_finite_inputs.S_ .f32 0x7F800000#32)) i = 1#1) :
    ∃ r : ℝ, x i = (r : EReal) :=
  real_of_abs_lt_inf (x i) h

/-- Where "greater than the zero word" holds at an index, the entry there is positive. -/
private theorem pos_at {S : Shape} (A : FVec Ideal S .f32) (hb : Cert.Pre_finite_inputs.S_.BroadcastsInDim S ![])
    (j : S.Idx)
    (h : cmpf .ogt A (broadcastInDim S ![] hb (constant Cert.Pre_finite_inputs.S_ .f32 0x00000000#32)) j = 1#1) :
    0 < A j :=
  pos_of_ogt_zero (A j) h

/-- Where "at least 0 and below 100000, signed" holds at an index, the word there is below 100000 as a natural number. -/
private theorem label_at {S : Shape} (y : IVec S 32) (hb0 hb1 : Cert.Pre_finite_inputs.S_.BroadcastsInDim S ![])
    (j : S.Idx)
    (h : andi (cmpi .sge y (broadcastInDim S ![] hb0 (constantI Cert.Pre_finite_inputs.S_ 32 0#32)))
          (cmpi .slt y (broadcastInDim S ![] hb1 (constantI Cert.Pre_finite_inputs.S_ 32 100000#32))) j = 1#1) :
    (y j).toNat < 100000 :=
  toNat_lt_of_signed (y j) h

/-! ## A row's sum of squares -/

/-- The sum along the second axis of the elementwise square of an `n × 128` array, started at the zero word, is at
    row `b` the sum over the 128 coordinates of the squares of that row's entries: the index the reduction reads at
    coordinate `d` of row `b` is `(b, d)`. -/
private theorem rowSum_sq {n : ℕ} {u : Shape} (x : FVec Ideal ⟨2, ![n, 128]⟩ .f32) (hu : 0 < u.numel)
    (h' : (⟨2, ![n, 128]⟩ : Shape).ReducesTo [1] ⟨1, ![n]⟩) (h : (⟨2, ![n, 128]⟩ : Shape).Reduces [1] ⟨1, ![n]⟩)
    (b : Fin n) :
    Host.reduceAdd (mulf x x) (constant u .f32 0x00000000#32) h' hu (ix1 b)
      = ∑ d : Fin 128, x (ix2 b d) * x (ix2 b d) := by
  show Ideal.hostReduceAdd h' (mulf x x) (Ideal.ofBits .f32 0x00000000#32) (ix1 b) = _
  rw [Ideal.hostReduceAdd_single h' h, Ideal.ofBits_zero_f32, zero_add]
  refine Finset.sum_congr rfl fun d _ => ?_
  have e : h.lift (ix1 b) d = ix2 b d := by
    funext a
    apply Fin.ext
    match a with
    | ⟨0, _⟩ => rfl
    | ⟨1, _⟩ => rfl
  exact congrArg (fun i => x i * x i) e

/-! ## The precondition, read back -/

/-- The precondition, all ones, makes the arguments admissible. -/
theorem admissible_of_pre [Cert.Pre_finite_inputs.Facts] (x0 : SX.Idx → EReal) (x1 : SY.Idx → BitVec 32) (x2 : SW.Idx → EReal)
    (h : Cert.Pre_finite_inputs.fn (F := Ideal) x0 x1 x2 = fun _ => 1#1) : Admissible x0 x1 x2 := by
  -- the result has one index
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  -- the conjunction of the five tests
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨fun i => ?_, fun i => ?_, fun b => ?_, fun c => ?_, fun b => ?_⟩
  · exact real_at x0 _ i (Host.reduce_andi_all _ _ _ _ _ h1 i)
  · exact real_at x2 _ i (Host.reduce_andi_all _ _ _ _ _ h2 i)
  · -- the compared value at row `b` is the row's squared length
    have hr : (⟨2, ![2048, 128]⟩ : Shape).Reduces [1] ⟨1, ![2048]⟩ := by decide
    exact (pos_at _ _ (ix1 b) (Host.reduce_andi_all _ _ _ _ _ h3 (ix1 b))).trans_eq (rowSum_sq x0 _ _ hr b)
  · have hr : (⟨2, ![100000, 128]⟩ : Shape).Reduces [1] ⟨1, ![100000]⟩ := by decide
    exact (pos_at _ _ (ix1 c) (Host.reduce_andi_all _ _ _ _ _ h4 (ix1 c))).trans_eq (rowSum_sq x2 _ _ hr c)
  · exact label_at x1 _ _ (ix1 b) (Host.reduce_andi_all _ _ _ _ _ h5 (ix1 b))

end Cert.Loss

end
-- ==== Proof.AgreeLogits.lean ====
/-
  Under `Admissible` the two forms have the same logits, and they are real numbers.
  A row of positive squared length `s` has `rsqrt s = (√s)⁻¹` and `x / √s = x · (√s)⁻¹`, so the unit rows agree
  entry by entry and so do the inner products and their clips; a clipped sum of real products is a real number in
  [-1, 1]; and for a real cosine `κ`, `30 · (κ + m) = 30 · κ - 30 · (-m)` with `m` the f32 nearest -3/10, where
  `30 · 5033165/16777216 = 75497475/8388608`.
-/
import proofs.«430701_j88553635709481_2_alg».proof.Proof.Spec

noncomputable section

namespace Cert.Loss

open Idealize.ShloMosaic Idealize.ShloMosaic.ValueIdx

variable {X : SX.Idx → EReal} {Y : SY.Idx → BitVec 32} {W : SW.Idx → EReal}

/-! ## The literal words the logits read, as real numbers -/

/-- `0x3F800000`: sign 0, exponent 127, fraction 0: the real 1. -/
private theorem one_eq : one = ((1 : ℝ) : EReal) := by
  simp [Ideal.ofBits, Ideal.ieee, -EReal.coe_mul]; norm_num

/-- `0xBF800000`: sign 1, exponent 127, fraction 0: the real -1. -/
private theorem negOne_eq : negOne = ((-1 : ℝ) : EReal) := by
  simp [Ideal.ofBits, Ideal.ieee, -EReal.coe_mul]; norm_num

/-- `0x41F00000`: exponent 131, fraction 7·2^20: (2^23 + 7·2^20)·2^(-19) = 30. -/
private theorem thirty_eq : thirty = ((30 : ℝ) : EReal) := by
  simp [Ideal.ofBits, Ideal.ieee, -EReal.coe_mul]; norm_num

/-- `0xBE99999A`: sign 1, exponent 125, fraction 1677722: -(2^23 + 1677722)·2^(-25) = -5033165/16777216. -/
private theorem negMargin_eq : negMargin = ((-(5033165 / 16777216) : ℝ) : EReal) := by
  simp [Ideal.ofBits, Ideal.ieee, -EReal.coe_mul]; norm_num

/-! ## Coercion through a finite sum, a maximum, a minimum -/

private theorem sum_coe {ι : Type} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

private theorem max_coe (a b : ℝ) : max (a : EReal) (b : EReal) = ((max a b : ℝ) : EReal) := by
  rcases le_total a b with hab | hab
  · rw [max_eq_right hab, max_eq_right (EReal.coe_le_coe_iff.mpr hab)]
  · rw [max_eq_left hab, max_eq_left (EReal.coe_le_coe_iff.mpr hab)]

private theorem min_coe (a b : ℝ) : min (a : EReal) (b : EReal) = ((min a b : ℝ) : EReal) := by
  rcases le_total a b with hab | hab
  · rw [min_eq_left hab, min_eq_left (EReal.coe_le_coe_iff.mpr hab)]
  · rw [min_eq_right hab, min_eq_right (EReal.coe_le_coe_iff.mpr hab)]

/-! ## A row of real entries: its squared length, its two normalisations -/

/-- The squared length of a row of real entries is the real sum of squares. -/
private theorem sq_coe (R : Fin 128 → EReal) (x : Fin 128 → ℝ) (hR : ∀ d, R d = ((x d : ℝ) : EReal)) :
    ∑ d, R d * R d = ((∑ d, x d * x d : ℝ) : EReal) := by
  rw [← sum_coe]
  refine Finset.sum_congr rfl fun d _ => ?_
  rw [hR d, EReal.coe_mul]

/-- At a positive real the square root is the real square root. -/
private theorem sqrt_pos_coe {s : ℝ} (hs : 0 < s) : Ideal.sqrt (s : EReal) = ((Real.sqrt s : ℝ) : EReal) := by
  rw [Ideal.sqrt_coe, if_neg (not_lt.mpr hs.le)]

/-- At a positive real the reciprocal square root is the real `(√s)⁻¹`. -/
private theorem rsqrt_pos_coe {s : ℝ} (hs : 0 < s) :
    Ideal.rsqrt (s : EReal) = (((Real.sqrt s)⁻¹ : ℝ) : EReal) := by
  rw [Ideal.rsqrt_coe, if_neg (not_lt.mpr hs.le), if_neg hs.ne']

/-- Dividing by `√s` is multiplying by `(√s)⁻¹`, for every extended real `x`: `√s` is a nonzero real. -/
private theorem div_sqrt_eq {s : ℝ} (hs : 0 < s) (x : EReal) :
    Ideal.div x (Ideal.sqrt (s : EReal)) = x * Ideal.rsqrt (s : EReal) := by
  rw [sqrt_pos_coe hs, rsqrt_pos_coe hs, Ideal.div_coe (Real.sqrt_pos.mpr hs).ne', one_div]

/-- A feature row's squared length is a positive real. -/
private theorem sqX_coe (h : Admissible X Y W) (b : Fin 2048) : ∃ s : ℝ, 0 < s ∧ sqX X b = (s : EReal) := by
  choose x hx using h.realX
  have e : sqX X b = ((∑ d, x (ix2 b d) * x (ix2 b d) : ℝ) : EReal) :=
    sq_coe (fun d => X (ix2 b d)) (fun d => x (ix2 b d)) fun d => hx (ix2 b d)
  refine ⟨_, ?_, e⟩
  have hp := h.posX b
  rw [e] at hp
  exact EReal.coe_pos.mp hp

/-- A class row's squared length is a positive real. -/
private theorem sqW_coe (h : Admissible X Y W) (c : Fin 100000) : ∃ t : ℝ, 0 < t ∧ sqW W c = (t : EReal) := by
  choose w hw using h.realW
  have e : sqW W c = ((∑ d, w (ix2 c d) * w (ix2 c d) : ℝ) : EReal) :=
    sq_coe (fun d => W (ix2 c d)) (fun d => w (ix2 c d)) fun d => hw (ix2 c d)
  refine ⟨_, ?_, e⟩
  have hp := h.posW c
  rw [e] at hp
  exact EReal.coe_pos.mp hp

/-! ## The clipped cosines -/

/-- The two clipped cosines are one: the unit rows agree entry by entry. -/
private theorem cosD_eq_cosT (h : Admissible X Y W) (b : Fin 2048) (c : Fin 100000) :
    cosD X W b c = cosT X W b c := by
  obtain ⟨s, hs, es⟩ := sqX_coe h b
  obtain ⟨t, ht, et⟩ := sqW_coe h c
  unfold cosD cosT
  rw [es, et]
  simp only [div_sqrt_eq hs, div_sqrt_eq ht]

/-- The clipped cosine is a real number: a clip to [-1, 1] of a sum of products of reals. -/
private theorem cosT_real (h : Admissible X Y W) (b : Fin 2048) (c : Fin 100000) :
    ∃ κ : ℝ, cosT X W b c = (κ : EReal) := by
  obtain ⟨s, hs, es⟩ := sqX_coe h b
  obtain ⟨t, ht, et⟩ := sqW_coe h c
  choose x hx using h.realX
  choose w hw using h.realW
  have esum : (∑ d : Fin 128, (X (ix2 b d) * Ideal.rsqrt (sqX X b)) * (W (ix2 c d) * Ideal.rsqrt (sqW W c)))
      = ((∑ d : Fin 128, (x (ix2 b d) * (Real.sqrt s)⁻¹) * (w (ix2 c d) * (Real.sqrt t)⁻¹) : ℝ) : EReal) := by
    rw [← sum_coe, es, et, rsqrt_pos_coe hs, rsqrt_pos_coe ht]
    refine Finset.sum_congr rfl fun d _ => ?_
    rw [hx, hw, EReal.coe_mul, EReal.coe_mul, EReal.coe_mul]
  refine ⟨min 1 (max (-1) (∑ d : Fin 128, (x (ix2 b d) * (Real.sqrt s)⁻¹) * (w (ix2 c d) * (Real.sqrt t)⁻¹))), ?_⟩
  unfold cosT
  rw [esum, one_eq, negOne_eq, max_coe, min_coe]

/-! ## The logits -/

/-- The accumulating form's logit is a real number. -/
theorem logitT_real (h : Admissible X Y W) (b : Fin 2048) (c : Fin 100000) :
    ∃ r : ℝ, logitT X Y W b c = (r : EReal) := by
  obtain ⟨κ, hκ⟩ := cosT_real h b c
  unfold logitT
  by_cases hh : hit Y b c
  · refine ⟨30 * κ - 75497475 / 8388608, ?_⟩
    rw [if_pos hh, hκ, thirty_eq, ← EReal.coe_mul, ← EReal.coe_sub]
  · refine ⟨30 * κ, ?_⟩
    rw [if_neg hh, hκ, thirty_eq, ← EReal.coe_mul]

/-- The direct form's logit is the accumulating form's. -/
theorem logitD_eq_logitT (h : Admissible X Y W) (b : Fin 2048) (c : Fin 100000) :
    logitD X Y W b c = logitT X Y W b c := by
  obtain ⟨κ, hκ⟩ := cosT_real h b c
  unfold logitD logitT
  rw [cosD_eq_cosT h b c, hκ, thirty_eq]
  by_cases hh : hit Y b c
  · rw [if_pos hh, if_pos hh, negMargin_eq, ← EReal.coe_add, ← EReal.coe_mul, ← EReal.coe_mul, ← EReal.coe_sub]
    congr 1
    ring
  · rw [if_neg hh, if_neg hh, add_zero]

end Cert.Loss

end
-- ==== Proof.AgreeRow.lean ====
/-
  One row, over real logits `ℓ` and a label `y`: the direct row loss is the accumulating one.
  With `M` the greatest logit, `∑ exp (ℓ c - M) = exp (30 - M) · ∑ exp (ℓ c - 30)`, so
  `M + log ∑ exp (ℓ c - M) = 30 + log ∑ exp (ℓ c - 30)`: the log-partition does not depend on the shift. Hence the
  negative log-probability at `y` is the log-partition less `ℓ y`, and the mean negative log-probability is the
  log-partition less the mean logit, the sum divided by 100000 being the sum times 1/100000.
-/
import proofs.«430701_j88553635709481_2_alg».proof.Proof.Spec
import Mathlib.Analysis.SpecialFunctions.Log.Basic
import Mathlib.Algebra.BigOperators.Field
import Mathlib.Data.Finset.Fold

noncomputable section

namespace Cert.Loss

open Idealize.ShloMosaic

/-! ## General facts -/

/-- A finite sum of coerced reals is the coercion of the real sum. -/
private theorem coe_sum {ι : Type*} (s : Finset ι) (f : ι → ℝ) :
    (∑ c ∈ s, ((f c : ℝ) : EReal)) = ((∑ c ∈ s, f c : ℝ) : EReal) := by
  classical
  induction s using Finset.induction_on with
  | empty => simp
  | insert a s ha ih => rw [Finset.sum_insert ha, Finset.sum_insert ha, ih, EReal.coe_add]

/-- The greatest of finitely many reals, folded from `⊥` in the extended reals, is a real number as soon as there
    is one of them. -/
private theorem fold_max_real {ι : Type*} (f : ι → ℝ) (s : Finset ι) (hs : s.Nonempty) :
    ∃ M : ℝ, s.fold max (⊥ : EReal) (fun c => ((f c : ℝ) : EReal)) = (M : EReal) := by
  classical
  induction s using Finset.induction_on with
  | empty => exact absurd hs Finset.not_nonempty_empty
  | insert a s ha ih =>
    rw [Finset.fold_insert ha]
    rcases s.eq_empty_or_nonempty with rfl | hne
    · exact ⟨f a, by rw [Finset.fold_empty, max_eq_left bot_le]⟩
    · obtain ⟨M, hM⟩ := ih hne
      exact ⟨max (f a) M, by rw [hM]; exact (EReal.coe_strictMono.monotone.map_max).symm⟩

/-- The log-partition does not depend on the shift: `∑ exp (ℓ c - M) = exp (30 - M) · ∑ exp (ℓ c - 30)`, and both
    sums are positive. -/
private theorem log_sum_exp_shift {ι : Type*} [Fintype ι] [Nonempty ι] (ℓ : ι → ℝ) (M : ℝ) :
    Real.log (∑ c, Real.exp (ℓ c - M)) = (30 - M) + Real.log (∑ c, Real.exp (ℓ c - 30)) := by
  have hsum : (∑ c, Real.exp (ℓ c - M)) = Real.exp (30 - M) * ∑ c, Real.exp (ℓ c - 30) := by
    rw [Finset.mul_sum]
    refine Finset.sum_congr rfl fun c _ => ?_
    rw [← Real.exp_add]
    congr 1
    ring
  have hpos : (0 : ℝ) < ∑ c, Real.exp (ℓ c - 30) :=
    Finset.sum_pos (fun c _ => Real.exp_pos _) Finset.univ_nonempty
  rw [hsum, Real.log_mul (Real.exp_pos _).ne' hpos.ne', Real.log_exp]

/-- The mean of `ℓ c - a` over `N` indices is the mean of `ℓ` less `a`. -/
private theorem sum_sub_const_mul_inv {ι : Type*} [Fintype ι] (ℓ : ι → ℝ) (a N : ℝ)
    (hN : (Fintype.card ι : ℝ) = N) (hN0 : N ≠ 0) :
    (∑ c, (ℓ c - a)) * (1 / N) = (∑ c, ℓ c) * (1 / N) - a := by
  rw [Finset.sum_sub_distrib, Finset.sum_const, Finset.card_univ, nsmul_eq_mul, hN]
  field_simp

/-! ## The row -/

/-- The direct row loss of real logits is the accumulating row loss of the same logits. -/
theorem row_agree (ℓ : Fin 100000 → ℝ) (y : Fin 100000) :
    nineTenths * (-((((ℓ y : ℝ) : EReal) - max negInf ((Finset.univ : Finset (Fin 100000)).fold max negInf (fun c => ((ℓ c : ℝ) : EReal))))
          - Ideal.log (∑ c' : Fin 100000, Ideal.exp (((ℓ c' : ℝ) : EReal) - max negInf ((Finset.univ : Finset (Fin 100000)).fold max negInf (fun c => ((ℓ c : ℝ) : EReal)))))))
      + oneTenth * (-(Ideal.div (∑ c : Fin 100000, ((((ℓ c : ℝ) : EReal) - max negInf ((Finset.univ : Finset (Fin 100000)).fold max negInf (fun c => ((ℓ c : ℝ) : EReal))))
          - Ideal.log (∑ c' : Fin 100000, Ideal.exp (((ℓ c' : ℝ) : EReal) - max negInf ((Finset.univ : Finset (Fin 100000)).fold max negInf (fun c => ((ℓ c : ℝ) : EReal))))))) classes))
    = nineTenths * ((thirty + Ideal.log (∑ c : Fin 100000, Ideal.exp (((ℓ c : ℝ) : EReal) - thirty))) - ((ℓ y : ℝ) : EReal))
      + oneTenth * ((thirty + Ideal.log (∑ c : Fin 100000, Ideal.exp (((ℓ c : ℝ) : EReal) - thirty))) - (∑ c : Fin 100000, ((ℓ c : ℝ) : EReal)) * invClasses) := by
  classical
  -- the three literal words: -∞, 30, 100000
  have hneg : negInf = (⊥ : EReal) := by simp [Ideal.ofBits, Ideal.ieee]
  have h30 : thirty = ((30 : ℝ) : EReal) := by
    simp [Ideal.ofBits, Ideal.ieee, -EReal.coe_mul]; norm_num
  have hcl : classes = ((100000 : ℝ) : EReal) := by
    simp [Ideal.ofBits, Ideal.ieee, -EReal.coe_mul]; norm_num
  -- the greatest logit is a real number M
  obtain ⟨M, hM⟩ : ∃ M : ℝ,
      max negInf ((Finset.univ : Finset (Fin 100000)).fold max negInf (fun c => ((ℓ c : ℝ) : EReal))) = (M : EReal) := by
    rw [hneg, max_eq_right bot_le]
    exact fold_max_real ℓ Finset.univ Finset.univ_nonempty
  rw [hM, h30, hcl]
  -- the two sums of exponentials are positive reals, so their logarithms are real
  have hposM : (0 : ℝ) < ∑ c : Fin 100000, Real.exp (ℓ c - M) :=
    Finset.sum_pos (fun c _ => Real.exp_pos _) Finset.univ_nonempty
  have hpos30 : (0 : ℝ) < ∑ c : Fin 100000, Real.exp (ℓ c - 30) :=
    Finset.sum_pos (fun c _ => Real.exp_pos _) Finset.univ_nonempty
  have hexpM : (∑ c' : Fin 100000, Ideal.exp (((ℓ c' : ℝ) : EReal) - (M : EReal)))
      = ((∑ c' : Fin 100000, Real.exp (ℓ c' - M) : ℝ) : EReal) := by
    rw [← coe_sum]
    refine Finset.sum_congr rfl fun c _ => ?_
    rw [← EReal.coe_sub, Ideal.exp_coe]
  have hexp30 : (∑ c : Fin 100000, Ideal.exp (((ℓ c : ℝ) : EReal) - ((30 : ℝ) : EReal)))
      = ((∑ c : Fin 100000, Real.exp (ℓ c - 30) : ℝ) : EReal) := by
    rw [← coe_sum]
    refine Finset.sum_congr rfl fun c _ => ?_
    rw [← EReal.coe_sub, Ideal.exp_coe]
  have hlogM : Ideal.log (((∑ c' : Fin 100000, Real.exp (ℓ c' - M) : ℝ)) : EReal)
      = ((Real.log (∑ c' : Fin 100000, Real.exp (ℓ c' - M)) : ℝ) : EReal) := by
    rw [Ideal.log_coe, if_neg (not_le.mpr hposM)]
  have hlog30 : Ideal.log (((∑ c : Fin 100000, Real.exp (ℓ c - 30) : ℝ)) : EReal)
      = ((Real.log (∑ c : Fin 100000, Real.exp (ℓ c - 30)) : ℝ) : EReal) := by
    rw [Ideal.log_coe, if_neg (not_le.mpr hpos30)]
  rw [hexpM, hexp30, hlogM, hlog30]
  -- the shift identity, in ℝ; from here on the two logarithms and the sum of the logits are just real numbers
  have hshift := log_sum_exp_shift ℓ M
  have hmean := fun a : ℝ => sum_sub_const_mul_inv ℓ a 100000
    (by rw [Fintype.card_fin]; norm_num) (by norm_num)
  -- the sum of the log-probabilities and of the logits, as real sums
  have hsumD : ∀ L : ℝ, (∑ c : Fin 100000, ((((ℓ c : ℝ) : EReal) - (M : EReal)) - (L : EReal)))
      = ((∑ c : Fin 100000, (ℓ c - (M + L)) : ℝ) : EReal) := by
    intro L
    rw [← coe_sum]
    refine Finset.sum_congr rfl fun c _ => ?_
    rw [← EReal.coe_sub, ← EReal.coe_sub, sub_sub]
  have hsumT : (∑ c : Fin 100000, ((ℓ c : ℝ) : EReal)) = ((∑ c : Fin 100000, ℓ c : ℝ) : EReal) := coe_sum _ _
  rw [hsumD, hsumT, Ideal.div_coe (by norm_num : (100000 : ℝ) ≠ 0), ← EReal.coe_mul, hmean]
  generalize Real.log (∑ c' : Fin 100000, Real.exp (ℓ c' - M)) = LM at hshift ⊢
  generalize Real.log (∑ c : Fin 100000, Real.exp (ℓ c - 30)) = L30 at hshift ⊢
  generalize (∑ c : Fin 100000, ℓ c) = S
  -- the two bracketed factors agree
  have e1 : -((((ℓ y : ℝ) : EReal) - (M : EReal)) - (LM : EReal))
      = (((30 : ℝ) : EReal) + (L30 : EReal)) - ((ℓ y : ℝ) : EReal) := by
    rw [← EReal.coe_sub, ← EReal.coe_sub, ← EReal.coe_neg, ← EReal.coe_add, ← EReal.coe_sub]
    exact congrArg Real.toEReal (by rw [hshift]; ring)
  have e2 : -(((S * (1 / 100000) - (M + LM) : ℝ)) : EReal)
      = (((30 : ℝ) : EReal) + (L30 : EReal)) - ((S : ℝ) : EReal) * invClasses := by
    rw [← EReal.coe_neg, ← EReal.coe_add, ← EReal.coe_mul, ← EReal.coe_sub]
    exact congrArg Real.toEReal (by rw [hshift]; ring)
  rw [e1, e2]

end Cert.Loss

end
-- ==== Proof.Agree.lean ====
/-
  The two forms of the loss agree under `Admissible`: row by row the logits are the same real numbers, the label's
  masked sum is the logit at the label (a label that is a class index hits exactly that class), and the row losses
  agree for real logits.
-/
import proofs.«430701_j88553635709481_2_alg».proof.Proof.AgreeLogits
import proofs.«430701_j88553635709481_2_alg».proof.Proof.AgreeRow

noncomputable section

namespace Cert.Loss

open Idealize.ShloMosaic Idealize.ShloMosaic.ValueIdx

variable {X : SX.Idx → EReal} {Y : SY.Idx → BitVec 32} {W : SW.Idx → EReal}

/-- A label that is a class index hits exactly its own class. -/
theorem hit_iff (h : Admissible X Y W) (b : Fin 2048) (c : Fin 100000) : hit Y b c ↔ c = labelOf Y b := by
  have hb : (Y (ix1 b)).toNat < 100000 := h.label b
  have hc : c.val < 2 ^ 32 := lt_trans c.isLt (by norm_num)
  unfold hit labelOf
  constructor
  · -- the word of a class index below 2^32 reads back as that index
    intro e
    apply Fin.ext
    simp only [e, BitVec.toNat_ofNat, Nat.mod_eq_of_lt hc, Nat.mod_eq_of_lt c.isLt]
  · -- a label below 100000 is its own residue, and a word is determined by its value
    intro e
    have ev : c.val = (Y (ix1 b)).toNat := by
      have := congrArg Fin.val e
      simpa only [Nat.mod_eq_of_lt hb] using this
    apply BitVec.eq_of_toNat_eq
    rw [BitVec.toNat_ofNat, Nat.mod_eq_of_lt hc, ev]

/-- Row by row the direct loss is the accumulating one. -/
theorem rowLossD_eq_rowLossT (h : Admissible X Y W) (b : Fin 2048) : rowLossD X Y W b = rowLossT X Y W b := by
  -- the row's logits are real numbers ℓ, the same in both forms
  choose ℓ hℓ using fun c => logitT_real h b c
  have hD : ∀ c, logitD X Y W b c = ((ℓ c : ℝ) : EReal) := fun c => (logitD_eq_logitT h b c).trans (hℓ c)
  -- the masked sum keeps exactly the label's term
  have hlab : labelSumT X Y W b = ((ℓ (labelOf Y b) : ℝ) : EReal) := by
    unfold labelSumT
    rw [Finset.sum_eq_single (labelOf Y b)]
    · rw [if_pos ((hit_iff h b (labelOf Y b)).mpr rfl), hℓ]
    · intro c _ hne
      rw [if_neg (fun hh => hne ((hit_iff h b c).mp hh))]
    · intro hh
      exact absurd (Finset.mem_univ _) hh
  unfold rowLossD rowLossT logProbD rowMaxD expSumT logitSumT
  rw [hlab]
  simp only [hD, hℓ]
  exact row_agree ℓ (labelOf Y b)

/-- The direct form is the accumulating form. -/
theorem textbook_eq_tiled (h : Admissible X Y W) : textbook X Y W = tiled X Y W := by
  unfold textbook tiled
  exact congrArg (fun s => Ideal.div s rows) (Finset.sum_congr rfl fun b _ => rowLossD_eq_rowLossT h b)

end Cert.Loss

end
-- ==== Proof.RefLogits.lean ====
/-
  The reference's logits, read at an index. Each row of the two matrices is divided by the square root of its squared
  length; the product of the two is the inner product of the rows, clipped to [-1, 1]; the margin is added by an
  accumulating scatter whose update `b` lands on `(b, label b)` — one update per row, every label a class index —,
  so entry `(b, c)` gains the margin exactly when `c` is row `b`'s label; the result is scaled by 30.
-/
import proofs.«430701_j88553635709481_2_alg».proof.Proof.RefRead
import proofs.«430701_j88553635709481_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.ReferenceIdeal.RefValue

open Idealize.ShloMosaic Idealize.ShloMosaic.ValueIdx Cert.ReferenceIdeal Cert.ReferenceIdeal.Gen Cert.ReferenceIdeal.ReadP Cert.Loss

/-! ## The composed indices, at coordinates -/

private theorem lidx_ix2 (b : Fin 2048) (c : Fin 100000) (k : Fin 128) :
    lidx_main_v6 (ix2 b c) k = ix2 b k :=
  funext fun a => Fin.ext (by match a with | ⟨0, _⟩ => rfl | ⟨1, _⟩ => rfl)

private theorem ridx_ix2 (b : Fin 2048) (c : Fin 100000) (k : Fin 128) :
    ridx_main_v6 (ix2 b c) k = ix2 c k :=
  funext fun a => Fin.ext (by match a with | ⟨0, _⟩ => rfl | ⟨1, _⟩ => rfl)

private theorem idx_v1_ix2 (b : Fin 2048) (k : Fin 128) :
    idx_main_v1 (ix2 b k) = ix2 b (0 : Fin 1) :=
  funext fun a => Fin.ext (by match a with | ⟨0, _⟩ => rfl | ⟨1, _⟩ => rfl)

private theorem idx_v4_ix2 (c : Fin 100000) (k : Fin 128) :
    idx_main_v4 (ix2 c k) = ix2 c (0 : Fin 1) :=
  funext fun a => Fin.ext (by match a with | ⟨0, _⟩ => rfl | ⟨1, _⟩ => rfl)

private theorem idx_call0_v2_ix2 (b : Fin 2048) (z : Fin 1) :
    idx_main_call0_v2 (ix2 b z) = ix1 b :=
  funext fun a => Fin.ext (by match a with | ⟨0, _⟩ => rfl)

private theorem idx_call1_v2_ix2 (c : Fin 100000) (z : Fin 1) :
    idx_main_call1_v2 (ix2 c z) = ix1 c :=
  funext fun a => Fin.ext (by match a with | ⟨0, _⟩ => rfl)

private theorem idx_call0_v1_ix1 (b : Fin 2048) (k : Fin 128) :
    idx_main_call0_v1 (ix1 b) k = ix2 b k :=
  funext fun a => Fin.ext (by match a with | ⟨0, _⟩ => rfl | ⟨1, _⟩ => rfl)

private theorem idx_call1_v1_ix1 (c : Fin 100000) (k : Fin 128) :
    idx_main_call1_v1 (ix1 c) k = ix2 c k :=
  funext fun a => Fin.ext (by match a with | ⟨0, _⟩ => rfl | ⟨1, _⟩ => rfl)

/-! ## The unit rows -/

/-- A feature row's entry divided by the row's length. -/
private theorem unitX_apply (x0 : SX.Idx → EReal) (b : Fin 2048) (k : Fin 128) :
    val_main_v2 (F := Ideal) x0 (ix2 b k) = Ideal.div (x0 (ix2 b k)) (Ideal.sqrt (sqX x0 b)) := by
  rw [val_main_v2_apply, val_main_v1_apply, idx_v1_ix2, val_main_v0_apply, val_main_call0_v2_apply,
    idx_call0_v2_ix2, val_main_call0_v1_apply, val_main_call0_cst_apply]
  simp only [idx_call0_v1_ix1, val_main_call0_v0_apply, Ideal.hostDivf_def, Ideal.hostUnary_sqrt_def,
    Ideal.mulf_def, Ideal.ofBits_def, Ideal.ofBits_zero_f32, zero_add]
  rfl

/-- A class row's entry divided by the row's length. -/
private theorem unitW_apply (x2 : SW.Idx → EReal) (c : Fin 100000) (k : Fin 128) :
    val_main_v5 (F := Ideal) x2 (ix2 c k) = Ideal.div (x2 (ix2 c k)) (Ideal.sqrt (sqW x2 c)) := by
  rw [val_main_v5_apply, val_main_v4_apply, idx_v4_ix2, val_main_v3_apply, val_main_call1_v2_apply,
    idx_call1_v2_ix2, val_main_call1_v1_apply, val_main_call1_cst_apply]
  simp only [idx_call1_v1_ix1, val_main_call1_v0_apply, Ideal.hostDivf_def, Ideal.hostUnary_sqrt_def,
    Ideal.mulf_def, Ideal.ofBits_def, Ideal.ofBits_zero_f32, zero_add]
  rfl

/-- The clipped cosines. -/
theorem cos_apply (x0 : SX.Idx → EReal) (x1 : SY.Idx → BitVec 32) (x2 : SW.Idx → EReal) (b : Fin 2048) (c : Fin 100000) :
    val_main_v7 (F := Ideal) x0 x2 (ix2 b c) = cosD x0 x2 b c := by
  rw [val_main_v7_apply, val_main_call2_v4_apply, val_main_call2_v3_apply, val_main_cst_0_apply,
    val_main_call2_v2_apply, val_main_call2_v1_apply, val_main_call2_v0_apply, val_main_cst_apply,
    val_main_v6_apply]
  simp only [lidx_ix2, ridx_ix2, unitX_apply, unitW_apply, Ideal.minimumf_def, Ideal.maximumf_def, Ideal.ofBits_def]
  rfl

/-! ## The scatter: where update `j` lands -/

/-- The scatter's dimension numbers: both operand axes inserted, the index vector along axis 1 of the indices. -/
private abbrev dS := scatter_S2048x100000_S2048x2_S2048_n_01_01_1

/-- No operand axis carries a window coordinate: both are inserted. -/
private theorem window_zero (j : S2048.Idx) : dS.window j 0 = 0 := by
  unfold ScatterDims.window
  rw [dif_neg (by decide)]

private theorem window_one (j : S2048.Idx) : dS.window j 1 = 0 := by
  unfold ScatterDims.window
  rw [dif_neg (by decide)]

/-- The window's start on the row axis is column 0 of the update's index vector, read signed. -/
private theorem start_zero (j : Fin 2048) (I : IVec S2048x2 32) :
    dS.start (ix1 j : S2048.Idx) I 0 = (I (ix2 j (0 : Fin 2))).toInt := by
  unfold ScatterDims.start
  rw [dif_pos (by decide)]
  refine congrArg (fun z => (I z).toInt) (funext fun a => Fin.ext ?_)
  match a with
  | ⟨0, _⟩ => rfl
  | ⟨1, _⟩ => rfl

/-- The window's start on the class axis is column 1 of the update's index vector, read signed. -/
private theorem start_one (j : Fin 2048) (I : IVec S2048x2 32) :
    dS.start (ix1 j : S2048.Idx) I 1 = (I (ix2 j (1 : Fin 2))).toInt := by
  unfold ScatterDims.start
  rw [dif_pos (by decide)]
  refine congrArg (fun z => (I z).toInt) (funext fun a => Fin.ext ?_)
  match a with
  | ⟨0, _⟩ => rfl
  | ⟨1, _⟩ => rfl

/-- An update whose index vector is (its own row number, a word below 100000) lands on that row, at that class. -/
private theorem resultIdx_eq (j : Fin 2048) (I : IVec S2048x2 32) (y : BitVec 32) (hy : y.toNat < 100000)
    (h0 : I (ix2 j (0 : Fin 2)) = BitVec.ofNat 32 j.val) (h1 : I (ix2 j (1 : Fin 2)) = y) :
    dS.resultIdx? (ix1 j : S2048.Idx) I = some (ix2 j (⟨y.toNat, hy⟩ : Fin 100000)) := by
  have s0 : dS.start (ix1 j : S2048.Idx) I 0 + dS.window (ix1 j : S2048.Idx) 0 = (j.val : Int) := by
    rw [start_zero, window_zero, h0, StableHlo.Predicate.toInt_ofNat_small _ (by have := j.isLt; omega)]
    simp
  have s1 : dS.start (ix1 j : S2048.Idx) I 1 + dS.window (ix1 j : S2048.Idx) 1 = (y.toNat : Int) := by
    rw [start_one, window_one, h1, StableHlo.Predicate.toInt_eq_toNat_of_lt (by omega)]
    simp
  unfold ScatterDims.resultIdx?
  have hin : ∀ a : Fin S2048x100000.rank, 0 ≤ dS.start (ix1 j : S2048.Idx) I a + dS.window (ix1 j : S2048.Idx) a ∧
      dS.start (ix1 j : S2048.Idx) I a + dS.window (ix1 j : S2048.Idx) a < S2048x100000.size a := by
    intro a
    match a with
    | ⟨0, _⟩ =>
      show 0 ≤ dS.start (ix1 j : S2048.Idx) I 0 + dS.window (ix1 j : S2048.Idx) 0 ∧
        dS.start (ix1 j : S2048.Idx) I 0 + dS.window (ix1 j : S2048.Idx) 0 < (2048 : Nat)
      rw [s0]; have := j.isLt; omega
    | ⟨1, _⟩ =>
      show 0 ≤ dS.start (ix1 j : S2048.Idx) I 1 + dS.window (ix1 j : S2048.Idx) 1 ∧
        dS.start (ix1 j : S2048.Idx) I 1 + dS.window (ix1 j : S2048.Idx) 1 < (100000 : Nat)
      rw [s1]; omega
  rw [dif_pos hin]
  refine congrArg some (funext fun a => Fin.ext ?_)
  match a with
  | ⟨0, _⟩ =>
    show (dS.start (ix1 j : S2048.Idx) I 0 + dS.window (ix1 j : S2048.Idx) 0).toNat = j.val
    rw [s0]; rfl
  | ⟨1, _⟩ =>
    show (dS.start (ix1 j : S2048.Idx) I 1 + dS.window (ix1 j : S2048.Idx) 1).toNat = y.toNat
    rw [s1]; rfl

/-- The landing place is entry `(b, c)` exactly when the word is `c`. -/
private theorem land_iff (b : Fin 2048) (c : Fin 100000) (y : BitVec 32) (hy : y.toNat < 100000) :
    (some (ix2 b (⟨y.toNat, hy⟩ : Fin 100000)) : Option S2048x100000.Idx) = some (ix2 b c) ↔
      y = BitVec.ofNat 32 c.val := by
  constructor
  · intro e
    have e1 := congrFun (Option.some.inj e) 1
    have e2 : y.toNat = c.val := congrArg Fin.val e1
    apply BitVec.eq_of_toNat_eq
    rw [BitVec.toNat_ofNat, e2]
    have := c.isLt
    omega
  · intro e
    have e2 : y.toNat = c.val := by rw [e, BitVec.toNat_ofNat]; have := c.isLt; omega
    have e3 : (⟨y.toNat, hy⟩ : Fin 100000) = c := Fin.ext e2
    rw [e3]

/-- An accumulating scatter of one constant per row, update `j` indexed by (`j`, row `j`'s label), every label a
    class index: entry `(b, c)` gains the constant exactly when `c` is row `b`'s label. Of the 2048 updates only
    update `b` can land in row `b`. -/
private theorem scatter_row (K : S2048x100000.Idx → EReal) (I : IVec S2048x2 32) (u : S2048.Idx → EReal)
    (x1 : SY.Idx → BitVec 32) (hl : ∀ b : Fin 2048, (x1 (ix1 b)).toNat < 100000)
    (hI0 : ∀ j : Fin 2048, I (ix2 j (0 : Fin 2)) = BitVec.ofNat 32 j.val)
    (hI1 : ∀ j : Fin 2048, I (ix2 j (1 : Fin 2)) = x1 (ix1 j))
    (hu : ∀ j : S2048.Idx, u j = negMargin) (b : Fin 2048) (c : Fin 100000) :
    Host.scatterAdd (F := Ideal) (φ := .f32) dS K I u (ix2 b c)
      = K (ix2 b c) + if hit x1 b c then negMargin else 0 := by
  show K (ix2 b c) + ∑ j ∈ Finset.univ.filter (fun j => dS.resultIdx? j I = some (ix2 b c)), u j = _
  congr 1
  rw [Finset.sum_filter, Finset.sum_eq_single (ix1 b : S2048.Idx)]
  · rw [resultIdx_eq b I _ (hl b) (hI0 b) (hI1 b), hu]
    by_cases hh : hit x1 b c
    · rw [if_pos hh, if_pos ((land_iff b c _ (hl b)).2 hh)]
    · rw [if_neg hh, if_neg (fun e => hh ((land_iff b c _ (hl b)).1 e))]
  · intro j _ hj
    obtain ⟨p, rfl⟩ : ∃ p : Fin 2048, j = ix1 p := ⟨j 0, eq_ix1 j⟩
    rw [if_neg]
    intro e
    rw [resultIdx_eq p I _ (hl p) (hI0 p) (hI1 p)] at e
    have hp : p = b := congrFun (Option.some.inj e) 0
    exact hj (by rw [hp])
  · intro hb
    exact absurd (Finset.mem_univ _) hb

/-! ## The index vectors the reference builds -/

private theorem idx_v19_ix2 (j : Fin 2048) (z : Fin 1) : idx_main_v19 (ix2 j z) = ix1 j :=
  funext fun a => Fin.ext (by match a with | ⟨0, _⟩ => rfl)

private theorem idx_v20_ix2 (j : Fin 2048) (z : Fin 1) : idx_main_v20 (ix2 j z) = ix1 j :=
  funext fun a => Fin.ext (by match a with | ⟨0, _⟩ => rfl)

/-- A word below 2³¹ is not negative as a signed word, so the wrap-around the reference selects for a negative
    index is not taken. -/
private theorem select_nonneg (y t : BitVec 32) (hy : y.toNat < 2 ^ 31) :
    Scalar.select (IntOp.cmpi .slt y 0#32) t y = y := by
  have hn : ¬ IntOp.cmpi .slt y 0#32 = 1#1 := by
    rw [IntOp.cmpi_slt, StableHlo.Predicate.toInt_eq_toNat_of_lt hy]
    simp
  rw [eq_zero_of_ne_one hn, select_zero]

/-- Column 0 of the index vectors is the row number. -/
private theorem rowCol_apply (j : Fin 2048) (z : Fin 1) :
    val_main_v19 (F := Ideal) (ix2 j z) = BitVec.ofNat 32 j.val := by
  rw [val_main_v19_apply, idx_v19_ix2, val_main_v13_apply, val_main_v10_apply, val_main_v9_apply, val_main_c_apply,
    val_main_v8_apply]
  refine select_nonneg (BitVec.ofNat 32 j.val) _ ?_
  rw [BitVec.toNat_ofNat]
  have := j.isLt
  omega

/-- Column 1 of the index vectors is the label, where the label is a class index. -/
private theorem labelCol_apply (x1 : SY.Idx → BitVec 32) (j : Fin 2048) (z : Fin 1) (hy : (x1 (ix1 j)).toNat < 100000) :
    val_main_v20 (F := Ideal) x1 (ix2 j z) = x1 (ix1 j) := by
  rw [val_main_v20_apply, idx_v20_ix2, val_main_v18_apply, val_main_v15_apply, val_main_v14_apply, val_main_c_2_apply]
  exact select_nonneg (x1 (ix1 j)) _ (by omega)

/-- The index vectors: the two columns side by side. -/
private theorem idxVec_zero (x1 : SY.Idx → BitVec 32) (j : Fin 2048) :
    val_main_v21 (F := Ideal) x1 (ix2 j (0 : Fin 2)) = BitVec.ofNat 32 j.val := by
  unfold val_main_v21
  refine (concatenate_pair_apply_left (t := S2048x2) (s₁ := S2048x1) (s₂ := S2048x1) (1 : Fin S2048x2.rank) _ _ _ (ix2 j (0 : Fin 2)) rfl (ix2 j (0 : Fin 1))
    (fun a => by match a with | ⟨0, _⟩ => rfl | ⟨1, _⟩ => rfl)).trans ?_
  exact rowCol_apply j 0

private theorem idxVec_one (x1 : SY.Idx → BitVec 32) (j : Fin 2048) (hy : (x1 (ix1 j)).toNat < 100000) :
    val_main_v21 (F := Ideal) x1 (ix2 j (1 : Fin 2)) = x1 (ix1 j) := by
  unfold val_main_v21
  refine (concatenate_pair_apply_right (t := S2048x2) (s₁ := S2048x1) (s₂ := S2048x1) (1 : Fin S2048x2.rank) _ _ _ (ix2 j (1 : Fin 2)) rfl rfl (ix2 j (0 : Fin 1))
    (fun a ha => by
      match a with
      | ⟨0, _⟩ => rfl
      | ⟨1, _⟩ => exact absurd rfl ha) rfl).trans ?_
  exact labelCol_apply x1 j 0 hy

/-- Every update is the margin. -/
private theorem upd_apply (j : S2048.Idx) : val_main_v22 (F := Ideal) j = negMargin := by
  rw [val_main_v22_apply, val_main_cst_4_apply]
  rfl

/-- The logits. -/
theorem logits_apply (x0 : SX.Idx → EReal) (x1 : SY.Idx → BitVec 32) (x2 : SW.Idx → EReal) (h : Admissible x0 x1 x2) (b : Fin 2048) (c : Fin 100000) :
    val_main_v25 (F := Ideal) x0 x1 x2 (ix2 b c) = logitD x0 x1 x2 b c := by
  rw [val_main_v25_apply, val_main_v24_apply, val_main_cst_5_apply]
  unfold val_main_v23
  rw [scatter_row (val_main_v7 (F := Ideal) x0 x2) (val_main_v21 (F := Ideal) x1) (val_main_v22 (F := Ideal)) x1 h.label
    (idxVec_zero x1) (fun j => idxVec_one x1 j (h.label j)) upd_apply b c, cos_apply x0 x1 x2 b c]
  rfl

end Cert.ReferenceIdeal.RefValue

end
-- ==== Proof.RefLogProb.lean ====
/-
  The reference's log-probabilities, read at an index: a logit less its row's greatest logit (a maximum taken from
  -∞), less the logarithm of the row's sum of the exponentials of those differences.
-/
import proofs.«430701_j88553635709481_2_alg».proof.Proof.RefLogits
import Idealize.ShloMosaic.PureOps.Reduce

noncomputable section

namespace Cert.ReferenceIdeal.RefValue

open Idealize.ShloMosaic Idealize.ShloMosaic.ValueIdx Cert.ReferenceIdeal Cert.ReferenceIdeal.Gen Cert.ReferenceIdeal.ReadP Cert.Loss

/-! ## Indices -/

/-- Row `b` of the logits with the class coordinate `k` put back on the reduced axis is the entry `(b, k)`. -/
private theorem lift_row (hr : S2048x100000.Reduces [1] S2048) (b : Fin 2048) (k : Fin 100000) :
    hr.lift (ix1 b) k = ix2 b k :=
  funext fun a => Fin.ext (by match a with | ⟨0, _⟩ => rfl | ⟨1, _⟩ => rfl)

/-- Entry `(b, c)` reads a column vector at `(b, 0)`, which reads a vector at `b`. -/
private theorem idx_col_max (b : Fin 2048) (c : Fin 100000) :
    idx_main_call3_v3 (idx_main_call3_v4 (ix2 b c)) = ix1 b :=
  funext fun a => Fin.ext (by match a with | ⟨0, _⟩ => rfl)

/-- Likewise for the column vector of the logarithms of the row sums. -/
private theorem idx_col_sum (b : Fin 2048) (c : Fin 100000) :
    idx_main_call3_v8 (idx_main_call3_v10 (ix2 b c)) = ix1 b :=
  funext fun a => Fin.ext (by match a with | ⟨0, _⟩ => rfl)

/-- The `k`-th term of row `b`'s sum is the entry `(b, k)`. -/
private theorem idx_row_sum (b : Fin 2048) (k : Fin 100000) :
    idx_main_call3_v7 (ix1 b) k = ix2 b k :=
  funext fun a => Fin.ext (by match a with | ⟨0, _⟩ => rfl | ⟨1, _⟩ => rfl)

/-! ## The row maxima -/

/-- A maximum taken along the rows of any array, from any initial value: at row `b` it is the fold of `max` over the
    row's entries. -/
private theorem reduce_max_row (L : S2048x100000.Idx → EReal) (init : S_.Idx → EReal) (b : Fin 2048) :
    Host.reduce (FloatOps.maximumf (F := Ideal) (φ := .f32)) L init reducesTo_S2048x100000_S2048_d1 h_S_ (ix1 b)
      = (Finset.univ : Finset (Fin 100000)).fold max (init (Shape.Idx.first h_S_)) (fun c => L (ix2 b c)) := by
  have hr : S2048x100000.Reduces [1] S2048 := by decide
  rw [Host.reduce_eq_fold_single _ L init reducesTo_S2048x100000_S2048_d1 hr h_S_ (ix1 b)]
  have hf : (L ∘ hr.lift (ix1 b)) = fun c : Fin 100000 => L (ix2 b c) :=
    funext fun c => congrArg L (lift_row hr b c)
  rw [hf]
  rfl

/-- The row maxima. -/
theorem rowmax_apply (x0 : SX.Idx → EReal) (x1 : SY.Idx → BitVec 32) (x2 : SW.Idx → EReal) (h : Admissible x0 x1 x2) (b : Fin 2048) :
    val_main_call3_v2 (F := Ideal) x0 x1 x2 (ix1 b) = rowMaxD x0 x1 x2 b := by
  have hL : ∀ c : Fin 100000, val_main_v25 (F := Ideal) x0 x1 x2 (ix2 b c) = logitD x0 x1 x2 b c :=
    fun c => logits_apply x0 x1 x2 h b c
  rw [val_main_call3_v2_apply, val_main_call3_v1_apply, val_main_call3_cst_0_apply]
  unfold val_main_call3_v0
  generalize val_main_v25 (F := Ideal) x0 x1 x2 = L at hL ⊢
  rw [reduce_max_row L _ b, val_main_call3_cst_apply]
  simp only [hL]
  rfl

/-! ## The log-probabilities -/

/-- The log-probabilities. -/
theorem logprob_apply (x0 : SX.Idx → EReal) (x1 : SY.Idx → BitVec 32) (x2 : SW.Idx → EReal) (h : Admissible x0 x1 x2) (b : Fin 2048) (c : Fin 100000) :
    val_main_v26 (F := Ideal) x0 x1 x2 (ix2 b c) = logProbD x0 x1 x2 b c := by
  have hL : ∀ c' : Fin 100000, val_main_v25 (F := Ideal) x0 x1 x2 (ix2 b c') = logitD x0 x1 x2 b c' :=
    fun c' => logits_apply x0 x1 x2 h b c'
  have hM : val_main_call3_v2 (F := Ideal) x0 x1 x2 (ix1 b) = rowMaxD x0 x1 x2 b := rowmax_apply x0 x1 x2 h b
  rw [val_main_v26_apply, val_main_call3_v10_apply, val_main_call3_v9_apply, val_main_call3_v8_apply,
    val_main_call3_v7_apply, val_main_call3_cst_1_apply, idx_col_sum]
  simp only [val_main_call3_v6_apply, val_main_call3_v5_apply, val_main_call3_v4_apply, val_main_call3_v3_apply,
    idx_row_sum, idx_col_max, hL, hM]
  simp only [Ideal.ofBits_def, Ideal.ofBits_zero_f32, zero_add, Ideal.subf_def, Ideal.hostUnary_exp_def,
    Ideal.hostUnary_log_def]
  unfold logProbD
  rfl

end Cert.ReferenceIdeal.RefValue

end
-- ==== Proof.RefPick.lean ====
/-
  The reference's pick of each row's log-probability at its label: the label is in range, so the range test passes
  and the gathered element is the row's entry at the label.

  The index column is the label column with 100000 added where a label is negative as a signed word; a label below
  100000 is not, so the column is the label itself. The range test (0 ≤ index ≤ 99999, signed) then holds at every
  index, and its conjunction over the axis of size one is 1. The gather reads, on the row axis, the result's own row
  (a batching axis) and, on the class axis, the start index clamped into [0, 99999], which is the label.
-/
import proofs.«430701_j88553635709481_2_alg».proof.Proof.RefRead
import proofs.«430701_j88553635709481_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.ReduceAll

noncomputable section

namespace Cert.ReferenceIdeal.RefValue

open Idealize.ShloMosaic Idealize.ShloMosaic.ValueIdx Cert.ReferenceIdeal Cert.ReferenceIdeal.Gen Cert.ReferenceIdeal.ReadP Cert.Loss

/-- A word below 100000 read as a signed integer is its value. -/
private theorem toInt_of_small (w : BitVec 32) (hw : w.toNat < 100000) : w.toInt = (w.toNat : Int) :=
  BitVec.toInt_eq_toNat_of_lt (by omega)

private theorem slt_zero_of_small (w : BitVec 32) (hw : w.toNat < 100000) : IntOp.cmpi .slt w 0#32 = 0#1 := by
  refine eq_zero_of_ne_one fun e => ?_
  have h := IntOp.cmpi_slt.1 e
  rw [toInt_of_small w hw, show (0#32 : BitVec 32).toInt = 0 from by decide] at h
  omega

private theorem sge_zero_of_small (w : BitVec 32) (hw : w.toNat < 100000) : IntOp.cmpi .sge w 0#32 = 1#1 := by
  refine IntOp.cmpi_sge.2 ?_
  rw [toInt_of_small w hw, show (0#32 : BitVec 32).toInt = 0 from by decide]
  omega

private theorem sle_top_of_small (w : BitVec 32) (hw : w.toNat < 100000) : IntOp.cmpi .sle w 99999#32 = 1#1 := by
  refine IntOp.cmpi_sle.2 ?_
  rw [toInt_of_small w hw, show (99999#32 : BitVec 32).toInt = 99999 from by decide]
  omega

/-- The label column's source index. -/
private theorem col_idx (b : Fin 2048) (c e : Fin 1) : idx_main_v27 (idx_main_call4_v5 (ix3 b c e)) = ix1 b :=
  funext fun a => Fin.ext (by
    match a with
    | ⟨0, _⟩ =>
      have hc := c.isLt; have he := e.isLt
      show ((b.val * 1 + c.val) * 1 + e.val) / 1 = b.val
      omega)

/-- The index column: a label below 100000 is kept as it is. -/
private theorem col_apply (x1 : SY.Idx → BitVec 32) (hl : ∀ b : Fin 2048, (x1 (ix1 b)).toNat < 100000) (b : Fin 2048) (c e : Fin 1) :
    val_main_call4_v5 (F := Ideal) x1 (ix3 b c e) = x1 (ix1 b) := by
  rw [val_main_call4_v5_apply, val_main_call4_v4_apply, val_main_call4_v1_apply, val_main_v27_apply, val_main_call4_v0_apply,
    val_main_call4_c_apply, col_idx, slt_zero_of_small _ (hl b), select_zero]

/-- The range test passes at every index. -/
private theorem inRange_apply (x1 : SY.Idx → BitVec 32) (hl : ∀ b : Fin 2048, (x1 (ix1 b)).toNat < 100000) (i : S2048x1x1.Idx) :
    val_main_call4_v11 (F := Ideal) x1 i = 1#1 := by
  obtain ⟨b, c, e, rfl⟩ : ∃ (b : Fin 2048) (c e : Fin 1), i = ix3 b c e := ⟨i 0, i 1, i 2, eq_ix3 i⟩
  rw [val_main_call4_v11_apply, val_main_call4_v7_apply, val_main_call4_v10_apply, col_apply x1 hl, val_main_call4_v6_apply,
    val_main_call4_c_2_apply, val_main_call4_v9_apply, val_main_call4_v8_apply, val_main_call4_c_1_apply,
    sge_zero_of_small _ (hl b), sle_top_of_small _ (hl b)]
  rfl

/-- A left fold by `and` from 1 over words that are all 1 is 1. -/
private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- The mask: the conjunction over the one-element axis of the range test. -/
private theorem mask_apply (x1 : SY.Idx → BitVec 32) (hl : ∀ b : Fin 2048, (x1 (ix1 b)).toNat < 100000) (j : S2048x1.Idx) :
    val_main_call4_v12 (F := Ideal) x1 j = 1#1 := by
  have hall := inRange_apply x1 hl
  unfold val_main_call4_v12
  generalize val_main_call4_v11 (F := Ideal) x1 = M at hall
  rw [Host.reduce_eq_foldl, val_main_call4_c_3_apply]
  exact foldl_andi_ones M hall _

/-- The gather's operand index on the row axis: the result's row. -/
private theorem gather_axis0 (idx : IVec S2048x1x1 32) (b : Fin 2048) :
    (gather_S2048x100000_S2048x1x1_S2048x1_n_1_0_0_1_2_11.operandIdx (ix2 b (0 : Fin 1)) idx 0).val = b.val := by
  show gather_S2048x100000_S2048x1x1_S2048x1_n_1_0_0_1_2_11.start (ix2 b (0 : Fin 1)) idx 0
    + gather_S2048x100000_S2048x1x1_S2048x1_n_1_0_0_1_2_11.batchCoord (ix2 b (0 : Fin 1)) 0
    + gather_S2048x100000_S2048x1x1_S2048x1_n_1_0_0_1_2_11.offCoord (ix2 b (0 : Fin 1)) 0 = b.val
  rw [GatherDims.start_batching _ _ _ _ (List.mem_singleton.mpr rfl),
    GatherDims.offCoord_eq_zero _ _ _ (fun h => ((GatherDims.mem_sKept _ _).mp h).2 (List.mem_singleton.mpr rfl)),
    Nat.zero_add, Nat.add_zero]
  unfold GatherDims.batchCoord
  rw [dif_pos (show (0 : Fin 2) ∈ gather_S2048x100000_S2048x1x1_S2048x1_n_1_0_0_1_2_11.operandBatchingDims from List.mem_singleton.mpr rfl)]
  rfl

/-- The gather's operand index on the class axis: the start index, clamped. -/
private theorem gather_axis1 (idx : IVec S2048x1x1 32) (b : Fin 2048) :
    (gather_S2048x100000_S2048x1x1_S2048x1_n_1_0_0_1_2_11.operandIdx (ix2 b (0 : Fin 1)) idx 1).val
      = min (idx (ix3 b (0 : Fin 1) (0 : Fin 1))).toInt.toNat 99999 := by
  show gather_S2048x100000_S2048x1x1_S2048x1_n_1_0_0_1_2_11.start (ix2 b (0 : Fin 1)) idx 1
    + gather_S2048x100000_S2048x1x1_S2048x1_n_1_0_0_1_2_11.batchCoord (ix2 b (0 : Fin 1)) 1
    + gather_S2048x100000_S2048x1x1_S2048x1_n_1_0_0_1_2_11.offCoord (ix2 b (0 : Fin 1)) 1 = _
  rw [GatherDims.batchCoord_eq_zero _ _ _ (by decide),
    GatherDims.offCoord_eq_zero _ _ _ (fun h => ((GatherDims.mem_sKept _ _).mp h).1 (List.mem_singleton.mpr rfl))]
  simp only [Nat.add_zero]
  unfold GatherDims.start
  rw [dif_pos (show (1 : Fin 2) ∈ gather_S2048x100000_S2048x1x1_S2048x1_n_1_0_0_1_2_11.startIndexMap from List.mem_singleton.mpr rfl)]
  have hsi : gather_S2048x100000_S2048x1x1_S2048x1_n_1_0_0_1_2_11.siIdx (ix2 b (0 : Fin 1))
      ⟨List.idxOf (1 : Fin 2) gather_S2048x100000_S2048x1x1_S2048x1_n_1_0_0_1_2_11.startIndexMap,
        List.idxOf_lt_length_iff.2 (List.mem_singleton.mpr rfl)⟩ = ix3 b (0 : Fin 1) (0 : Fin 1) := by
    funext a; refine Fin.ext ?_
    match a with
    | ⟨0, _⟩ => rfl
    | ⟨1, _⟩ => rfl
    | ⟨2, _⟩ => rfl
  rw [hsi]
  rfl

/-- The gathered element of row `b`: the operand's entry at the row's start index, when that is a class index. -/
private theorem gather_row_apply (P : S2048x100000.Idx → EReal) (idx : IVec S2048x1x1 32) (b : Fin 2048) (c : Fin 100000)
    (hc : (idx (ix3 b (0 : Fin 1) (0 : Fin 1))).toNat = c.val) :
    Host.gather gather_S2048x100000_S2048x1x1_S2048x1_n_1_0_0_1_2_11 P idx (ix2 b (0 : Fin 1)) = P (ix2 b c) := by
  unfold Host.gather
  congr 1
  funext a
  refine Fin.ext ?_
  match a with
  | ⟨0, _⟩ => exact gather_axis0 idx b
  | ⟨1, _⟩ =>
    refine (gather_axis1 idx b).trans ?_
    have hlt := c.isLt
    rw [toInt_of_small _ (by omega), Int.toNat_natCast, hc]
    show min c.val 99999 = c.val
    omega

/-- The picked entries: row `b` of the log-probabilities at column `label b`. -/
theorem picked_apply (x0 : SX.Idx → EReal) (x1 : SY.Idx → BitVec 32) (x2 : SW.Idx → EReal) (h : Admissible x0 x1 x2) (b : Fin 2048) :
    val_main_v28 (F := Ideal) x0 x1 x2 (ix2 b (0 : Fin 1)) = val_main_v26 (F := Ideal) x0 x1 x2 (ix2 b (labelOf x1 b)) := by
  rw [val_main_v28_apply, mask_apply x1 h.label, select_one]
  unfold val_main_call4_v13
  generalize val_main_v26 (F := Ideal) x0 x1 x2 = P
  refine gather_row_apply P (val_main_call4_v5 (F := Ideal) x1) b (labelOf x1 b) ?_
  rw [col_apply x1 h.label]
  exact (Nat.mod_eq_of_lt (h.label b)).symm

end Cert.ReferenceIdeal.RefValue

end
-- ==== Proof.RefValue.lean ====
/-
  The reference's result, read back: the mean over the rows of 9/10 of the negated log-probability at the label plus
  1/10 of the negated mean log-probability, that is the direct form of the loss.
-/
import proofs.«430701_j88553635709481_2_alg».proof.Proof.RefLogProb
import proofs.«430701_j88553635709481_2_alg».proof.Proof.RefPick
import Idealize.ShloMosaic.Lib.ValueIdxRank1

noncomputable section

namespace Cert.ReferenceIdeal.RefValue

open Idealize.ShloMosaic Idealize.ShloMosaic.ValueIdx Cert.ReferenceIdeal Cert.ReferenceIdeal.Gen Cert.ReferenceIdeal.ReadP Cert.Loss

/-- One entry of the column of row losses: 9/10 of the negated log-probability picked at the row's label plus 1/10 of
    the negated sum of the row's log-probabilities divided by the number of classes. -/
theorem row_apply (x0 : SX.Idx → EReal) (x1 : SY.Idx → BitVec 32) (x2 : SW.Idx → EReal) (h : Admissible x0 x1 x2) (b : Fin 2048) :
    val_main_v39 (F := Ideal) x0 x1 x2 (ix1 b) = rowLossD x0 x1 x2 b := by
  have hpick : val_main_v29 (F := Ideal) x0 x1 x2 (ix1 b) = logProbD x0 x1 x2 b (labelOf x1 b) := by
    rw [val_main_v29_apply]
    have e : idx_main_v29 (ix1 b) = ix2 b (0 : Fin 1) :=
      funext fun a => Fin.ext (by match a with | ⟨0, _⟩ => exact Nat.div_one _ | ⟨1, _⟩ => rfl)
    rw [e, picked_apply x0 x1 x2 h b, logprob_apply x0 x1 x2 h b]
  have hmean : val_main_v31 (F := Ideal) x0 x1 x2 (ix1 b) = ∑ c : Fin 100000, logProbD x0 x1 x2 b c := by
    rw [val_main_v31_apply, val_main_cst_6_apply]
    show Ideal.ofBits .f32 0x00000000#32 + _ = _
    rw [Ideal.ofBits_zero_f32, zero_add]
    refine Finset.sum_congr rfl fun c _ => ?_
    have e : idx_main_v31 (ix1 b) c = ix2 b c :=
      funext fun a => Fin.ext (by match a with | ⟨0, _⟩ => rfl | ⟨1, _⟩ => rfl)
    rw [e, logprob_apply x0 x1 x2 h b c]
  rw [val_main_v39_apply, val_main_v36_apply, val_main_v38_apply, val_main_v35_apply, val_main_v37_apply,
    val_main_cst_8_apply, val_main_cst_9_apply, val_main_v30_apply, val_main_v34_apply, val_main_v33_apply,
    val_main_v32_apply, val_main_cst_7_apply, hpick, hmean]
  unfold rowLossD
  rfl

/-- The reference's result stage is the direct form of the loss. -/
theorem result_eq (x0 : SX.Idx → EReal) (x1 : SY.Idx → BitVec 32) (x2 : SW.Idx → EReal) (h : Admissible x0 x1 x2) :
    val_main_v41 (F := Ideal) x0 x1 x2 = fun _ => textbook x0 x1 x2 := by
  funext i
  rw [val_main_v41_apply, val_main_v40_apply, val_main_cst_10_apply, val_main_cst_11_apply]
  have hs : ∑ j : S2048.Idx, val_main_v39 (F := Ideal) x0 x1 x2 j = ∑ b : Fin 2048, rowLossD x0 x1 x2 b := by
    rw [← Equiv.sum_comp (idxEquiv1 (n := 2048)).symm]
    exact Finset.sum_congr rfl fun b _ => row_apply x0 x1 x2 h b
  rw [hs]
  show Ideal.div (Ideal.ofBits .f32 0x00000000#32 + _) rows = textbook x0 x1 x2
  rw [Ideal.ofBits_zero_f32, zero_add]
  rfl

end Cert.ReferenceIdeal.RefValue

end
-- ==== Proof.LibTypedRef.lean ====
/-
  Typed references to a program's buffers: a value carried to a typed reference's buffer and read back through the
  same reference is the value. The two transports are casts along one equation between the buffer's type and the
  value's type, in opposite directions, so they cancel for any such equation.
-/
import Idealize.ShloMosaic.Lib.StableHlo

namespace Idealize.ShloMosaic.StableHlo.TRef

variable {sig : RefSig} {T : BufTy} {Val : EltTy → Type}

/-- Contents carried to a typed reference's buffer and back are the contents. -/
theorem ofBuf_toBuf (x : TRef sig T) (v : T.Contents Val) : x.ofBuf (x.toBuf v) = v := by
  obtain ⟨r, h, h₁, h₂⟩ := x
  subst h
  rfl

/-- A buffer's contents read at a typed reference's type and carried back are the buffer's contents. -/
theorem toBuf_ofBuf (x : TRef sig T) (w : x.ref.ty.Contents Val) : x.toBuf (x.ofBuf w) = w := by
  obtain ⟨r, h, h₁, h₂⟩ := x
  subst h
  rfl

end Idealize.ShloMosaic.StableHlo.TRef
-- ==== Proof.RefRun.lean ====
/-
  The reference program's run, read back. The program is a straight line of 104 operations on whole buffers (the
  functions it calls written out in place), so every weakly fair execution terminates and each buffer ends holding
  the fold of the operations over the launch contents. That fold is read in five stretches, each ending where one
  value is all the later operations need of it:

    1 – 23    the rows of the two matrices divided by their lengths, their inner products, the clip: the cosines;
    24 – 47   the index pairs (row, label), the margin scattered onto them, the scaling: the logits;
    48 – 62   the row maxima, the shifted exponentials, their sums and logarithms: the log-probabilities;
    63 – 85   the label column, its range test, the gather: the log-probability picked at each row's label;
    86 – 104  the negations, the mean over the classes, the weighted sum, the mean over the rows: the loss.

  Each stretch, run from any contents in which its incoming buffers hold the stages of the three arguments, leaves its
  outgoing buffer at the next stage; a buffer no operation of a stretch writes keeps its contents through it; and the
  stretches appended are the program. So the result buffer ends at the last stage of the arguments, and the
  arguments, which nothing writes, end unchanged.
-/
import proofs.«430701_j88553635709481_2_alg».proof.Proof.Gen.ReferenceIdeal
import proofs.«430701_j88553635709481_2_alg».proof.Proof.RefRead
import proofs.«430701_j88553635709481_2_alg».proof.Proof.LibTypedRef
import Idealize.ShloMosaic.Lib.StableHlo.Run
import Idealize.ShloMosaic.Lib.Pipeline.Frame

set_option Elab.async false

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's 104 operations, in order (a called function's operations stand in its call's place). -/
abbrev ops : List (HloOp τ sig (Elt F)) :=
  [ TRef.binary (TRef.of (T := ⟨S2048x128, .f32⟩) main_arg0) (TRef.of (T := ⟨S2048x128, .f32⟩) main_arg0) (TRef.of (T := ⟨S2048x128, .f32⟩) main_call0_v0) mulf,
    TRef.nullary (TRef.of (T := ⟨S_, .f32⟩) main_call0_cst) (constant S_ .f32 0x00000000#32),
    TRef.binary (TRef.of (T := ⟨S2048x128, .f32⟩) main_call0_v0) (TRef.of (T := ⟨S_, .f32⟩) main_call0_cst) (TRef.of (T := ⟨S2048, .f32⟩) main_call0_v1) (fun x v => Host.reduceAdd x v reducesTo_S2048x128_S2048_d1 h_S_),
    TRef.unary (TRef.of (T := ⟨S2048, .f32⟩) main_call0_v1) (TRef.of (T := ⟨S2048x1, .f32⟩) main_call0_v2) (broadcastInDim S2048x1 ![0] bcast_S2048_S2048x1_0),
    TRef.unary (TRef.of (T := ⟨S2048x1, .f32⟩) main_call0_v2) (TRef.of (T := ⟨S2048x1, .f32⟩) main_v0) Host.sqrt,
    unary main_v0 main_v1 (broadcastInDim S2048x128 ![0, 1] bcast_S2048x1_S2048x128_0_1 : (⟨S2048x1, .f32⟩ : BufTy).Contents (Elt F) → (⟨S2048x128, .f32⟩ : BufTy).Contents (Elt F)),
    binary main_arg0 main_v1 main_v2 (Host.divf : (⟨S2048x128, .f32⟩ : BufTy).Contents (Elt F) → (⟨S2048x128, .f32⟩ : BufTy).Contents (Elt F) → (⟨S2048x128, .f32⟩ : BufTy).Contents (Elt F)),
    TRef.binary (TRef.of (T := ⟨S100000x128, .f32⟩) main_arg2) (TRef.of (T := ⟨S100000x128, .f32⟩) main_arg2) (TRef.of (T := ⟨S100000x128, .f32⟩) main_call1_v0) mulf,
    TRef.nullary (TRef.of (T := ⟨S_, .f32⟩) main_call1_cst) (constant S_ .f32 0x00000000#32),
    TRef.binary (TRef.of (T := ⟨S100000x128, .f32⟩) main_call1_v0) (TRef.of (T := ⟨S_, .f32⟩) main_call1_cst) (TRef.of (T := ⟨S100000, .f32⟩) main_call1_v1) (fun x v => Host.reduceAdd x v reducesTo_S100000x128_S100000_d1 h_S_),
    TRef.unary (TRef.of (T := ⟨S100000, .f32⟩) main_call1_v1) (TRef.of (T := ⟨S100000x1, .f32⟩) main_call1_v2) (broadcastInDim S100000x1 ![0] bcast_S100000_S100000x1_0),
    TRef.unary (TRef.of (T := ⟨S100000x1, .f32⟩) main_call1_v2) (TRef.of (T := ⟨S100000x1, .f32⟩) main_v3) Host.sqrt,
    unary main_v3 main_v4 (broadcastInDim S100000x128 ![0, 1] bcast_S100000x1_S100000x128_0_1 : (⟨S100000x1, .f32⟩ : BufTy).Contents (Elt F) → (⟨S100000x128, .f32⟩ : BufTy).Contents (Elt F)),
    binary main_arg2 main_v4 main_v5 (Host.divf : (⟨S100000x128, .f32⟩ : BufTy).Contents (Elt F) → (⟨S100000x128, .f32⟩ : BufTy).Contents (Elt F) → (⟨S100000x128, .f32⟩ : BufTy).Contents (Elt F)),
    binary main_v2 main_v5 main_v6 ((fun l r => Host.dotGeneral dot_S2048x128_S100000x128_S2048x100000_1_1_0_0_n_n none l r) : (⟨S2048x128, .f32⟩ : BufTy).Contents (Elt F) → (⟨S100000x128, .f32⟩ : BufTy).Contents (Elt F) → (⟨S2048x100000, .f32⟩ : BufTy).Contents (Elt F)),
    nullary main_cst (constant S_ .f32 0xBF800000#32),
    nullary main_cst_0 (constant S_ .f32 0x3F800000#32),
    TRef.unary (TRef.of (T := ⟨S_, .f32⟩) main_cst) (TRef.of (T := ⟨S_, .f32⟩) main_call2_v0) id,
    TRef.unary (TRef.of (T := ⟨S_, .f32⟩) main_call2_v0) (TRef.of (T := ⟨S2048x100000, .f32⟩) main_call2_v1) (broadcastInDim S2048x100000 ![] bcast_S_S2048x100000),
    TRef.binary (TRef.of (T := ⟨S2048x100000, .f32⟩) main_call2_v1) (TRef.of (T := ⟨S2048x100000, .f32⟩) main_v6) (TRef.of (T := ⟨S2048x100000, .f32⟩) main_call2_v2) maximumf,
    TRef.unary (TRef.of (T := ⟨S_, .f32⟩) main_cst_0) (TRef.of (T := ⟨S_, .f32⟩) main_call2_v3) id,
    TRef.unary (TRef.of (T := ⟨S_, .f32⟩) main_call2_v3) (TRef.of (T := ⟨S2048x100000, .f32⟩) main_call2_v4) (broadcastInDim S2048x100000 ![] bcast_S_S2048x100000),
    TRef.binary (TRef.of (T := ⟨S2048x100000, .f32⟩) main_call2_v4) (TRef.of (T := ⟨S2048x100000, .f32⟩) main_call2_v2) (TRef.of (T := ⟨S2048x100000, .f32⟩) main_v7) minimumf,
    nullary main_v8 (iotaInDim S2048 32 0),
    nullary main_c (constantI S_ 32 0#32),
    unary main_c main_v9 (broadcastInDim S2048 ![] bcast_S_S2048 : (⟨S_, .i32⟩ : BufTy).Contents (Elt F) → (⟨S2048, .i32⟩ : BufTy).Contents (Elt F)),
    binary main_v8 main_v9 main_v10 (cmpi .slt : (⟨S2048, .i32⟩ : BufTy).Contents (Elt F) → (⟨S2048, .i32⟩ : BufTy).Contents (Elt F) → (⟨S2048, .i1⟩ : BufTy).Contents (Elt F)),
    nullary main_c_1 (constantI S_ 32 2048#32),
    unary main_c_1 main_v11 (broadcastInDim S2048 ![] bcast_S_S2048 : (⟨S_, .i32⟩ : BufTy).Contents (Elt F) → (⟨S2048, .i32⟩ : BufTy).Contents (Elt F)),
    binary main_v8 main_v11 main_v12 (addi : (⟨S2048, .i32⟩ : BufTy).Contents (Elt F) → (⟨S2048, .i32⟩ : BufTy).Contents (Elt F) → (⟨S2048, .i32⟩ : BufTy).Contents (Elt F)),
    ternary main_v10 main_v12 main_v8 main_v13 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    nullary main_c_2 (constantI S_ 32 0#32),
    unary main_c_2 main_v14 (broadcastInDim S2048 ![] bcast_S_S2048 : (⟨S_, .i32⟩ : BufTy).Contents (Elt F) → (⟨S2048, .i32⟩ : BufTy).Contents (Elt F)),
    binary main_arg1 main_v14 main_v15 (cmpi .slt : (⟨S2048, .i32⟩ : BufTy).Contents (Elt F) → (⟨S2048, .i32⟩ : BufTy).Contents (Elt F) → (⟨S2048, .i1⟩ : BufTy).Contents (Elt F)),
    nullary main_c_3 (constantI S_ 32 100000#32),
    unary main_c_3 main_v16 (broadcastInDim S2048 ![] bcast_S_S2048 : (⟨S_, .i32⟩ : BufTy).Contents (Elt F) → (⟨S2048, .i32⟩ : BufTy).Contents (Elt F)),
    binary main_arg1 main_v16 main_v17 (addi : (⟨S2048, .i32⟩ : BufTy).Contents (Elt F) → (⟨S2048, .i32⟩ : BufTy).Contents (Elt F) → (⟨S2048, .i32⟩ : BufTy).Contents (Elt F)),
    ternary main_v15 main_v17 main_arg1 main_v18 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v13 main_v19 (broadcastInDim S2048x1 ![0] bcast_S2048_S2048x1_0 : (⟨S2048, .i32⟩ : BufTy).Contents (Elt F) → (⟨S2048x1, .i32⟩ : BufTy).Contents (Elt F)),
    unary main_v18 main_v20 (broadcastInDim S2048x1 ![0] bcast_S2048_S2048x1_0 : (⟨S2048, .i32⟩ : BufTy).Contents (Elt F) → (⟨S2048x1, .i32⟩ : BufTy).Contents (Elt F)),
    binary main_v19 main_v20 main_v21 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    nullary main_cst_4 (constant S_ .f32 0xBE99999A#32),
    unary main_cst_4 main_v22 (broadcastInDim S2048 ![] bcast_S_S2048 : (⟨S_, .f32⟩ : BufTy).Contents (Elt F) → (⟨S2048, .f32⟩ : BufTy).Contents (Elt F)),
    ternary main_v7 main_v21 main_v22 main_v23 ((fun x i u => Host.scatterAdd scatter_S2048x100000_S2048x2_S2048_n_01_01_1 x i u) : (⟨S2048x100000, .f32⟩ : BufTy).Contents (Elt F) → (⟨S2048x2, .i32⟩ : BufTy).Contents (Elt F) → (⟨S2048, .f32⟩ : BufTy).Contents (Elt F) → (⟨S2048x100000, .f32⟩ : BufTy).Contents (Elt F)),
    nullary main_cst_5 (constant S_ .f32 0x41F00000#32),
    unary main_cst_5 main_v24 (broadcastInDim S2048x100000 ![] bcast_S_S2048x100000 : (⟨S_, .f32⟩ : BufTy).Contents (Elt F) → (⟨S2048x100000, .f32⟩ : BufTy).Contents (Elt F)),
    binary main_v24 main_v23 main_v25 (mulf : (⟨S2048x100000, .f32⟩ : BufTy).Contents (Elt F) → (⟨S2048x100000, .f32⟩ : BufTy).Contents (Elt F) → (⟨S2048x100000, .f32⟩ : BufTy).Contents (Elt F)),
    TRef.nullary (TRef.of (T := ⟨S_, .f32⟩) main_call3_cst) (constant S_ .f32 0xFF800000#32),
    TRef.binary (TRef.of (T := ⟨S2048x100000, .f32⟩) main_v25) (TRef.of (T := ⟨S_, .f32⟩) main_call3_cst) (TRef.of (T := ⟨S2048, .f32⟩) main_call3_v0) (fun x v => Host.reduce FloatOps.maximumf x v reducesTo_S2048x100000_S2048_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S2048, .f32⟩) main_call3_v1) (broadcastInDim S2048 ![] bcast_S_S2048),
    TRef.binary (TRef.of (T := ⟨S2048, .f32⟩) main_call3_v1) (TRef.of (T := ⟨S2048, .f32⟩) main_call3_v0) (TRef.of (T := ⟨S2048, .f32⟩) main_call3_v2) maximumf,
    TRef.unary (TRef.of (T := ⟨S2048, .f32⟩) main_call3_v2) (TRef.of (T := ⟨S2048x1, .f32⟩) main_call3_v3) (broadcastInDim S2048x1 ![0] bcast_S2048_S2048x1_0),
    TRef.unary (TRef.of (T := ⟨S2048x1, .f32⟩) main_call3_v3) (TRef.of (T := ⟨S2048x100000, .f32⟩) main_call3_v4) (broadcastInDim S2048x100000 ![0, 1] bcast_S2048x1_S2048x100000_0_1),
    TRef.binary (TRef.of (T := ⟨S2048x100000, .f32⟩) main_v25) (TRef.of (T := ⟨S2048x100000, .f32⟩) main_call3_v4) (TRef.of (T := ⟨S2048x100000, .f32⟩) main_call3_v5) subf,
    TRef.unary (TRef.of (T := ⟨S2048x100000, .f32⟩) main_call3_v5) (TRef.of (T := ⟨S2048x100000, .f32⟩) main_call3_v6) Host.exp,
    TRef.nullary (TRef.of (T := ⟨S_, .f32⟩) main_call3_cst_1) (constant S_ .f32 0x00000000#32),
    TRef.binary (TRef.of (T := ⟨S2048x100000, .f32⟩) main_call3_v6) (TRef.of (T := ⟨S_, .f32⟩) main_call3_cst_1) (TRef.of (T := ⟨S2048, .f32⟩) main_call3_v7) (fun x v => Host.reduceAdd x v reducesTo_S2048x100000_S2048_d1 h_S_),
    TRef.unary (TRef.of (T := ⟨S2048, .f32⟩) main_call3_v7) (TRef.of (T := ⟨S2048x1, .f32⟩) main_call3_v8) (broadcastInDim S2048x1 ![0] bcast_S2048_S2048x1_0),
    TRef.unary (TRef.of (T := ⟨S2048x1, .f32⟩) main_call3_v8) (TRef.of (T := ⟨S2048x1, .f32⟩) main_call3_v9) Host.log,
    TRef.unary (TRef.of (T := ⟨S2048x1, .f32⟩) main_call3_v9) (TRef.of (T := ⟨S2048x100000, .f32⟩) main_call3_v10) (broadcastInDim S2048x100000 ![0, 1] bcast_S2048x1_S2048x100000_0_1),
    TRef.binary (TRef.of (T := ⟨S2048x100000, .f32⟩) main_call3_v5) (TRef.of (T := ⟨S2048x100000, .f32⟩) main_call3_v10) (TRef.of (T := ⟨S2048x100000, .f32⟩) main_v26) subf,
    unary main_arg1 main_v27 (broadcastInDim S2048x1 ![0] bcast_S2048_S2048x1_0 : (⟨S2048, .i32⟩ : BufTy).Contents (Elt F) → (⟨S2048x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S2048x1, .i32⟩) main_call4_v0) (broadcastInDim S2048x1 ![] bcast_S_S2048x1),
    TRef.binary (TRef.of (T := ⟨S2048x1, .i32⟩) main_v27) (TRef.of (T := ⟨S2048x1, .i32⟩) main_call4_v0) (TRef.of (T := ⟨S2048x1, .i1⟩) main_call4_v1) (cmpi .slt),
    TRef.nullary (TRef.of (T := ⟨S_, .i32⟩) main_call4_c_0) (constantI S_ 32 100000#32),
    TRef.unary (TRef.of (T := ⟨S_, .i32⟩) main_call4_c_0) (TRef.of (T := ⟨S2048x1, .i32⟩) main_call4_v2) (broadcastInDim S2048x1 ![] bcast_S_S2048x1),
    TRef.binary (TRef.of (T := ⟨S2048x1, .i32⟩) main_v27) (TRef.of (T := ⟨S2048x1, .i32⟩) main_call4_v2) (TRef.of (T := ⟨S2048x1, .i32⟩) main_call4_v3) addi,
    TRef.ternary (TRef.of (T := ⟨S2048x1, .i1⟩) main_call4_v1) (TRef.of (T := ⟨S2048x1, .i32⟩) main_call4_v3) (TRef.of (T := ⟨S2048x1, .i32⟩) main_v27) (TRef.of (T := ⟨S2048x1, .i32⟩) main_call4_v4) select,
    TRef.reshape (TRef.of (T := ⟨S2048x1, .i32⟩) main_call4_v4) (TRef.of (T := ⟨S2048x1x1, .i32⟩) main_call4_v5) rfl shapeCasts_S2048x1_S2048x1x1,
    TRef.nullary (TRef.of (T := ⟨S1, .i32⟩) main_call4_c_1) (constantI S1 32 99999#32),
    TRef.nullary (TRef.of (T := ⟨S_, .i32⟩) main_call4_c_2) (constantI S_ 32 0#32),
    TRef.unary (TRef.of (T := ⟨S_, .i32⟩) main_call4_c_2) (TRef.of (T := ⟨S2048x1x1, .i32⟩) main_call4_v6) (broadcastInDim S2048x1x1 ![] bcast_S_S2048x1x1),
    TRef.binary (TRef.of (T := ⟨S2048x1x1, .i32⟩) main_call4_v5) (TRef.of (T := ⟨S2048x1x1, .i32⟩) main_call4_v6) (TRef.of (T := ⟨S2048x1x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S2048x1x1, .i32⟩) main_call4_v9) (broadcastInDim S2048x1x1 ![0, 1, 2] bcast_S1x1x1_S2048x1x1_0_1_2),
    TRef.binary (TRef.of (T := ⟨S2048x1x1, .i32⟩) main_call4_v5) (TRef.of (T := ⟨S2048x1x1, .i32⟩) main_call4_v9) (TRef.of (T := ⟨S2048x1x1, .i1⟩) main_call4_v10) (cmpi .sle),
    TRef.binary (TRef.of (T := ⟨S2048x1x1, .i1⟩) main_call4_v7) (TRef.of (T := ⟨S2048x1x1, .i1⟩) main_call4_v10) (TRef.of (T := ⟨S2048x1x1, .i1⟩) main_call4_v11) andi,
    TRef.nullary (TRef.of (T := ⟨S_, .i1⟩) main_call4_c_3) (constantI S_ 1 1#1),
    TRef.binary (TRef.of (T := ⟨S2048x1x1, .i1⟩) main_call4_v11) (TRef.of (T := ⟨S_, .i1⟩) main_call4_c_3) (TRef.of (T := ⟨S2048x1, .i1⟩) main_call4_v12) (fun x v => Host.reduce IntOp.andi x v reducesTo_S2048x1x1_S2048x1_d2 h_S_),
    TRef.binary (TRef.of (T := ⟨S2048x100000, .f32⟩) main_v26) (TRef.of (T := ⟨S2048x1x1, .i32⟩) main_call4_v5) (TRef.of (T := ⟨S2048x1, .f32⟩) main_call4_v13) (fun x i => Host.gather gather_S2048x100000_S2048x1x1_S2048x1_n_1_0_0_1_2_11 x i),
    TRef.nullary (TRef.of (T := ⟨S_, .f32⟩) main_call4_cst) (constant S_ .f32 0x7FC00000#32),
    TRef.unary (TRef.of (T := ⟨S_, .f32⟩) main_call4_cst) (TRef.of (T := ⟨S2048x1, .f32⟩) main_call4_v14) (broadcastInDim S2048x1 ![] bcast_S_S2048x1),
    TRef.ternary (TRef.of (T := ⟨S2048x1, .i1⟩) main_call4_v12) (TRef.of (T := ⟨S2048x1, .f32⟩) main_call4_v13) (TRef.of (T := ⟨S2048x1, .f32⟩) main_call4_v14) (TRef.of (T := ⟨S2048x1, .f32⟩) main_v28) select,
    reshape main_v28 main_v29 rfl shapeCasts_S2048x1_S2048,
    unary main_v29 main_v30 (Host.negf : (⟨S2048, .f32⟩ : BufTy).Contents (Elt F) → (⟨S2048, .f32⟩ : BufTy).Contents (Elt F)),
    nullary main_cst_6 (constant S_ .f32 0x00000000#32),
    binary main_v26 main_cst_6 main_v31 ((fun x v => Host.reduceAdd x v reducesTo_S2048x100000_S2048_d1 h_S_) : (⟨S2048x100000, .f32⟩ : BufTy).Contents (Elt F) → (⟨S_, .f32⟩ : BufTy).Contents (Elt F) → (⟨S2048, .f32⟩ : BufTy).Contents (Elt F)),
    nullary main_cst_7 (constant S_ .f32 0x47C35000#32),
    unary main_cst_7 main_v32 (broadcastInDim S2048 ![] bcast_S_S2048 : (⟨S_, .f32⟩ : BufTy).Contents (Elt F) → (⟨S2048, .f32⟩ : BufTy).Contents (Elt F)),
    binary main_v31 main_v32 main_v33 (Host.divf : (⟨S2048, .f32⟩ : BufTy).Contents (Elt F) → (⟨S2048, .f32⟩ : BufTy).Contents (Elt F) → (⟨S2048, .f32⟩ : BufTy).Contents (Elt F)),
    unary main_v33 main_v34 (Host.negf : (⟨S2048, .f32⟩ : BufTy).Contents (Elt F) → (⟨S2048, .f32⟩ : BufTy).Contents (Elt F)),
    nullary main_cst_8 (constant S_ .f32 0x3F666666#32),
    unary main_cst_8 main_v35 (broadcastInDim S2048 ![] bcast_S_S2048 : (⟨S_, .f32⟩ : BufTy).Contents (Elt F) → (⟨S2048, .f32⟩ : BufTy).Contents (Elt F)),
    binary main_v35 main_v30 main_v36 (mulf : (⟨S2048, .f32⟩ : BufTy).Contents (Elt F) → (⟨S2048, .f32⟩ : BufTy).Contents (Elt F) → (⟨S2048, .f32⟩ : BufTy).Contents (Elt F)),
    nullary main_cst_9 (constant S_ .f32 0x3DCCCCCD#32),
    unary main_cst_9 main_v37 (broadcastInDim S2048 ![] bcast_S_S2048 : (⟨S_, .f32⟩ : BufTy).Contents (Elt F) → (⟨S2048, .f32⟩ : BufTy).Contents (Elt F)),
    binary main_v37 main_v34 main_v38 (mulf : (⟨S2048, .f32⟩ : BufTy).Contents (Elt F) → (⟨S2048, .f32⟩ : BufTy).Contents (Elt F) → (⟨S2048, .f32⟩ : BufTy).Contents (Elt F)),
    binary main_v36 main_v38 main_v39 (addf : (⟨S2048, .f32⟩ : BufTy).Contents (Elt F) → (⟨S2048, .f32⟩ : BufTy).Contents (Elt F) → (⟨S2048, .f32⟩ : BufTy).Contents (Elt F)),
    nullary main_cst_10 (constant S_ .f32 0x00000000#32),
    binary main_v39 main_cst_10 main_v40 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_11 (constant S_ .f32 0x45000000#32),
    binary main_v40 main_cst_11 main_v41 (Host.divf : (⟨S_, .f32⟩ : BufTy).Contents (Elt F) → (⟨S_, .f32⟩ : BufTy).Contents (Elt F) → (⟨S_, .f32⟩ : BufTy).Contents (Elt F)) ]

/-! ## The five stretches -/

/-- Operations 1 to 23 of @main. -/
abbrev opsA : List (HloOp τ sig (Elt F)) :=
  [ TRef.binary (TRef.of (T := ⟨S2048x128, .f32⟩) main_arg0) (TRef.of (T := ⟨S2048x128, .f32⟩) main_arg0) (TRef.of (T := ⟨S2048x128, .f32⟩) main_call0_v0) mulf,
    TRef.nullary (TRef.of (T := ⟨S_, .f32⟩) main_call0_cst) (constant S_ .f32 0x00000000#32),
    TRef.binary (TRef.of (T := ⟨S2048x128, .f32⟩) main_call0_v0) (TRef.of (T := ⟨S_, .f32⟩) main_call0_cst) (TRef.of (T := ⟨S2048, .f32⟩) main_call0_v1) (fun x v => Host.reduceAdd x v reducesTo_S2048x128_S2048_d1 h_S_),
    TRef.unary (TRef.of (T := ⟨S2048, .f32⟩) main_call0_v1) (TRef.of (T := ⟨S2048x1, .f32⟩) main_call0_v2) (broadcastInDim S2048x1 ![0] bcast_S2048_S2048x1_0),
    TRef.unary (TRef.of (T := ⟨S2048x1, .f32⟩) main_call0_v2) (TRef.of (T := ⟨S2048x1, .f32⟩) main_v0) Host.sqrt,
    unary main_v0 main_v1 (broadcastInDim S2048x128 ![0, 1] bcast_S2048x1_S2048x128_0_1 : (⟨S2048x1, .f32⟩ : BufTy).Contents (Elt F) → (⟨S2048x128, .f32⟩ : BufTy).Contents (Elt F)),
    binary main_arg0 main_v1 main_v2 (Host.divf : (⟨S2048x128, .f32⟩ : BufTy).Contents (Elt F) → (⟨S2048x128, .f32⟩ : BufTy).Contents (Elt F) → (⟨S2048x128, .f32⟩ : BufTy).Contents (Elt F)),
    TRef.binary (TRef.of (T := ⟨S100000x128, .f32⟩) main_arg2) (TRef.of (T := ⟨S100000x128, .f32⟩) main_arg2) (TRef.of (T := ⟨S100000x128, .f32⟩) main_call1_v0) mulf,
    TRef.nullary (TRef.of (T := ⟨S_, .f32⟩) main_call1_cst) (constant S_ .f32 0x00000000#32),
    TRef.binary (TRef.of (T := ⟨S100000x128, .f32⟩) main_call1_v0) (TRef.of (T := ⟨S_, .f32⟩) main_call1_cst) (TRef.of (T := ⟨S100000, .f32⟩) main_call1_v1) (fun x v => Host.reduceAdd x v reducesTo_S100000x128_S100000_d1 h_S_),
    TRef.unary (TRef.of (T := ⟨S100000, .f32⟩) main_call1_v1) (TRef.of (T := ⟨S100000x1, .f32⟩) main_call1_v2) (broadcastInDim S100000x1 ![0] bcast_S100000_S100000x1_0),
    TRef.unary (TRef.of (T := ⟨S100000x1, .f32⟩) main_call1_v2) (TRef.of (T := ⟨S100000x1, .f32⟩) main_v3) Host.sqrt,
    unary main_v3 main_v4 (broadcastInDim S100000x128 ![0, 1] bcast_S100000x1_S100000x128_0_1 : (⟨S100000x1, .f32⟩ : BufTy).Contents (Elt F) → (⟨S100000x128, .f32⟩ : BufTy).Contents (Elt F)),
    binary main_arg2 main_v4 main_v5 (Host.divf : (⟨S100000x128, .f32⟩ : BufTy).Contents (Elt F) → (⟨S100000x128, .f32⟩ : BufTy).Contents (Elt F) → (⟨S100000x128, .f32⟩ : BufTy).Contents (Elt F)),
    binary main_v2 main_v5 main_v6 ((fun l r => Host.dotGeneral dot_S2048x128_S100000x128_S2048x100000_1_1_0_0_n_n none l r) : (⟨S2048x128, .f32⟩ : BufTy).Contents (Elt F) → (⟨S100000x128, .f32⟩ : BufTy).Contents (Elt F) → (⟨S2048x100000, .f32⟩ : BufTy).Contents (Elt F)),
    nullary main_cst (constant S_ .f32 0xBF800000#32),
    nullary main_cst_0 (constant S_ .f32 0x3F800000#32),
    TRef.unary (TRef.of (T := ⟨S_, .f32⟩) main_cst) (TRef.of (T := ⟨S_, .f32⟩) main_call2_v0) id,
    TRef.unary (TRef.of (T := ⟨S_, .f32⟩) main_call2_v0) (TRef.of (T := ⟨S2048x100000, .f32⟩) main_call2_v1) (broadcastInDim S2048x100000 ![] bcast_S_S2048x100000),
    TRef.binary (TRef.of (T := ⟨S2048x100000, .f32⟩) main_call2_v1) (TRef.of (T := ⟨S2048x100000, .f32⟩) main_v6) (TRef.of (T := ⟨S2048x100000, .f32⟩) main_call2_v2) maximumf,
    TRef.unary (TRef.of (T := ⟨S_, .f32⟩) main_cst_0) (TRef.of (T := ⟨S_, .f32⟩) main_call2_v3) id,
    TRef.unary (TRef.of (T := ⟨S_, .f32⟩) main_call2_v3) (TRef.of (T := ⟨S2048x100000, .f32⟩) main_call2_v4) (broadcastInDim S2048x100000 ![] bcast_S_S2048x100000),
    TRef.binary (TRef.of (T := ⟨S2048x100000, .f32⟩) main_call2_v4) (TRef.of (T := ⟨S2048x100000, .f32⟩) main_call2_v2) (TRef.of (T := ⟨S2048x100000, .f32⟩) main_v7) minimumf ]

/-- Operations 24 to 47 of @main. -/
abbrev opsB : List (HloOp τ sig (Elt F)) :=
  [ nullary main_v8 (iotaInDim S2048 32 0),
    nullary main_c (constantI S_ 32 0#32),
    unary main_c main_v9 (broadcastInDim S2048 ![] bcast_S_S2048 : (⟨S_, .i32⟩ : BufTy).Contents (Elt F) → (⟨S2048, .i32⟩ : BufTy).Contents (Elt F)),
    binary main_v8 main_v9 main_v10 (cmpi .slt : (⟨S2048, .i32⟩ : BufTy).Contents (Elt F) → (⟨S2048, .i32⟩ : BufTy).Contents (Elt F) → (⟨S2048, .i1⟩ : BufTy).Contents (Elt F)),
    nullary main_c_1 (constantI S_ 32 2048#32),
    unary main_c_1 main_v11 (broadcastInDim S2048 ![] bcast_S_S2048 : (⟨S_, .i32⟩ : BufTy).Contents (Elt F) → (⟨S2048, .i32⟩ : BufTy).Contents (Elt F)),
    binary main_v8 main_v11 main_v12 (addi : (⟨S2048, .i32⟩ : BufTy).Contents (Elt F) → (⟨S2048, .i32⟩ : BufTy).Contents (Elt F) → (⟨S2048, .i32⟩ : BufTy).Contents (Elt F)),
    ternary main_v10 main_v12 main_v8 main_v13 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    nullary main_c_2 (constantI S_ 32 0#32),
    unary main_c_2 main_v14 (broadcastInDim S2048 ![] bcast_S_S2048 : (⟨S_, .i32⟩ : BufTy).Contents (Elt F) → (⟨S2048, .i32⟩ : BufTy).Contents (Elt F)),
    binary main_arg1 main_v14 main_v15 (cmpi .slt : (⟨S2048, .i32⟩ : BufTy).Contents (Elt F) → (⟨S2048, .i32⟩ : BufTy).Contents (Elt F) → (⟨S2048, .i1⟩ : BufTy).Contents (Elt F)),
    nullary main_c_3 (constantI S_ 32 100000#32),
    unary main_c_3 main_v16 (broadcastInDim S2048 ![] bcast_S_S2048 : (⟨S_, .i32⟩ : BufTy).Contents (Elt F) → (⟨S2048, .i32⟩ : BufTy).Contents (Elt F)),
    binary main_arg1 main_v16 main_v17 (addi : (⟨S2048, .i32⟩ : BufTy).Contents (Elt F) → (⟨S2048, .i32⟩ : BufTy).Contents (Elt F) → (⟨S2048, .i32⟩ : BufTy).Contents (Elt F)),
    ternary main_v15 main_v17 main_arg1 main_v18 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v13 main_v19 (broadcastInDim S2048x1 ![0] bcast_S2048_S2048x1_0 : (⟨S2048, .i32⟩ : BufTy).Contents (Elt F) → (⟨S2048x1, .i32⟩ : BufTy).Contents (Elt F)),
    unary main_v18 main_v20 (broadcastInDim S2048x1 ![0] bcast_S2048_S2048x1_0 : (⟨S2048, .i32⟩ : BufTy).Contents (Elt F) → (⟨S2048x1, .i32⟩ : BufTy).Contents (Elt F)),
    binary main_v19 main_v20 main_v21 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    nullary main_cst_4 (constant S_ .f32 0xBE99999A#32),
    unary main_cst_4 main_v22 (broadcastInDim S2048 ![] bcast_S_S2048 : (⟨S_, .f32⟩ : BufTy).Contents (Elt F) → (⟨S2048, .f32⟩ : BufTy).Contents (Elt F)),
    ternary main_v7 main_v21 main_v22 main_v23 ((fun x i u => Host.scatterAdd scatter_S2048x100000_S2048x2_S2048_n_01_01_1 x i u) : (⟨S2048x100000, .f32⟩ : BufTy).Contents (Elt F) → (⟨S2048x2, .i32⟩ : BufTy).Contents (Elt F) → (⟨S2048, .f32⟩ : BufTy).Contents (Elt F) → (⟨S2048x100000, .f32⟩ : BufTy).Contents (Elt F)),
    nullary main_cst_5 (constant S_ .f32 0x41F00000#32),
    unary main_cst_5 main_v24 (broadcastInDim S2048x100000 ![] bcast_S_S2048x100000 : (⟨S_, .f32⟩ : BufTy).Contents (Elt F) → (⟨S2048x100000, .f32⟩ : BufTy).Contents (Elt F)),
    binary main_v24 main_v23 main_v25 (mulf : (⟨S2048x100000, .f32⟩ : BufTy).Contents (Elt F) → (⟨S2048x100000, .f32⟩ : BufTy).Contents (Elt F) → (⟨S2048x100000, .f32⟩ : BufTy).Contents (Elt F)) ]

/-- Operations 48 to 62 of @main. -/
abbrev opsC : List (HloOp τ sig (Elt F)) :=
  [ TRef.nullary (TRef.of (T := ⟨S_, .f32⟩) main_call3_cst) (constant S_ .f32 0xFF800000#32),
    TRef.binary (TRef.of (T := ⟨S2048x100000, .f32⟩) main_v25) (TRef.of (T := ⟨S_, .f32⟩) main_call3_cst) (TRef.of (T := ⟨S2048, .f32⟩) main_call3_v0) (fun x v => Host.reduce FloatOps.maximumf x v reducesTo_S2048x100000_S2048_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S2048, .f32⟩) main_call3_v1) (broadcastInDim S2048 ![] bcast_S_S2048),
    TRef.binary (TRef.of (T := ⟨S2048, .f32⟩) main_call3_v1) (TRef.of (T := ⟨S2048, .f32⟩) main_call3_v0) (TRef.of (T := ⟨S2048, .f32⟩) main_call3_v2) maximumf,
    TRef.unary (TRef.of (T := ⟨S2048, .f32⟩) main_call3_v2) (TRef.of (T := ⟨S2048x1, .f32⟩) main_call3_v3) (broadcastInDim S2048x1 ![0] bcast_S2048_S2048x1_0),
    TRef.unary (TRef.of (T := ⟨S2048x1, .f32⟩) main_call3_v3) (TRef.of (T := ⟨S2048x100000, .f32⟩) main_call3_v4) (broadcastInDim S2048x100000 ![0, 1] bcast_S2048x1_S2048x100000_0_1),
    TRef.binary (TRef.of (T := ⟨S2048x100000, .f32⟩) main_v25) (TRef.of (T := ⟨S2048x100000, .f32⟩) main_call3_v4) (TRef.of (T := ⟨S2048x100000, .f32⟩) main_call3_v5) subf,
    TRef.unary (TRef.of (T := ⟨S2048x100000, .f32⟩) main_call3_v5) (TRef.of (T := ⟨S2048x100000, .f32⟩) main_call3_v6) Host.exp,
    TRef.nullary (TRef.of (T := ⟨S_, .f32⟩) main_call3_cst_1) (constant S_ .f32 0x00000000#32),
    TRef.binary (TRef.of (T := ⟨S2048x100000, .f32⟩) main_call3_v6) (TRef.of (T := ⟨S_, .f32⟩) main_call3_cst_1) (TRef.of (T := ⟨S2048, .f32⟩) main_call3_v7) (fun x v => Host.reduceAdd x v reducesTo_S2048x100000_S2048_d1 h_S_),
    TRef.unary (TRef.of (T := ⟨S2048, .f32⟩) main_call3_v7) (TRef.of (T := ⟨S2048x1, .f32⟩) main_call3_v8) (broadcastInDim S2048x1 ![0] bcast_S2048_S2048x1_0),
    TRef.unary (TRef.of (T := ⟨S2048x1, .f32⟩) main_call3_v8) (TRef.of (T := ⟨S2048x1, .f32⟩) main_call3_v9) Host.log,
    TRef.unary (TRef.of (T := ⟨S2048x1, .f32⟩) main_call3_v9) (TRef.of (T := ⟨S2048x100000, .f32⟩) main_call3_v10) (broadcastInDim S2048x100000 ![0, 1] bcast_S2048x1_S2048x100000_0_1),
    TRef.binary (TRef.of (T := ⟨S2048x100000, .f32⟩) main_call3_v5) (TRef.of (T := ⟨S2048x100000, .f32⟩) main_call3_v10) (TRef.of (T := ⟨S2048x100000, .f32⟩) main_v26) subf ]

/-- Operations 63 to 85 of @main. -/
abbrev opsD : List (HloOp τ sig (Elt F)) :=
  [ unary main_arg1 main_v27 (broadcastInDim S2048x1 ![0] bcast_S2048_S2048x1_0 : (⟨S2048, .i32⟩ : BufTy).Contents (Elt F) → (⟨S2048x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S2048x1, .i32⟩) main_call4_v0) (broadcastInDim S2048x1 ![] bcast_S_S2048x1),
    TRef.binary (TRef.of (T := ⟨S2048x1, .i32⟩) main_v27) (TRef.of (T := ⟨S2048x1, .i32⟩) main_call4_v0) (TRef.of (T := ⟨S2048x1, .i1⟩) main_call4_v1) (cmpi .slt),
    TRef.nullary (TRef.of (T := ⟨S_, .i32⟩) main_call4_c_0) (constantI S_ 32 100000#32),
    TRef.unary (TRef.of (T := ⟨S_, .i32⟩) main_call4_c_0) (TRef.of (T := ⟨S2048x1, .i32⟩) main_call4_v2) (broadcastInDim S2048x1 ![] bcast_S_S2048x1),
    TRef.binary (TRef.of (T := ⟨S2048x1, .i32⟩) main_v27) (TRef.of (T := ⟨S2048x1, .i32⟩) main_call4_v2) (TRef.of (T := ⟨S2048x1, .i32⟩) main_call4_v3) addi,
    TRef.ternary (TRef.of (T := ⟨S2048x1, .i1⟩) main_call4_v1) (TRef.of (T := ⟨S2048x1, .i32⟩) main_call4_v3) (TRef.of (T := ⟨S2048x1, .i32⟩) main_v27) (TRef.of (T := ⟨S2048x1, .i32⟩) main_call4_v4) select,
    TRef.reshape (TRef.of (T := ⟨S2048x1, .i32⟩) main_call4_v4) (TRef.of (T := ⟨S2048x1x1, .i32⟩) main_call4_v5) rfl shapeCasts_S2048x1_S2048x1x1,
    TRef.nullary (TRef.of (T := ⟨S1, .i32⟩) main_call4_c_1) (constantI S1 32 99999#32),
    TRef.nullary (TRef.of (T := ⟨S_, .i32⟩) main_call4_c_2) (constantI S_ 32 0#32),
    TRef.unary (TRef.of (T := ⟨S_, .i32⟩) main_call4_c_2) (TRef.of (T := ⟨S2048x1x1, .i32⟩) main_call4_v6) (broadcastInDim S2048x1x1 ![] bcast_S_S2048x1x1),
    TRef.binary (TRef.of (T := ⟨S2048x1x1, .i32⟩) main_call4_v5) (TRef.of (T := ⟨S2048x1x1, .i32⟩) main_call4_v6) (TRef.of (T := ⟨S2048x1x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S2048x1x1, .i32⟩) main_call4_v9) (broadcastInDim S2048x1x1 ![0, 1, 2] bcast_S1x1x1_S2048x1x1_0_1_2),
    TRef.binary (TRef.of (T := ⟨S2048x1x1, .i32⟩) main_call4_v5) (TRef.of (T := ⟨S2048x1x1, .i32⟩) main_call4_v9) (TRef.of (T := ⟨S2048x1x1, .i1⟩) main_call4_v10) (cmpi .sle),
    TRef.binary (TRef.of (T := ⟨S2048x1x1, .i1⟩) main_call4_v7) (TRef.of (T := ⟨S2048x1x1, .i1⟩) main_call4_v10) (TRef.of (T := ⟨S2048x1x1, .i1⟩) main_call4_v11) andi,
    TRef.nullary (TRef.of (T := ⟨S_, .i1⟩) main_call4_c_3) (constantI S_ 1 1#1),
    TRef.binary (TRef.of (T := ⟨S2048x1x1, .i1⟩) main_call4_v11) (TRef.of (T := ⟨S_, .i1⟩) main_call4_c_3) (TRef.of (T := ⟨S2048x1, .i1⟩) main_call4_v12) (fun x v => Host.reduce IntOp.andi x v reducesTo_S2048x1x1_S2048x1_d2 h_S_),
    TRef.binary (TRef.of (T := ⟨S2048x100000, .f32⟩) main_v26) (TRef.of (T := ⟨S2048x1x1, .i32⟩) main_call4_v5) (TRef.of (T := ⟨S2048x1, .f32⟩) main_call4_v13) (fun x i => Host.gather gather_S2048x100000_S2048x1x1_S2048x1_n_1_0_0_1_2_11 x i),
    TRef.nullary (TRef.of (T := ⟨S_, .f32⟩) main_call4_cst) (constant S_ .f32 0x7FC00000#32),
    TRef.unary (TRef.of (T := ⟨S_, .f32⟩) main_call4_cst) (TRef.of (T := ⟨S2048x1, .f32⟩) main_call4_v14) (broadcastInDim S2048x1 ![] bcast_S_S2048x1),
    TRef.ternary (TRef.of (T := ⟨S2048x1, .i1⟩) main_call4_v12) (TRef.of (T := ⟨S2048x1, .f32⟩) main_call4_v13) (TRef.of (T := ⟨S2048x1, .f32⟩) main_call4_v14) (TRef.of (T := ⟨S2048x1, .f32⟩) main_v28) select ]

/-- Operations 86 to 104 of @main. -/
abbrev opsE : List (HloOp τ sig (Elt F)) :=
  [ reshape main_v28 main_v29 rfl shapeCasts_S2048x1_S2048,
    unary main_v29 main_v30 (Host.negf : (⟨S2048, .f32⟩ : BufTy).Contents (Elt F) → (⟨S2048, .f32⟩ : BufTy).Contents (Elt F)),
    nullary main_cst_6 (constant S_ .f32 0x00000000#32),
    binary main_v26 main_cst_6 main_v31 ((fun x v => Host.reduceAdd x v reducesTo_S2048x100000_S2048_d1 h_S_) : (⟨S2048x100000, .f32⟩ : BufTy).Contents (Elt F) → (⟨S_, .f32⟩ : BufTy).Contents (Elt F) → (⟨S2048, .f32⟩ : BufTy).Contents (Elt F)),
    nullary main_cst_7 (constant S_ .f32 0x47C35000#32),
    unary main_cst_7 main_v32 (broadcastInDim S2048 ![] bcast_S_S2048 : (⟨S_, .f32⟩ : BufTy).Contents (Elt F) → (⟨S2048, .f32⟩ : BufTy).Contents (Elt F)),
    binary main_v31 main_v32 main_v33 (Host.divf : (⟨S2048, .f32⟩ : BufTy).Contents (Elt F) → (⟨S2048, .f32⟩ : BufTy).Contents (Elt F) → (⟨S2048, .f32⟩ : BufTy).Contents (Elt F)),
    unary main_v33 main_v34 (Host.negf : (⟨S2048, .f32⟩ : BufTy).Contents (Elt F) → (⟨S2048, .f32⟩ : BufTy).Contents (Elt F)),
    nullary main_cst_8 (constant S_ .f32 0x3F666666#32),
    unary main_cst_8 main_v35 (broadcastInDim S2048 ![] bcast_S_S2048 : (⟨S_, .f32⟩ : BufTy).Contents (Elt F) → (⟨S2048, .f32⟩ : BufTy).Contents (Elt F)),
    binary main_v35 main_v30 main_v36 (mulf : (⟨S2048, .f32⟩ : BufTy).Contents (Elt F) → (⟨S2048, .f32⟩ : BufTy).Contents (Elt F) → (⟨S2048, .f32⟩ : BufTy).Contents (Elt F)),
    nullary main_cst_9 (constant S_ .f32 0x3DCCCCCD#32),
    unary main_cst_9 main_v37 (broadcastInDim S2048 ![] bcast_S_S2048 : (⟨S_, .f32⟩ : BufTy).Contents (Elt F) → (⟨S2048, .f32⟩ : BufTy).Contents (Elt F)),
    binary main_v37 main_v34 main_v38 (mulf : (⟨S2048, .f32⟩ : BufTy).Contents (Elt F) → (⟨S2048, .f32⟩ : BufTy).Contents (Elt F) → (⟨S2048, .f32⟩ : BufTy).Contents (Elt F)),
    binary main_v36 main_v38 main_v39 (addf : (⟨S2048, .f32⟩ : BufTy).Contents (Elt F) → (⟨S2048, .f32⟩ : BufTy).Contents (Elt F) → (⟨S2048, .f32⟩ : BufTy).Contents (Elt F)),
    nullary main_cst_10 (constant S_ .f32 0x00000000#32),
    binary main_v39 main_cst_10 main_v40 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_11 (constant S_ .f32 0x45000000#32),
    binary main_v40 main_cst_11 main_v41 (Host.divf : (⟨S_, .f32⟩ : BufTy).Contents (Elt F) → (⟨S_, .f32⟩ : BufTy).Contents (Elt F) → (⟨S_, .f32⟩ : BufTy).Contents (Elt F)) ]

/-- The stretches appended are the program. -/
theorem ops_split : (ops : List (HloOp τ sig (Elt F))) = opsA ++ (opsB ++ (opsC ++ (opsD ++ opsE))) := rfl

/-! ## The program is that straight line -/

set_option maxRecDepth 8192 in
set_option maxHeartbeats 2000000 in
/-- @main is the sequence of its operations: the called functions' bodies unfolded at their calls, both sides are
    one chain of steps once sequencing is reassociated. -/
theorem main_eq (c : Dev nD) : main (F := F) c = seq ops := by
  simp only [main, fn_norm.body, fn_norm_0.body, fn_clip.body, fn_log_softmax.body, fn_take_along_axis.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., unary_bufs_sub .., binary_bufs_sub .., binary_bufs_sub .., nullary_bufs_sub .., binary_bufs_sub .., unary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., binary_bufs_sub .., nullary_bufs_sub .., binary_bufs_sub ..⟩

/-! ## The stretches, one at a time -/

/-- At the buffers where a called function's operation meets one of @main's own, the transport between a buffer's
    type and its value's type is the identity. -/
theorem ofBuf_main_v25 (w : (main_v25 : Ref sig .tc).ty.Contents (Elt F)) :
    (TRef.of (T := ⟨S2048x100000, .f32⟩) main_v25).ofBuf (Val := Elt F) w = w := rfl

theorem toBuf_main_v26 (v : (⟨S2048x100000, .f32⟩ : BufTy).Contents (Elt F)) :
    (TRef.of (T := ⟨S2048x100000, .f32⟩) main_v26).toBuf (Val := Elt F) v = v := rfl

theorem ofBuf_main_v26 (w : (main_v26 : Ref sig .tc).ty.Contents (Elt F)) :
    (TRef.of (T := ⟨S2048x100000, .f32⟩) main_v26).ofBuf (Val := Elt F) w = w := rfl

theorem ofBuf_main_v27 (w : (main_v27 : Ref sig .tc).ty.Contents (Elt F)) :
    (TRef.of (T := ⟨S2048x1, .i32⟩) main_v27).ofBuf (Val := Elt F) w = w := rfl

theorem toBuf_main_v28 (v : (⟨S2048x1, .f32⟩ : BufTy).Contents (Elt F)) :
    (TRef.of (T := ⟨S2048x1, .f32⟩) main_v28).toBuf (Val := Elt F) v = v := rfl

set_option maxRecDepth 8192 in
set_option maxHeartbeats 2000000 in
/-- Stretch 1: the cosines. -/
theorem stretchA (V : Valuation τ sig (Elt F)) :
    after opsA V (Proc.devRef .tc main_v7) = val_main_v7 (F := F) (V (Proc.devRef .tc main_arg0)) (V (Proc.devRef .tc main_arg2)) := by
  after_results_simp <;> (try simp only [TRef.ofBuf, TRef.toBuf, cast_eq]) <;> rfl

set_option maxRecDepth 8192 in
set_option maxHeartbeats 2000000 in
/-- Stretch 2: the logits, from the cosines and the labels. -/
theorem stretchB (V : Valuation τ sig (Elt F)) (x0 : (⟨S2048x128, .f32⟩ : BufTy).Contents (Elt F)) (x1 : (⟨S2048, .i32⟩ : BufTy).Contents (Elt F)) (x2 : (⟨S100000x128, .f32⟩ : BufTy).Contents (Elt F))
    (hK : V (Proc.devRef .tc main_v7) = val_main_v7 (F := F) x0 x2) (h1 : V (Proc.devRef .tc main_arg1) = x1) :
    after opsB V (Proc.devRef .tc main_v25) = val_main_v25 (F := F) x0 x1 x2 := by
  after_results
  rw [hK, h1]
  rfl

set_option maxRecDepth 8192 in
set_option maxHeartbeats 2000000 in
/-- Stretch 3: the log-probabilities, from the logits. -/
theorem stretchC (V : Valuation τ sig (Elt F)) (x0 : (⟨S2048x128, .f32⟩ : BufTy).Contents (Elt F)) (x1 : (⟨S2048, .i32⟩ : BufTy).Contents (Elt F)) (x2 : (⟨S100000x128, .f32⟩ : BufTy).Contents (Elt F))
    (hL : V (Proc.devRef .tc main_v25) = val_main_v25 (F := F) x0 x1 x2) :
    after opsC V (Proc.devRef .tc main_v26) = val_main_v26 (F := F) x0 x1 x2 := by
  after_results
  dsimp only
  rw [hL]
  simp only [TRef.ofBuf_toBuf, ofBuf_main_v25, toBuf_main_v26]
  rfl

set_option maxRecDepth 8192 in
set_option maxHeartbeats 2000000 in
/-- Stretch 4: the picked log-probabilities, from the log-probabilities and the labels. -/
theorem stretchD (V : Valuation τ sig (Elt F)) (x0 : (⟨S2048x128, .f32⟩ : BufTy).Contents (Elt F)) (x1 : (⟨S2048, .i32⟩ : BufTy).Contents (Elt F)) (x2 : (⟨S100000x128, .f32⟩ : BufTy).Contents (Elt F))
    (hP : V (Proc.devRef .tc main_v26) = val_main_v26 (F := F) x0 x1 x2) (h1 : V (Proc.devRef .tc main_arg1) = x1) :
    after opsD V (Proc.devRef .tc main_v28) = val_main_v28 (F := F) x0 x1 x2 := by
  after_results
  dsimp only
  rw [hP, h1]
  simp only [TRef.ofBuf_toBuf, ofBuf_main_v26, ofBuf_main_v27, toBuf_main_v28]
  rfl

set_option maxRecDepth 8192 in
set_option maxHeartbeats 2000000 in
/-- Stretch 5: the loss, from the picked and the whole log-probabilities. -/
theorem stretchE (V : Valuation τ sig (Elt F)) (x0 : (⟨S2048x128, .f32⟩ : BufTy).Contents (Elt F)) (x1 : (⟨S2048, .i32⟩ : BufTy).Contents (Elt F)) (x2 : (⟨S100000x128, .f32⟩ : BufTy).Contents (Elt F))
    (hPk : V (Proc.devRef .tc main_v28) = val_main_v28 (F := F) x0 x1 x2) (hP : V (Proc.devRef .tc main_v26) = val_main_v26 (F := F) x0 x1 x2) :
    after opsE V (Proc.devRef .tc main_v41) = val_main_v41 (F := F) x0 x1 x2 := by
  after_results_simp
  rw [hPk, hP]
  rfl

/-! What a stretch does not write it keeps: the labels through the first three stretches, the log-probabilities
    through the fourth. -/

set_option maxRecDepth 8192 in
set_option maxHeartbeats 2000000 in
theorem keepA_arg1 (V : Valuation τ sig (Elt F)) : after opsA V (Proc.devRef .tc main_arg1) = V (Proc.devRef .tc main_arg1) := by
  after_results_simp

set_option maxRecDepth 8192 in
set_option maxHeartbeats 2000000 in
theorem keepB_arg1 (V : Valuation τ sig (Elt F)) : after opsB V (Proc.devRef .tc main_arg1) = V (Proc.devRef .tc main_arg1) := by
  after_results_simp

set_option maxRecDepth 8192 in
set_option maxHeartbeats 2000000 in
theorem keepC_arg1 (V : Valuation τ sig (Elt F)) : after opsC V (Proc.devRef .tc main_arg1) = V (Proc.devRef .tc main_arg1) := by
  after_results_simp

set_option maxRecDepth 8192 in
set_option maxHeartbeats 2000000 in
theorem keepD_v26 (V : Valuation τ sig (Elt F)) : after opsD V (Proc.devRef .tc main_v26) = V (Proc.devRef .tc main_v26) := by
  after_results_simp

/-! ## The whole run -/

/-- After all 104 operations the result buffer holds the last stage of the three arguments. -/
theorem out_eq (V : Valuation τ sig (Elt F)) :
    after ops V (Proc.devRef .tc main_v41)
      = val_main_v41 (F := F) (V (Proc.devRef .tc main_arg0)) (V (Proc.devRef .tc main_arg1)) (V (Proc.devRef .tc main_arg2)) := by
  rw [ops_split, StableHlo.after_append, StableHlo.after_append, StableHlo.after_append, StableHlo.after_append]
  have hA := stretchA V
  have h1A := keepA_arg1 V
  have hB := stretchB (after opsA V) _ _ _ hA h1A
  have h1B := (keepB_arg1 (after opsA V)).trans h1A
  have hC := stretchC (after opsB (after opsA V)) _ _ _ hB
  have h1C := (keepC_arg1 (after opsB (after opsA V))).trans h1B
  have hD := stretchD (after opsC (after opsB (after opsA V))) _ _ _ hC h1C
  have hPD := (keepD_v26 (after opsC (after opsB (after opsA V)))).trans hC
  exact stretchE (after opsD (after opsC (after opsB (after opsA V)))) _ _ _ hD hPD

set_option maxRecDepth 8192 in
set_option maxHeartbeats 8000000 in
/-- On every device, for any float values, from any memory with zero counters: every weakly fair execution of
    @main terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
        = val_main_v41 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v41).trans (out_eq (launchContents m c)),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.ValueP

end
-- ==== Proof.lean ====
/-
  The kernel computes the additive-margin softmax loss with label smoothing tile by tile — the class matrix in 50
  tiles of 2000 rows, three running sums per feature row carried from one class tile to the next, the row losses
  written once per batch tile — and the reference computes it directly through a log-softmax. Over the extended
  reals the kernel's result is the accumulating form of the loss (`Cert.Loss.tiled`) and the reference's the direct
  form (`Cert.Loss.textbook`), each as a function of the three arguments; under the precondition — every entry
  finite, every row of the two matrices of positive squared length, every label a class index — the two forms
  agree: the rows normalise the same way, 30 times the reference's margin is the one number the kernel subtracts,
  and the log-partition does not depend on whether the shift is the row maximum or the bound 30.
-/
import proofs.«430701_j88553635709481_2_alg».proof.Defs
import proofs.«430701_j88553635709481_2_alg».proof.Proof.Gen.Kernel
import proofs.«430701_j88553635709481_2_alg».proof.Proof.Gen.Kernel.Frame
import proofs.«430701_j88553635709481_2_alg».proof.Proof.Gen.KernelIdeal
import proofs.«430701_j88553635709481_2_alg».proof.Proof.Gen.KernelIdeal.Frame
import proofs.«430701_j88553635709481_2_alg».proof.Proof.Gen.ReferenceIdeal
import proofs.«430701_j88553635709481_2_alg».proof.Proof.Gen.Pre_finite_inputs
import proofs.«430701_j88553635709481_2_alg».proof.Proof.KernelRun
import proofs.«430701_j88553635709481_2_alg».proof.Proof.PreFacts
import proofs.«430701_j88553635709481_2_alg».proof.Proof.Agree
import proofs.«430701_j88553635709481_2_alg».proof.Proof.RefValue
import proofs.«430701_j88553635709481_2_alg».proof.Proof.RefRun
import Idealize.ShloMosaic.Adequacy
import Idealize.ShloMosaic.Init

noncomputable section

namespace Cert.Proof

open Idealize.ShloMosaic Idealize.SL.Sem Cert.Loss

/-- The word-level kernel and its idealization run and leave their arguments unchanged. -/
theorem frame_k : Cert.frame_Kernel := fun m ρ _ => Cert.Kernel.Gen.frame m ρ
theorem frame_ki : Cert.frame_KernelIdeal := fun m ρ _ => Cert.KernelIdeal.Gen.frame m ρ

/-- So does the reference: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The two named constants denote, over the extended reals, the values the table gives them: 30 times the f32
    nearest 3/10, and 1/100000. -/
theorem preserves : Cert.preserves_Kernel_KernelIdeal :=
  ⟨IdealRules.named_const.statement Cert.KernelIdeal.κ "scale_times_margin" .f32 0x41100000#32 ((75497475 / 8388608 : ℝ) : EReal) rfl,
    IdealRules.named_const.statement Cert.KernelIdeal.κ "inv_100000" .f32 0x3727C5AC#32 ((1 / 100000 : ℝ) : EReal) rfl⟩

/-- From memories agreeing on the arguments both programs end with the same number: the kernel with the accumulating
    form of the loss of its arguments, the reference with the direct form of the same arguments, which the
    precondition makes equal. -/
theorem algebraic : Cert.algebraic_KernelIdeal_ReferenceIdeal := by
  intro m ρ m' ρ' hpre hagree
  refine ⟨fun c => fun _ => tiled (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Value.run m ρ, ?_⟩
  refine (θ_run Cert.ReferenceIdeal.defs _ _).mono (fun _ h c => ⟨(h c).1.trans ?_, (h c).2⟩)
    (Cert.ReferenceIdeal.ValueP.run (F := Ideal) m' ρ')
  have hadm : Admissible (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) :=
    admissible_of_pre _ _ _ (hpre c)
  rw [(hagree c).1, (hagree c).2.1, (hagree c).2.2]
  exact (Cert.ReferenceIdeal.RefValue.result_eq _ _ _ hadm).trans (by rw [textbook_eq_tiled hadm] <;> rfl)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
